-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S8x1024 : Shape := ⟨2, ![8, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .slt main_arg1 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : FVec F S16384x1024 .f32) (main_arg1 : IVec S16384 32) (main_arg2 : FVec F S8x1024 .f32) (main_arg3 : FVec F S8x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg1 main_v14
  let main_c_5 : IVec S_ 32 := constantI S_ 32 8#32
  fn_part1 (F := F) main_arg1 main_v13 main_v15 main_c_5
-- ==== Kernel.lean ====
abbrev S16384x1024 : Shape := ⟨2, ![16384, 1024]⟩
abbrev S16384 : Shape := ⟨1, ![16384]⟩
abbrev S8x1024 : Shape := ⟨2, ![8, 1024]⟩
abbrev S_ : Shape := ⟨0, ![]⟩
abbrev S8x1x2048 : Shape := ⟨3, ![8, 1, 2048]⟩
abbrev S2x8x1 : Shape := ⟨3, ![2, 8, 1]⟩
abbrev S2x8x1024 : Shape := ⟨3, ![2, 8, 1024]⟩
abbrev S2048x1024 : Shape := ⟨2, ![2048, 1024]⟩
abbrev S1x1x2048 : Shape := ⟨3, ![1, 1, 2048]⟩
abbrev S1x8x1 : Shape := ⟨3, ![1, 8, 1]⟩
abbrev S1x8x1024 : Shape := ⟨3, ![1, 8, 1024]⟩
abbrev S8x1 : Shape := ⟨2, ![8, 1]⟩
abbrev S1x2048 : Shape := ⟨2, ![1, 2048]⟩
abbrev S8x2048 : Shape := ⟨2, ![8, 2048]⟩
abbrev S8 : Shape := ⟨1, ![8]⟩

abbrev nBuf : Space → Nat
  | .hbm => 71
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S8x1024, .f32⟩
  | .hbm, ⟨3, _⟩ => ⟨S8x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S8x1x2048, .i32⟩
  | .hbm, ⟨13, _⟩ => ⟨S2x8x1, .f32⟩
  | .hbm, ⟨14, _⟩ => ⟨S2x8x1024, .f32⟩
  | .hbm, ⟨15, _⟩ => ⟨S2x8x1024, .f32⟩
  | .hbm, ⟨16, _⟩ => ⟨S_, .f32⟩
  | .hbm, ⟨17, _⟩ => ⟨S8x1, .f32⟩
  | .hbm, ⟨18, _⟩ => ⟨S_, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S_, .f32⟩
  | .hbm, ⟨23, _⟩ => ⟨S8x1, .f32⟩
  | .hbm, ⟨24, _⟩ => ⟨S8x1, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S8x1024, .f32⟩
  | .hbm, ⟨37, _⟩ => ⟨S8x1024, .f32⟩
  | .hbm, ⟨38, _⟩ => ⟨S8x1024, .f32⟩
  | .hbm, ⟨39, _⟩ => ⟨S_, .f32⟩
  | .hbm, ⟨40, _⟩ => ⟨S8x1, .f32⟩
  | .hbm, ⟨41, _⟩ => ⟨S8x1, .i1⟩
  | .hbm, ⟨42, _⟩ => ⟨S_, .f32⟩
  | .hbm, ⟨43, _⟩ => ⟨S8x1, .f32⟩
  | .hbm, ⟨44, _⟩ => ⟨S8x1, .i1⟩
  | .hbm, ⟨45, _⟩ => ⟨S_, .f32⟩
  | .hbm, ⟨46, _⟩ => ⟨S8x1024, .f32⟩
  | .hbm, ⟨47, _⟩ => ⟨S_, .f32⟩
  | .hbm, ⟨48, _⟩ => ⟨S8x1024, .f32⟩
  | .hbm, ⟨49, _⟩ => ⟨S8x1024, .i1⟩
  | .hbm, ⟨50, _⟩ => ⟨S8x1024, .f32⟩
  | .hbm, ⟨51, _⟩ => ⟨S8x1024, .i1⟩
  | .hbm, ⟨52, _⟩ => ⟨S8x1024, .f32⟩
  | .hbm, ⟨53, _⟩ => ⟨S_, .f32⟩
  | .hbm, ⟨54, _⟩ => ⟨S8x1024, .f32⟩
  | .hbm, ⟨55, _⟩ => ⟨S_, .f32⟩
  | .hbm, ⟨56, _⟩ => ⟨S8x1024, .f32⟩
  | .hbm, ⟨57, _⟩ => ⟨S8x1024, .i1⟩
  | .hbm, ⟨58, _⟩ => ⟨S8x1024, .f32⟩
  | .hbm, ⟨59, _⟩ => ⟨S8x1024, .i1⟩
  | .hbm, ⟨60, _⟩ => ⟨S8x1024, .f32⟩
  | .hbm, ⟨61, _⟩ => ⟨S8x1024, .bf16⟩
  | .hbm, ⟨62, _⟩ => ⟨S8x1024, .f32⟩
  | .hbm, ⟨63, _⟩ => ⟨S8x1024, .f32⟩
  | .hbm, ⟨64, _⟩ => ⟨S8x1024, .bf16⟩
  | .hbm, ⟨65, _⟩ => ⟨S8x1024, .bf16⟩
  | .hbm, ⟨66, _⟩ => ⟨S8x1024, .f32⟩
  | .hbm, ⟨67, _⟩ => ⟨S8x1024, .f32⟩
  | .hbm, ⟨68, _⟩ => ⟨S8x1024, .bf16⟩
  | .hbm, ⟨69, _⟩ => ⟨S8x1x2048, .i32⟩
  | .hbm, ⟨70, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S1x1x2048, .i32⟩
  | .local _ .vmem, ⟨3, _⟩ => ⟨S1x1x2048, .i32⟩
  | .local _ .vmem, ⟨4, _⟩ => ⟨S1x8x1, .f32⟩
  | .local _ .vmem, ⟨5, _⟩ => ⟨S1x8x1, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S2048x1024, .f32⟩
  | .local _ .vmem, ⟨11, _⟩ => ⟨S2048x1024, .f32⟩
  | .local _ .vmem, ⟨12, _⟩ => ⟨S1x1x2048, .i32⟩
  | .local _ .vmem, ⟨13, _⟩ => ⟨S1x1x2048, .i32⟩
  | .local _ .vmem, ⟨14, _⟩ => ⟨S8x1024, .bf16⟩
  | .local _ .vmem, ⟨15, _⟩ => ⟨S8x1024, .bf16⟩
  | .local _ .vmem, ⟨16, _⟩ => ⟨S8x1024, .bf16⟩
  | .local _ .vmem, ⟨17, _⟩ => ⟨S8x1024, .bf16⟩
  | .local _ .vmem, ⟨18, _⟩ => ⟨S2048x1024, .f32⟩
  | .local _ .vmem, ⟨19, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_cst : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_call1_v0 : Ref sig .tc := ⟨.hbm, 49, rfl⟩
abbrev main_v27 : Ref sig .tc := ⟨.hbm, 50, rfl⟩
abbrev main_call2_v0 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_call3_v0 : Ref sig .tc := ⟨.hbm, 57, rfl⟩
abbrev main_v31 : Ref sig .tc := ⟨.hbm, 58, rfl⟩
abbrev main_call4_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S16384 : S_.BroadcastsInDim S16384 (![] : Fin 0 → Fin S16384.rank)
  shapeCasts_S16384_S8x1x2048 : S16384.ShapeCasts S8x1x2048
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  shapeCasts_S8x1_S1x8x1 : S8x1.ShapeCasts S1x8x1
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  shapeCasts_S8x1024_S1x8x1024 : S8x1024.ShapeCasts S1x8x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  iota_S8x2048_d0_w32 : S8x2048.Iotas .tc 32 [0]
  broadcasts_S1x2048_S8x2048 : S1x2048.Broadcasts S8x2048
  natLt_1_32 : 1 < 32
  inb_S2048x1024_S2048x1024_0_0 : ∀ a, (![0, 0] : Fin 2 → Nat) a + S2048x1024.size a ≤ S2048x1024.size a
  h_S2048x1024 : 0 < S2048x1024.numel
  reduces_S8x2048_S8 : S8x2048.Reduces [1] S8
  shapeCasts_S8_S8x1 : S8.ShapeCasts S8x1
  reducesTo_S2x8x1_S8x1_d0 : S2x8x1.ReducesTo [0] S8x1
  h_S_ : 0 < S_.numel
  reducesTo_S2x8x1024_S8x1024_d0 : S2x8x1024.ReducesTo [0] S8x1024
  bcast_S_S8x1 : S_.BroadcastsInDim S8x1 (![] : Fin 0 → Fin S8x1.rank)
  bcast_S8x1_S8x1024_0_1 : S8x1.BroadcastsInDim S8x1024 (![0, 1] : Fin 2 → Fin S8x1024.rank)
  bcast_S_S8x1024 : S_.BroadcastsInDim S8x1024 (![] : Fin 0 → Fin S8x1024.rank)
  bitsLt_bf16_f32 : FTy.bits .bf16 < FTy.bits .f32
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  dot_S8x2048_S2048x1024_S8x1024_1_0_0_1_n_n_wf : DotDims.WF S8x2048 S2048x1024 S8x1024 [1] [0] [0] [1] [] []
  dot_S8x2048_S8x1024_S2048x1024_0_0_1_1_n_n_wf : DotDims.WF S8x2048 S8x1024 S2048x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S8x1x2048.size a
  hwx0_1 : ∀ i : grid0.Coords, EltTy.bits .i32 = 32 ∨ (Rect.block (s := S8x1x2048) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1.size a ≤ S2x8x1.size a
  hwx0_2 : ∀ i : grid0.Coords, EltTy.bits .f32 = 32 ∨ (Rect.block (s := S2x8x1) S1x8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1024.size a ≤ S2x8x1024.size a
  hwx0_3 : ∀ i : grid0.Coords, EltTy.bits .f32 = 32 ∨ (Rect.block (s := S2x8x1024) S1x8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x1024.size a ≤ S2x8x1024.size a
  hwx0_4 : ∀ i : grid0.Coords, EltTy.bits .f32 = 32 ∨ (Rect.block (s := S2x8x1024) S1x8x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x1024.size a
  hwx1_0 : ∀ i : grid1.Coords, EltTy.bits .f32 = 32 ∨ (Rect.block (s := S16384x1024) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048.size a ≤ S8x1x2048.size a
  hwx1_1 : ∀ i : grid1.Coords, EltTy.bits .i32 = 32 ∨ (Rect.block (s := S8x1x2048) S1x1x2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S8x1024.size a
  hwx1_2 : ∀ i : grid1.Coords, EltTy.bits .bf16 = 32 ∨ (Rect.block (s := S8x1024) S8x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1024.size a ≤ S8x1024.size a
  hwx1_3 : ∀ i : grid1.Coords, EltTy.bits .bf16 = 32 ∨ (Rect.block (s := S8x1024) S8x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1024.size a ≤ S8x1024.size a
  hwx1_4 : ∀ i : grid1.Coords, EltTy.bits .bf16 = 32 ∨ (Rect.block (s := S8x1024) S8x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x1024.size a ≤ S8x1024.size a
  hwx1_5 : ∀ i : grid1.Coords, EltTy.bits .bf16 = 32 ∨ (Rect.block (s := S8x1024) S8x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x1024.size a ≤ S16384x1024.size a
  hwx1_6 : ∀ i : grid1.Coords, EltTy.bits .f32 = 32 ∨ (Rect.block (s := S16384x1024) S2048x1024.size (cc1_transform_6 i) (hinb1_6 i)).WholeWords (EltTy.packing .f32)

variable [Facts₀]

def dot_S8x2048_S2048x1024_S8x1024_1_0_0_1_n_n : DotDims S8x2048 S2048x1024 S8x1024 where
  lhsContracting := [1]
  rhsContracting := [0]
  lhsNonContracting := [0]
  rhsNonContracting := [1]
  lhsBatch := []
  rhsBatch := []
  wf := dot_S8x2048_S2048x1024_S8x1024_1_0_0_1_n_n_wf
def dot_S8x2048_S8x1024_S2048x1024_0_0_1_1_n_n : DotDims S8x2048 S8x1024 S2048x1024 where
  lhsContracting := [0]
  rhsContracting := [0]
  lhsNonContracting := [1]
  rhsNonContracting := [1]
  lhsBatch := []
  rhsBatch := []
  wf := dot_S8x2048_S8x1024_S2048x1024_0_0_1_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S8x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S8x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S8x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S8x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S2048x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S16384 : Shape := ⟨1, ![16384]⟩
abbrev S8x1024 : Shape := ⟨2, ![8, 1024]⟩
abbrev S_ : Shape := ⟨0, ![]⟩
abbrev S8 : Shape := ⟨1, ![8]⟩
abbrev S16384x1 : Shape := ⟨2, ![16384, 1]⟩
abbrev S8x1 : Shape := ⟨2, ![8, 1]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S8, .f32⟩
  | .hbm, ⟨8, _⟩ => ⟨S16384x1, .i32⟩
  | .hbm, ⟨9, _⟩ => ⟨S8, .f32⟩
  | .hbm, ⟨10, _⟩ => ⟨S_, .f32⟩
  | .hbm, ⟨11, _⟩ => ⟨S8x1024, .f32⟩
  | .hbm, ⟨12, _⟩ => ⟨S16384x1, .i32⟩
  | .hbm, ⟨13, _⟩ => ⟨S8x1024, .f32⟩
  | .hbm, ⟨14, _⟩ => ⟨S16384x1024, .f32⟩
  | .hbm, ⟨15, _⟩ => ⟨S_, .f32⟩
  | .hbm, ⟨16, _⟩ => ⟨S8x1024, .f32⟩
  | .hbm, ⟨17, _⟩ => ⟨S16384x1, .i32⟩
  | .hbm, ⟨18, _⟩ => ⟨S8x1024, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8x1, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S_, .f32⟩
  | .hbm, ⟨30, _⟩ => ⟨S8x1024, .f32⟩
  | .hbm, ⟨31, _⟩ => ⟨S8x1024, .f32⟩
  | .hbm, ⟨32, _⟩ => ⟨S8x1024, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S16384x1024, .f32⟩
  | .hbm, ⟨42, _⟩ => ⟨S16384x1024, .f32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384x1024, .f32⟩
  | .hbm, ⟨52, _⟩ => ⟨S16384x1024, .f32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S16384x1, .i32⟩
  | .hbm, ⟨61, _⟩ => ⟨S16384x1024, .f32⟩
  | .hbm, ⟨62, _⟩ => ⟨S16384x1024, .f32⟩
  | .hbm, ⟨63, _⟩ => ⟨S_, .i32⟩
  | .hbm, ⟨64, _⟩ => ⟨S16384, .i32⟩
  | .hbm, ⟨65, _⟩ => ⟨S16384, .i1⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .i32⟩
  | .hbm, ⟨70, _⟩ => ⟨S16384x1, .i32⟩
  | .hbm, ⟨71, _⟩ => ⟨S16384x1024, .f32⟩
  | .hbm, ⟨72, _⟩ => ⟨S16384x1024, .f32⟩
  | .hbm, ⟨73, _⟩ => ⟨S_, .i32⟩
  | .hbm, ⟨74, _⟩ => ⟨S16384, .i32⟩
  | .hbm, ⟨75, _⟩ => ⟨S16384, .i1⟩
  | .hbm, ⟨76, _⟩ => ⟨S_, .i32⟩
  | .hbm, ⟨77, _⟩ => ⟨S16384, .i32⟩
  | .hbm, ⟨78, _⟩ => ⟨S16384, .i32⟩
  | .hbm, ⟨79, _⟩ => ⟨S16384, .i32⟩
  | .hbm, ⟨80, _⟩ => ⟨S16384x1, .i32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .i1⟩
  | .hbm, ⟨86, _⟩ => ⟨S_, .f32⟩
  | .hbm, ⟨87, _⟩ => ⟨S16384x1, .f32⟩
  | .hbm, ⟨88, _⟩ => ⟨S16384x1, .i1⟩
  | .hbm, ⟨89, _⟩ => ⟨S_, .f32⟩
  | .hbm, ⟨90, _⟩ => ⟨S16384x1024, .f32⟩
  | .hbm, ⟨91, _⟩ => ⟨S16384x1024, .i1⟩
  | .hbm, ⟨92, _⟩ => ⟨S16384x1024, .f32⟩
  | .hbm, ⟨93, _⟩ => ⟨S16384x1024, .i1⟩
  | .hbm, ⟨94, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_c_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_12 : Ref sig .tc := ⟨.hbm, 73, rfl⟩
abbrev main_v55 : Ref sig .tc := ⟨.hbm, 74, rfl⟩
abbrev main_v56 : Ref sig .tc := ⟨.hbm, 75, rfl⟩
abbrev main_c_13 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_cst_15 : Ref sig .tc := ⟨.hbm, 86, rfl⟩
abbrev main_v65 : Ref sig .tc := ⟨.hbm, 87, rfl⟩
abbrev main_v66 : Ref sig .tc := ⟨.hbm, 88, rfl⟩
abbrev main_cst_16 : Ref sig .tc := ⟨.hbm, 89, rfl⟩
abbrev main_v67 : Ref sig .tc := ⟨.hbm, 90, rfl⟩
abbrev main_call0_v0 : Ref sig .tc := ⟨.hbm, 91, rfl⟩
abbrev main_v68 : Ref sig .tc := ⟨.hbm, 92, rfl⟩
abbrev main_call1_v0 : Ref sig .tc := ⟨.hbm, 93, rfl⟩
abbrev main_v69 : Ref sig .tc := ⟨.hbm, 94, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S_S8 : S_.BroadcastsInDim S8 (![] : Fin 0 → Fin S8.rank)
  bcast_S16384_S16384x1_0 : S16384.BroadcastsInDim S16384x1 (![0] : Fin 1 → Fin S16384x1.rank)
  bcast_S_S8x1024 : S_.BroadcastsInDim S8x1024 (![] : Fin 0 → Fin S8x1024.rank)
  bcast_S8_S8x1_0 : S8.BroadcastsInDim S8x1 (![0] : Fin 1 → Fin S8x1.rank)
  bcast_S8x1_S8x1024_0_1 : S8x1.BroadcastsInDim S8x1024 (![0, 1] : Fin 2 → Fin S8x1024.rank)
  bcast_S_S16384x1 : S_.BroadcastsInDim S16384x1 (![] : Fin 0 → Fin S16384x1.rank)
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  scatter_S8_S16384x1_S16384_n_0_0_1_wf : ScatterDims.WF S8 S16384x1 S16384 [] [0] [0] 1
  scatter_S8x1024_S16384x1_S16384x1024_1_0_0_1_wf : ScatterDims.WF S8x1024 S16384x1 S16384x1024 [1] [0] [0] 1
  gather_S8x1024_S16384x1_S16384x1024_1_0_n_n_0_1_11024_wf : GatherDims.WF S8x1024 S16384x1 S16384x1024 [1] [0] [] [0] [] 1 ![1, 1024]
  gather_S8_S16384x1_S16384_n_0_n_n_0_1_1_wf : GatherDims.WF S8 S16384x1 S16384 [] [0] [] [0] [] 1 ![1]

variable [Facts₀]

def scatter_S8_S16384x1_S16384_n_0_0_1 : ScatterDims S8 S16384x1 S16384 where
  updateWindowDims := []
  insertedWindowDims := [0]
  scatterDimsToOperandDims := [0]
  indexVectorDim := 1
  wf := scatter_S8_S16384x1_S16384_n_0_0_1_wf
def scatter_S8x1024_S16384x1_S16384x1024_1_0_0_1 : ScatterDims S8x1024 S16384x1 S16384x1024 where
  updateWindowDims := [1]
  insertedWindowDims := [0]
  scatterDimsToOperandDims := [0]
  indexVectorDim := 1
  wf := scatter_S8x1024_S16384x1_S16384x1024_1_0_0_1_wf
def gather_S8x1024_S16384x1_S16384x1024_1_0_n_n_0_1_11024 : GatherDims S8x1024 S16384x1 S16384x1024 where
  offsetDims := [1]
  collapsedSliceDims := [0]
  operandBatchingDims := []
  startIndicesBatchingDims := []
  startIndexMap := [0]
  indexVectorDim := 1
  sliceSizes := ![1, 1024]
  wf := gather_S8x1024_S16384x1_S16384x1024_1_0_n_n_0_1_11024_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf

class Facts : Prop extends Facts₀ where

variable [Facts]
-- ==== Proof.Spec.lean ====
/-
  Per-domain batch normalisation of the rows of `x : [16384, 1024]` grouped by the labels `y : [16384]` in `[0, 8)`,
  as plain functions of the argument arrays over the extended reals.

  Everything both programs compute is a function of three families of sums over ALL rows, an indicator selecting the
  rows of a domain `d`:
    `cnt d   = Σ_n [y n = d]`,   `sum1 d f = Σ_n [y n = d] · x n f`,   `sum2 d f = Σ_n [y n = d] · (x n f)²`.
  From them: `mean = sum1 / max cnt 1`, `var = sum2 / max cnt 1 − mean²`, `inv = (var + ε)^(-1/2)`.

  `Gk` is the result in the shape the two-pass program computes it: per-domain tables `scaleT`, `shiftT` (the
  empty domain's and the singleton domain's entries folded in), each table split into itself and its own residual
  `t − t`, each of the four read at a row's label by a sum against the label's indicator, and `x · scale + shift`.
  `Gr` is the result in the shape the direct program computes it: the row's domain `d`, and by `cnt d`:
  `γ · ((x − mean) · inv) + β` above one, `x` at one, `0` at zero.
-/
import Idealize.ShloMosaic.PureOps.Ideal
import Idealize.ShloMosaic.Lib.ValueIdx

noncomputable section

namespace Cert.DomainNorm

open Idealize.ShloMosaic Idealize.ShloMosaic.ValueIdx

abbrev SX : Shape := ⟨2, ![16384, 1024]⟩
abbrev SY : Shape := ⟨1, ![16384]⟩
abbrev ST : Shape := ⟨2, ![8, 1024]⟩

/-- Row `n`'s label, read as a signed integer. -/
def lab (y : IVec SY 32) (n : Fin 16384) : ℤ := (y (ix1 n)).toInt

/-- Every label names one of the eight domains. -/
def InRange (y : IVec SY 32) : Prop := ∀ n : Fin 16384, 0 ≤ lab y n ∧ lab y n < 8

/-- Row `n`'s domain (the label itself when it is in range). -/
def dom (y : IVec SY 32) (n : Fin 16384) : Fin 8 := ⟨(lab y n).toNat % 8, Nat.mod_lt _ (by decide)⟩

/-- The indicator of "row `n` belongs to domain `d`", as an extended real. -/
def ind (y : IVec SY 32) (d : Fin 8) (n : Fin 16384) : EReal := if lab y n = (d.val : ℤ) then 1 else 0

/-- The number of rows of domain `d`. -/
def cnt (y : IVec SY 32) (d : Fin 8) : EReal := ∑ n : Fin 16384, ind y d n

/-- The sum of column `f` over the rows of domain `d`. -/
def sum1 (x : SX.Idx → EReal) (y : IVec SY 32) (d : Fin 8) (f : Fin 1024) : EReal :=
  ∑ n : Fin 16384, ind y d n * x (ix2 n f)

/-- The sum of the squares of column `f` over the rows of domain `d`. -/
def sum2 (x : SX.Idx → EReal) (y : IVec SY 32) (d : Fin 8) (f : Fin 1024) : EReal :=
  ∑ n : Fin 16384, ind y d n * (x (ix2 n f) * x (ix2 n f))

/-- The variance's `ε`: the f32 nearest to `1e-5`. -/
def eps : EReal := Ideal.ofBits .f32 0x3727C5AC#32

/-- The divisor: the count, or one for an empty domain. -/
def cntS (y : IVec SY 32) (d : Fin 8) : EReal := max (cnt y d) 1

def mean (x : SX.Idx → EReal) (y : IVec SY 32) (d : Fin 8) (f : Fin 1024) : EReal :=
  Ideal.div (sum1 x y d f) (cntS y d)

def var (x : SX.Idx → EReal) (y : IVec SY 32) (d : Fin 8) (f : Fin 1024) : EReal :=
  Ideal.div (sum2 x y d f) (cntS y d) - mean x y d f * mean x y d f

def inv (x : SX.Idx → EReal) (y : IVec SY 32) (d : Fin 8) (f : Fin 1024) : EReal :=
  Ideal.rsqrt (var x y d f + eps)

/-- The scale table: `γ · inv`, but `1` for a singleton domain and `0` for an empty one. -/
def scaleT (x : SX.Idx → EReal) (y : IVec SY 32) (g : ST.Idx → EReal) (d : Fin 8) (f : Fin 1024) : EReal :=
  if cnt y d = 0 then 0 else if cnt y d = 1 then 1 else g (ix2 d f) * inv x y d f

/-- The shift table: `β − (γ · inv) · mean`, but `0` for a singleton or an empty domain. -/
def shiftT (x : SX.Idx → EReal) (y : IVec SY 32) (g b : ST.Idx → EReal) (d : Fin 8) (f : Fin 1024) : EReal :=
  if cnt y d = 0 then 0 else if cnt y d = 1 then 0 else b (ix2 d f) - g (ix2 d f) * inv x y d f * mean x y d f

/-- A table read at row `n`'s label by a sum against the label's indicator. -/
def pick (y : IVec SY 32) (t : Fin 8 → EReal) (n : Fin 16384) : EReal := ∑ d : Fin 8, ind y d n * t d

/-- The result in the two-pass shape: `x · (scale + (scale − scale)) + (shift + (shift − shift))`, each of the four
    tables picked at the row's label. -/
def Gk (x : SX.Idx → EReal) (y : IVec SY 32) (g b : ST.Idx → EReal) : SX.Idx → EReal := fun i =>
  x i * (pick y (fun d => scaleT x y g d (i 1)) (i 0) + pick y (fun d => scaleT x y g d (i 1) - scaleT x y g d (i 1)) (i 0))
    + (pick y (fun d => shiftT x y g b d (i 1)) (i 0) + pick y (fun d => shiftT x y g b d (i 1) - shiftT x y g b d (i 1)) (i 0))

/-- The result in the direct shape, by the size of the row's domain. -/
def Gr (x : SX.Idx → EReal) (y : IVec SY 32) (g b : ST.Idx → EReal) : SX.Idx → EReal := fun i =>
  let d := dom y (i 0)
  if 1 < cnt y d then g (ix2 d (i 1)) * ((x i - mean x y d (i 1)) * inv x y d (i 1)) + b (ix2 d (i 1))
  else if cnt y d = 1 then x i else 0

/-- Every entry is a real number. -/
def Finite {s : Shape} (a : s.Idx → EReal) : Prop := ∀ i, ∃ r : ℝ, a i = (r : EReal)

end Cert.DomainNorm

end
-- ==== Proof.KDefs.lean ====
/-
  Shared vocabulary for reading the two-pass program's run.

  The program compares each row's label word with the words `0 … 7` (`oh3`: the indicator as the kernel computes it,
  on the labels laid out as `[8, 1, 2048]`), sums indicators, rows and squared rows over each half of the rows
  separately (`cntP`, `sum1P`, `sum2P`: the half `k` holds the rows `8192·k … 8192·k + 8191`), adds the two halves on the
  host, and turns the three sums of a domain and a column into one entry of the scale table and one of the shift
  table (`scaleOf`, `shiftOf`: the host's chain on scalars).
-/
import proofs.«420900_j1090921693630_3_alg».proof.Proof.Spec
import proofs.«420900_j1090921693630_3_alg».proof.Proof.Gen.KernelIdeal.Frame

noncomputable section

namespace Cert.KernelIdeal.KV

open Idealize.ShloMosaic Idealize.ShloMosaic.TcCoe Idealize.SL.Sem Idealize.ShloMosaic.ValueIdx
open Cert.KernelIdeal Cert.KernelIdeal.Gen Cert.DomainNorm

abbrev SY3 : Shape := ⟨3, ![8, 1, 2048]⟩
abbrev SP0 : Shape := ⟨3, ![2, 8, 1]⟩
abbrev SP1 : Shape := ⟨3, ![2, 8, 1024]⟩

/-- Row `n`'s place in the labels laid out as eight blocks of 2048. -/
def at3 (n : Fin 16384) : SY3.Idx :=
  ix3 (⟨n.val / 2048, by have := n.isLt; omega⟩ : Fin 8) (0 : Fin 1) (⟨n.val % 2048, Nat.mod_lt _ (by decide)⟩ : Fin 2048)

/-- The indicator the kernels compute: `1` where row `n`'s label word is the word `d`, else `0`. -/
def oh3 (y3 : IVec SY3 32) (d : Fin 8) (n : Fin 16384) : EReal := if y3 (at3 n) = BitVec.ofNat 32 d.val then 1 else 0

/-- The number of rows of domain `d` in half `k` of the rows. -/
def cntP (y3 : IVec SY3 32) (k : Fin 2) (d : Fin 8) : EReal :=
  ∑ n : Fin 16384, if n.val / 8192 = k.val then oh3 y3 d n else 0

/-- Column `f` summed over the rows of domain `d` in half `k`. -/
def sum1P (x : SX.Idx → EReal) (y3 : IVec SY3 32) (k : Fin 2) (d : Fin 8) (f : Fin 1024) : EReal :=
  ∑ n : Fin 16384, if n.val / 8192 = k.val then oh3 y3 d n * x (ix2 n f) else 0

/-- The squares of column `f` summed over the rows of domain `d` in half `k`. -/
def sum2P (x : SX.Idx → EReal) (y3 : IVec SY3 32) (k : Fin 2) (d : Fin 8) (f : Fin 1024) : EReal :=
  ∑ n : Fin 16384, if n.val / 8192 = k.val then oh3 y3 d n * (x (ix2 n f) * x (ix2 n f)) else 0

/-- One entry of the scale table from a domain's count `C`, a column's sums `S1`, `S2` and `γ`. -/
def scaleOf (C S1 S2 g : EReal) : EReal :=
  if C = 0 then 0 else if C = 1 then 1
  else g * Ideal.rsqrt ((Ideal.div S2 (max C 1) - Ideal.div S1 (max C 1) * Ideal.div S1 (max C 1)) + eps)

/-- One entry of the shift table from the same and `β`. -/
def shiftOf (C S1 S2 g b : EReal) : EReal :=
  if C = 0 then 0 else if C = 1 then 0
  else b - g * Ideal.rsqrt ((Ideal.div S2 (max C 1) - Ideal.div S1 (max C 1) * Ideal.div S1 (max C 1)) + eps)
    * Ideal.div S1 (max C 1)

theorem scaleT_eq (x : SX.Idx → EReal) (y : IVec SY 32) (g : ST.Idx → EReal) (d : Fin 8) (f : Fin 1024) :
    scaleT x y g d f = scaleOf (cnt y d) (sum1 x y d f) (sum2 x y d f) (g (ix2 d f)) := rfl

theorem shiftT_eq (x : SX.Idx → EReal) (y : IVec SY 32) (g b : ST.Idx → EReal) (d : Fin 8) (f : Fin 1024) :
    shiftT x y g b d f = shiftOf (cnt y d) (sum1 x y d f) (sum2 x y d f) (g (ix2 d f)) (b (ix2 d f)) := rfl

variable (m : (ℓ : Loc nD τ sig) → Buf (Elt Ideal) ℓ) (ρ : Dev nD → PrngReg)

/-- The four argument arrays as launched, at their literal types. -/
abbrev argX (c : Dev nD) : SX.Idx → EReal := m ((c.tc : Thread nD τ).loc main_arg0)
abbrev argY (c : Dev nD) : IVec SY 32 := m ((c.tc : Thread nD τ).loc main_arg1)
abbrev argG (c : Dev nD) : ST.Idx → EReal := m ((c.tc : Thread nD τ).loc main_arg2)
abbrev argB (c : Dev nD) : ST.Idx → EReal := m ((c.tc : Thread nD τ).loc main_arg3)

/-- The first pass's entry contents: the rows and the laid-out labels. -/
abbrev x0 (c : Dev nD) : SX.Idx → EReal := V3 m ρ c main_arg0
abbrev y0 (c : Dev nD) : IVec SY3 32 := V3 m ρ c main_v1
/-- The first pass's three outputs. -/
abbrev p0 (c : Dev nD) : SP0.Idx → EReal := W4 m ρ c (Proc.devRef .tc main_v2_0)
abbrev p1 (c : Dev nD) : SP1.Idx → EReal := W4 m ρ c (Proc.devRef .tc main_v2_1)
abbrev p2 (c : Dev nD) : SP1.Idx → EReal := W4 m ρ c (Proc.devRef .tc main_v2_2)
/-- The second pass's entry contents: the rows, the laid-out labels and the four tables. -/
abbrev x1 (c : Dev nD) : SX.Idx → EReal := V11 m ρ c main_arg0
abbrev y1 (c : Dev nD) : IVec SY3 32 := V11 m ρ c main_v41
abbrev tHi (c : Dev nD) : ST.Idx → EReal := V11 m ρ c main_v33
abbrev tLo (c : Dev nD) : ST.Idx → EReal := V11 m ρ c main_v36
abbrev uHi (c : Dev nD) : ST.Idx → EReal := V11 m ρ c main_v37
abbrev uLo (c : Dev nD) : ST.Idx → EReal := V11 m ρ c main_v40
/-- The result array when the program returns. -/
abbrev out (c : Dev nD) : SX.Idx → EReal := W12 m ρ c (Proc.devRef .tc main_v42)

end Cert.KernelIdeal.KV

end
-- ==== Proof.KRegion0.lean ====
/-
  The first pass, read: each of its three output arrays `[2, 8, ·]` holds, at half `k` and domain `d`, the sum over
  the rows of that half of the label indicator, of indicator times row, and of indicator times squared row.

  The pass visits the 16384 rows in eight blocks of 2048, four blocks to a half. At a block it forms the indicator of
  "row's label word is `d`" as an `8 × 2048` matrix of zeros and ones and adds, to three running buffers, its lane sums,
  its product with the block's rows and its product with the squared rows; the first block of a half starts the buffers
  from zero and the last block of a half writes them to the half's slab of the three arrays. So the proof reads: what one
  block leaves (the buffers before, plus three sums over the block's 2048 rows); four blocks in a row from zero; a sum
  over the rows of a half is the sum of its four blocks' sums; the two slabs written cover the arrays.
-/
import proofs.«420900_j1090921693630_3_alg».proof.Proof.KDefs
import Idealize.ShloMosaic.Lib.Pipeline.Value
import Idealize.ShloMosaic.Lib.Tactic
import Idealize.ShloMosaic.Lib.ValueLayout
import Idealize.ShloMosaic.PureOps.Ideal.Laws

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.DomainNorm

namespace R0

/-! ## What one grid point leaves in the three staging buffers

At a point that continues a half (case B) the body reads the running contents and leaves them plus the block's
contribution; at a point that opens a half (case A) it first stores zeros, reads them back, and leaves zero plus the
block's contribution. -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem out_B_2 (c : Dev nD) (i : grid0.Coords) (a2 : Memref sig .tc .vmem S2048x1024 .f32) (h2 : a2.IsWhole)
    (a3 : Memref sig .tc .vmem S1x1x2048 .i32) (h3 : a3.IsWhole) (a4 : Memref sig .tc .vmem S1x8x1 .f32) (h4 : a4.IsWhole)
    (a5 : Memref sig .tc .vmem S1x8x1024 .f32) (h5 : a5.IsWhole) (a6 : Memref sig .tc .vmem S1x8x1024 .f32) (h6 : a6.IsWhole)
    (hc : ¬cond0_0 i) (x0 : Vec F S2048x1024 .f32) (x1 : Vec F S1x1x2048 .i32) (xo2 : Vec F S1x8x1 .f32)
    (xo3 : Vec F S1x8x1024 .f32) (xo4 : Vec F S1x8x1024 .f32) :
    out0_B_2 c i a2 h2 a3 h3 a4 h4 a5 h5 a6 h6 hc x0 x1 xo2 xo3 xo4 = k0_pay1 (k0_pay8 xo2) (k0_pay9 x1) := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h3.read_unread, h4.read_unread, View.ld_unit_zero (S := S1x1x2048) hz3,
    View.ld_unit_zero (S := S1x8x1) hz3]

theorem out_B_3 (c : Dev nD) (i : grid0.Coords) (a2 : Memref sig .tc .vmem S2048x1024 .f32) (h2 : a2.IsWhole)
    (a3 : Memref sig .tc .vmem S1x1x2048 .i32) (h3 : a3.IsWhole) (a4 : Memref sig .tc .vmem S1x8x1 .f32) (h4 : a4.IsWhole)
    (a5 : Memref sig .tc .vmem S1x8x1024 .f32) (h5 : a5.IsWhole) (a6 : Memref sig .tc .vmem S1x8x1024 .f32) (h6 : a6.IsWhole)
    (hc : ¬cond0_0 i) (x0 : Vec F S2048x1024 .f32) (x1 : Vec F S1x1x2048 .i32) (xo2 : Vec F S1x8x1 .f32)
    (xo3 : Vec F S1x8x1024 .f32) (xo4 : Vec F S1x8x1024 .f32) :
    out0_B_3 c i a2 h2 a3 h3 a4 h4 a5 h5 a6 h6 hc x0 x1 xo2 xo3 xo4 = k0_pay6 x1 x0 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h5.read_unread, View.ld_unit_zero (S := S1x1x2048) hz3,
    View.ld_unit_zero (S := S1x8x1024) hz3, View.ld_unit_zero (S := S2048x1024) hz2]

theorem out_B_4 (c : Dev nD) (i : grid0.Coords) (a2 : Memref sig .tc .vmem S2048x1024 .f32) (h2 : a2.IsWhole)
    (a3 : Memref sig .tc .vmem S1x1x2048 .i32) (h3 : a3.IsWhole) (a4 : Memref sig .tc .vmem S1x8x1 .f32) (h4 : a4.IsWhole)
    (a5 : Memref sig .tc .vmem S1x8x1024 .f32) (h5 : a5.IsWhole) (a6 : Memref sig .tc .vmem S1x8x1024 .f32) (h6 : a6.IsWhole)
    (hc : ¬cond0_0 i) (x0 : Vec F S2048x1024 .f32) (x1 : Vec F S1x1x2048 .i32) (xo2 : Vec F S1x8x1 .f32)
    (xo3 : Vec F S1x8x1024 .f32) (xo4 : Vec F S1x8x1024 .f32) :
    out0_B_4 c i a2 h2 a3 h3 a4 h4 a5 h5 a6 h6 hc x0 x1 xo2 xo3 xo4 = k0_pay7 x1 x0 xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h6.read_unread, View.ld_unit_zero (S := S1x1x2048) hz3,
    View.ld_unit_zero (S := S1x8x1024) hz3, View.ld_unit_zero (S := S2048x1024) hz2]

theorem out_A_2 (c : Dev nD) (i : grid0.Coords) (a2 : Memref sig .tc .vmem S2048x1024 .f32) (h2 : a2.IsWhole)
    (a3 : Memref sig .tc .vmem S1x1x2048 .i32) (h3 : a3.IsWhole) (a4 : Memref sig .tc .vmem S1x8x1 .f32) (h4 : a4.IsWhole)
    (a5 : Memref sig .tc .vmem S1x8x1024 .f32) (h5 : a5.IsWhole) (a6 : Memref sig .tc .vmem S1x8x1024 .f32) (h6 : a6.IsWhole)
    (hc : cond0_0 i) (x0 : Vec F S2048x1024 .f32) (x1 : Vec F S1x1x2048 .i32) :
    out0_A_2 c i a2 h2 a3 h3 a4 h4 a5 h5 a6 h6 hc x0 x1 = k0_pay1 (k0_pay8 (k0_pay2 (F := F))) (k0_pay9 x1) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x8x1) hz3]
  simp only [View.readCov_unit_zero (S := S1x8x1) _ hz3, View.readAt_eq_ld, h3.read_unread,
    View.ld_unit_zero (S := S1x1x2048) hz3]

theorem out_A_3 (c : Dev nD) (i : grid0.Coords) (a2 : Memref sig .tc .vmem S2048x1024 .f32) (h2 : a2.IsWhole)
    (a3 : Memref sig .tc .vmem S1x1x2048 .i32) (h3 : a3.IsWhole) (a4 : Memref sig .tc .vmem S1x8x1 .f32) (h4 : a4.IsWhole)
    (a5 : Memref sig .tc .vmem S1x8x1024 .f32) (h5 : a5.IsWhole) (a6 : Memref sig .tc .vmem S1x8x1024 .f32) (h6 : a6.IsWhole)
    (hc : cond0_0 i) (x0 : Vec F S2048x1024 .f32) (x1 : Vec F S1x1x2048 .i32) :
    out0_A_3 c i a2 h2 a3 h3 a4 h4 a5 h5 a6 h6 hc x0 x1 = k0_pay6 x1 x0 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x8x1024) hz3]
  simp only [View.readCov_unit_zero (S := S1x8x1024) _ hz3, View.readAt_eq_ld, h2.read_unread, h3.read_unread,
    View.ld_unit_zero (S := S1x1x2048) hz3, View.ld_unit_zero (S := S2048x1024) hz2]

theorem out_A_4 (c : Dev nD) (i : grid0.Coords) (a2 : Memref sig .tc .vmem S2048x1024 .f32) (h2 : a2.IsWhole)
    (a3 : Memref sig .tc .vmem S1x1x2048 .i32) (h3 : a3.IsWhole) (a4 : Memref sig .tc .vmem S1x8x1 .f32) (h4 : a4.IsWhole)
    (a5 : Memref sig .tc .vmem S1x8x1024 .f32) (h5 : a5.IsWhole) (a6 : Memref sig .tc .vmem S1x8x1024 .f32) (h6 : a6.IsWhole)
    (hc : cond0_0 i) (x0 : Vec F S2048x1024 .f32) (x1 : Vec F S1x1x2048 .i32) :
    out0_A_4 c i a2 h2 a3 h3 a4 h4 a5 h5 a6 h6 hc x0 x1 = k0_pay7 x1 x0 (k0_pay4 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x8x1024) hz3]
  simp only [View.readCov_unit_zero (S := S1x8x1024) _ hz3, View.readAt_eq_ld, h2.read_unread, h3.read_unread,
    View.ld_unit_zero (S := S1x1x2048) hz3, View.ld_unit_zero (S := S2048x1024) hz2]

end Pieces

/-! ## The body's arithmetic at one entry, over the extended reals -/

section Payloads

/-- The indicator as one grid point sees it: `1` where entry `r` of the point's 2048 label words is the word `d`. -/
def ohB (y : Vec Ideal S1x1x2048 .i32) (d : Fin 8) (r : Fin 2048) : EReal :=
  if y (ix3 (0 : Fin 1) (0 : Fin 1) r) = BitVec.ofNat 32 d.val then 1 else 0

/-- A one-bit equality test widened to a word and read as a signed integer is `1` or `0`. -/
theorem ohw (a b : BitVec 32) :
    FloatOps.sitofp (F := Ideal) .f32 ((IntOp.cmpi .eq a b).setWidth 32) = if b = a then (1 : EReal) else 0 := by
  show (((BitVec.setWidth 32 (BitVec.ofBool (a == b))).toInt : ℝ) : EReal) = _
  by_cases h : b = a
  · subst h
    rw [if_pos rfl, beq_self_eq_true]
    have : (BitVec.setWidth 32 (BitVec.ofBool true)).toInt = 1 := by decide
    rw [this]; simp
  · rw [if_neg h, show (a == b) = false from beq_false_of_ne (fun e => h e.symm)]
    have : (BitVec.setWidth 32 (BitVec.ofBool false)).toInt = 0 := by decide
    rw [this]; simp

/-- The compare of the row-number grid with the broadcast labels, as a float: the indicator. -/
theorem pay5_apply (y : Vec Ideal S1x1x2048 .i32) (d : Fin 8) (r : Fin 2048) :
    k0_pay5 (F := Ideal) y (ix2 d r) = ohB y d r := by
  have e1 : iota .tc S8x2048 32 [0] iota_S8x2048_d0_w32 (ix2 d r) = BitVec.ofNat 32 d.val :=
    iota_single_apply .tc S8x2048 32 0 iota_S8x2048_d0_w32 (ix2 d r)
  have e2 : broadcastTo S8x2048 (shapeCast S1x2048 y shapeCasts_S1x1x2048_S1x2048) broadcasts_S1x2048_S8x2048 (ix2 d r)
      = y (ix3 (0 : Fin 1) (0 : Fin 1) r) :=
    (broadcastTo_1b_ab_apply _ broadcasts_S1x2048_S8x2048 d r).trans
      (shapeCast_1ab_ab_apply y shapeCasts_S1x1x2048_S1x2048 (0 : Fin 1) r)
  show FloatOps.sitofp (F := Ideal) .f32 ((IntOp.cmpi .eq (iota .tc S8x2048 32 [0] iota_S8x2048_d0_w32 (ix2 d r))
    (broadcastTo S8x2048 (shapeCast S1x2048 y shapeCasts_S1x1x2048_S1x2048) broadcasts_S1x2048_S8x2048 (ix2 d r))).setWidth 32) = _
  rw [e1, e2, ohw]; rfl

/-- The product of an `8 × 2048` by a `2048 × 1024` block into zeros, at `(d, f)`: the sum over the 2048 rows. -/
theorem mm_apply (A : FVec Ideal S8x2048 .f32) (B : FVec Ideal S2048x1024 .f32) (d : Fin 8) (f : Fin 1024) :
    matmul dot_S8x2048_S2048x1024_S8x1024_1_0_0_1_n_n (some .fp32) A B (constant S8x1024 .f32 0x00000000#32) (ix2 d f)
      = ∑ r : Fin 2048, A (ix2 d r) * B (ix2 r f) := by
  show FloatOps.matmul dot_S8x2048_S2048x1024_S8x1024_1_0_0_1_n_n (some .fp32) A B (constant S8x1024 .f32 0x00000000#32) (ix2 d f) = _
  rw [Ideal.matmul_constant_zero_apply, ← Equiv.sum_comp (contrEquiv1 dot_S8x2048_S2048x1024_S8x1024_1_0_0_1_n_n 2048 rfl rfl).symm]
  refine Finset.sum_congr rfl fun r _ => ?_
  have c2 := contrEquiv1_symm_val dot_S8x2048_S2048x1024_S8x1024_1_0_0_1_n_n 2048 rfl rfl r
  have l2 : (dot_S8x2048_S2048x1024_S8x1024_1_0_0_1_n_n).lhsIdx (ix2 d f) ((contrEquiv1 dot_S8x2048_S2048x1024_S8x1024_1_0_0_1_n_n 2048 rfl rfl).symm r) = ix2 d r := by
    funext ax; apply Fin.ext
    match ax with
    | ⟨0, _⟩ => simp [DotDims.lhsIdx, dot_S8x2048_S2048x1024_S8x1024_1_0_0_1_n_n]; rfl
    | ⟨1, _⟩ => simp [DotDims.lhsIdx, dot_S8x2048_S2048x1024_S8x1024_1_0_0_1_n_n]; exact c2
  have r2 : (dot_S8x2048_S2048x1024_S8x1024_1_0_0_1_n_n).rhsIdx (ix2 d f) ((contrEquiv1 dot_S8x2048_S2048x1024_S8x1024_1_0_0_1_n_n 2048 rfl rfl).symm r) = ix2 r f := by
    funext ax; apply Fin.ext
    match ax with
    | ⟨0, _⟩ => simp [DotDims.rhsIdx, dot_S8x2048_S2048x1024_S8x1024_1_0_0_1_n_n]; exact c2
    | ⟨1, _⟩ => simp [DotDims.rhsIdx, dot_S8x2048_S2048x1024_S8x1024_1_0_0_1_n_n]; rfl
  rw [l2, r2]

/-- The lane sum of an `8 × 2048` block at `d`: the sum over the 2048 lanes. -/
theorem lane_apply (A : FVec Ideal S8x2048 .f32) (d : Fin 8) :
    multiReduction .add [1] S8 A 0x00000000#32 reduces_S8x2048_S8 (.inl rfl) rfl (ix1 d) = ∑ r : Fin 2048, A (ix2 d r) := by
  refine (Ideal.multiReduction_add_single A 0x00000000#32 reduces_S8x2048_S8 (.inl rfl) rfl (ix1 d)).trans ?_
  refine Finset.sum_congr rfl fun r _ => congrArg A ?_
  funext ax; apply Fin.ext
  match ax with
  | ⟨0, _⟩ => rfl
  | ⟨1, _⟩ => rfl

/-- A column `[8]` cast to `[8, 1]` reads its entry. -/
theorem cast_8_8x1_apply (v : S8.Idx → EReal) (d : Fin 8) (u : Fin 1) :
    shapeCast S8x1 v shapeCasts_S8_S8x1 (ix2 d u) = v (ix1 d) :=
  shapeCast_apply v shapeCasts_S8_S8x1 _ _ (by
    have hu : u.val = 0 := by omega
    rw [Shape.rowMajor_val_two, Shape.rowMajor_val_one]
    show d.val = d.val * 1 + u.val
    rw [hu, Nat.mul_one, Nat.add_zero])

/-- The running sums of indicator times row, after a point: what was there plus the point's 2048 rows. -/
theorem pay6_apply (y : Vec Ideal S1x1x2048 .i32) (x : Vec Ideal S2048x1024 .f32) (prev : Vec Ideal S1x8x1024 .f32)
    (d : Fin 8) (f : Fin 1024) :
    k0_pay6 (F := Ideal) y x prev (ix3 (0 : Fin 1) d f)
      = prev (ix3 (0 : Fin 1) d f) + ∑ r : Fin 2048, ohB y d r * x (ix2 r f) := by
  unfold k0_pay6
  refine (shapeCast_ab_1ab_apply _ shapeCasts_S8x1024_S1x8x1024 (0 : Fin 1) d f).trans ?_
  refine (addf_apply _ _ (ix2 d f)).trans ?_
  refine congrArg₂ (· + ·) (shapeCast_1ab_ab_apply prev shapeCasts_S1x8x1024_S8x1024 d f) ?_
  refine (mm_apply _ _ d f).trans ?_
  exact Finset.sum_congr rfl fun r _ => congrArg (· * x (ix2 r f)) (pay5_apply y d r)

/-- The running sums of indicator times squared row. -/
theorem pay7_apply (y : Vec Ideal S1x1x2048 .i32) (x : Vec Ideal S2048x1024 .f32) (prev : Vec Ideal S1x8x1024 .f32)
    (d : Fin 8) (f : Fin 1024) :
    k0_pay7 (F := Ideal) y x prev (ix3 (0 : Fin 1) d f)
      = prev (ix3 (0 : Fin 1) d f) + ∑ r : Fin 2048, ohB y d r * (x (ix2 r f) * x (ix2 r f)) := by
  unfold k0_pay7
  refine (shapeCast_ab_1ab_apply _ shapeCasts_S8x1024_S1x8x1024 (0 : Fin 1) d f).trans ?_
  refine (addf_apply _ _ (ix2 d f)).trans ?_
  refine congrArg₂ (· + ·) (shapeCast_1ab_ab_apply prev shapeCasts_S1x8x1024_S8x1024 d f) ?_
  refine (mm_apply _ _ d f).trans ?_
  exact Finset.sum_congr rfl fun r _ => congrArg₂ (· * ·) (pay5_apply y d r) (mulf_apply x x (ix2 r f))

/-- The running counts: what was there plus the point's indicators. -/
theorem pay1_apply (y : Vec Ideal S1x1x2048 .i32) (prev : Vec Ideal S1x8x1 .f32) (d : Fin 8) :
    k0_pay1 (F := Ideal) (k0_pay8 prev) (k0_pay9 y) (ix3 (0 : Fin 1) d (0 : Fin 1))
      = prev (ix3 (0 : Fin 1) d (0 : Fin 1)) + ∑ r : Fin 2048, ohB y d r := by
  unfold k0_pay1 k0_pay8 k0_pay9
  refine (shapeCast_ab_1ab_apply _ shapeCasts_S8x1_S1x8x1 (0 : Fin 1) d (0 : Fin 1)).trans ?_
  refine (addf_apply _ _ (ix2 d (0 : Fin 1))).trans ?_
  refine congrArg₂ (· + ·) (shapeCast_1ab_ab_apply prev shapeCasts_S1x8x1_S8x1 d (0 : Fin 1)) ?_
  refine (cast_8_8x1_apply _ d (0 : Fin 1)).trans ?_
  refine (lane_apply _ d).trans ?_
  exact Finset.sum_congr rfl fun r _ => pay5_apply y d r

/-- The three resets store zeros. -/
theorem pay2_apply (j : S1x8x1.Idx) : k0_pay2 (F := Ideal) j = 0 := Ideal.ofBits_zero_f32
theorem pay3_apply (j : S1x8x1024.Idx) : k0_pay3 (F := Ideal) j = 0 := Ideal.ofBits_zero_f32
theorem pay4_apply (j : S1x8x1024.Idx) : k0_pay4 (F := Ideal) j = 0 := Ideal.ofBits_zero_f32

end Payloads

/-! ## Sums over the 16384 rows, block by block -/

section Sums

/-- Row `r` of block `t` of the 16384 rows cut into eight blocks of 2048. -/
def rowOf (t : ℕ) (ht : t < 8) (r : Fin 2048) : Fin 16384 := ⟨2048 * t + r.val, by have := r.isLt; omega⟩

/-- The sum of `g` over block `t`. -/
def blockSum (g : Fin 16384 → EReal) (t : ℕ) (ht : t < 8) : EReal := ∑ r : Fin 2048, g (rowOf t ht r)

/-- A sum over the rows is the sum over the eight blocks of the sums over each block's rows. -/
theorem sum_rows (G : Fin 16384 → EReal) :
    ∑ n : Fin 16384, G n = ∑ t : Fin 8, ∑ r : Fin 2048, G (rowOf t.val t.isLt r) := by
  rw [← Equiv.sum_comp (finProdFinEquiv (m := 8) (n := 2048)) G, Fintype.sum_prod_type]
  refine Finset.sum_congr rfl fun t _ => Finset.sum_congr rfl fun r _ => congrArg G (Fin.ext ?_)
  show r.val + 2048 * t.val = 2048 * t.val + r.val
  omega

/-- The rows of half `k` are the blocks `4k … 4k + 3`. -/
theorem sum_half (g : Fin 16384 → EReal) (k : Fin 2) :
    (∑ n : Fin 16384, if n.val / 8192 = k.val then g n else 0)
      = 0 + blockSum g (4 * k.val) (by omega) + blockSum g (4 * k.val + 1) (by omega)
          + blockSum g (4 * k.val + 2) (by omega) + blockSum g (4 * k.val + 3) (by omega) := by
  rw [sum_rows]
  have hin : ∀ t : Fin 8, (∑ r : Fin 2048, if (rowOf t.val t.isLt r).val / 8192 = k.val then g (rowOf t.val t.isLt r) else 0)
      = if t.val / 4 = k.val then blockSum g t.val t.isLt else 0 := by
    intro t
    have hq : ∀ r : Fin 2048, (rowOf t.val t.isLt r).val / 8192 = t.val / 4 := by
      intro r; show (2048 * t.val + r.val) / 8192 = t.val / 4; have := r.isLt; omega
    simp only [hq]
    split
    · rfl
    · exact Finset.sum_const_zero
  simp only [hin]
  rw [Fin.sum_univ_eight]
  obtain ⟨k, hk⟩ := k
  interval_cases k <;> simp [blockSum]

end Sums

/-! ## The blocks a grid point reads, as entries of the arrays -/

section Blocks
variable (m : (ℓ : Loc nD τ sig) → Buf (Elt Ideal) ℓ) (ρ : Dev nD → PrngReg)

/-- The two blocks a point reads, at their literal types. -/
abbrev xblk (c : Dev nD) (t : Fin cfg0.N) : Vec Ideal S2048x1024 .f32 := iblk0 (V3 m ρ) c 0 t
abbrev yblk (c : Dev nD) (t : Fin cfg0.N) : Vec Ideal S1x1x2048 .i32 := iblk0 (V3 m ρ) c 1 t

theorem lt8 (t : Fin cfg0.N) : t.val < 8 := lt_of_lt_of_eq t.isLt (show cfg0.N = 8 from N_0)

/-- The rows a point reads are block `t` of the rows. -/
theorem xblk_apply (c : Dev nD) (t : Fin cfg0.N) (r : Fin 2048) (f : Fin 1024) :
    xblk m ρ c t (ix2 r f) = x0 m ρ c (ix2 (rowOf t.val (lt8 t) r) f) := by
  have hi : win0_0.index t 0 = t.val ∧ win0_0.index t 1 = 0 := by
    rcases fin_N0 t with rfl | rfl | rfl | rfl | rfl | rfl | rfl | rfl <;> decide
  unfold xblk iblk0
  rw [View.read_apply]
  show V3 m ρ c main_arg0 _ = V3 m ρ c main_arg0 _
  congr 1
  funext a
  apply Fin.ext
  match a with
  | ⟨0, _⟩ => show win0_0.index t 0 * 2048 + 1 * r.val = 2048 * t.val + r.val; rw [hi.1]; omega
  | ⟨1, _⟩ => show win0_0.index t 1 * 1024 + 1 * f.val = f.val; rw [hi.2]; omega

/-- The labels a point reads are block `t` of the laid-out labels. -/
theorem yblk_apply (c : Dev nD) (t : Fin cfg0.N) (r : Fin 2048) :
    yblk m ρ c t (ix3 (0 : Fin 1) (0 : Fin 1) r)
      = y0 m ρ c (ix3 (⟨t.val, lt8 t⟩ : Fin 8) (0 : Fin 1) r) := by
  have hi : win0_1.index t 0 = t.val ∧ win0_1.index t 1 = 0 ∧ win0_1.index t 2 = 0 := by
    rcases fin_N0 t with rfl | rfl | rfl | rfl | rfl | rfl | rfl | rfl <;> decide
  unfold yblk iblk0
  rw [View.read_apply]
  show V3 m ρ c main_v1 _ = V3 m ρ c main_v1 _
  congr 1
  funext a
  apply Fin.ext
  match a with
  | ⟨0, _⟩ => show win0_1.index t 0 * 1 + 1 * 0 = t.val; rw [hi.1]; omega
  | ⟨1, _⟩ => show win0_1.index t 1 * 1 + 1 * 0 = 0; rw [hi.2.1]
  | ⟨2, _⟩ => show win0_1.index t 2 * 2048 + 1 * r.val = r.val; rw [hi.2.2]; omega

end Blocks

/-! ## One grid point's contribution, and the four points of a half -/

section Points
variable (m : (ℓ : Loc nD τ sig) → Buf (Elt Ideal) ℓ) (ρ : Dev nD → PrngReg)

/-- The three summands of a row: the indicator, indicator times entry, indicator times squared entry. -/
def gC (c : Dev nD) (d : Fin 8) : Fin 16384 → EReal := fun n => oh3 (y0 m ρ c) d n
def g1 (c : Dev nD) (d : Fin 8) (f : Fin 1024) : Fin 16384 → EReal := fun n => oh3 (y0 m ρ c) d n * x0 m ρ c (ix2 n f)
def g2 (c : Dev nD) (d : Fin 8) (f : Fin 1024) : Fin 16384 → EReal :=
  fun n => oh3 (y0 m ρ c) d n * (x0 m ρ c (ix2 n f) * x0 m ρ c (ix2 n f))

/-- Row `r` of block `t` sits in the laid-out labels at block `t`, entry `r`. -/
theorem at3_rowOf (t : ℕ) (ht : t < 8) (r : Fin 2048) : at3 (rowOf t ht r) = ix3 (⟨t, ht⟩ : Fin 8) (0 : Fin 1) r := by
  have h1 : (2048 * t + r.val) / 2048 = t := by have := r.isLt; omega
  have h2 : (2048 * t + r.val) % 2048 = r.val := by have := r.isLt; omega
  unfold at3 rowOf
  simp only [h1, h2]

/-- The indicator a point computes from its label block is the indicator of the row. -/
theorem ohB_eq (c : Dev nD) (t : Fin cfg0.N) (d : Fin 8) (r : Fin 2048) :
    ohB (yblk m ρ c t) d r = oh3 (y0 m ρ c) d (rowOf t.val (lt8 t) r) := by
  unfold ohB oh3
  rw [yblk_apply m ρ c t r, at3_rowOf]

theorem pred_lt (t : Fin cfg0.N) : t.val - 1 < cfg0.N := Nat.lt_of_le_of_lt (Nat.sub_le _ _) t.isLt

/-- A point that opens a half leaves zero plus its block's three sums. -/
theorem point_A (c : Dev nD) (t : Fin cfg0.N) (h0 : t.val % 4 = 0) :
    (∀ d : Fin 8, (outsAt0 (V3 m ρ) c t.val t.isLt).1 (ix3 (0 : Fin 1) d (0 : Fin 1))
        = 0 + blockSum (gC m ρ c d) t.val (lt8 t))
    ∧ (∀ (d : Fin 8) (f : Fin 1024), (outsAt0 (V3 m ρ) c t.val t.isLt).2.1 (ix3 (0 : Fin 1) d f)
        = 0 + blockSum (g1 m ρ c d f) t.val (lt8 t))
    ∧ (∀ (d : Fin 8) (f : Fin 1024), (outsAt0 (V3 m ρ) c t.val t.isLt).2.2 (ix3 (0 : Fin 1) d f)
        = 0 + blockSum (g2 m ρ c d f) t.val (lt8 t)) := by
  rw [outsAt0_A (V3 m ρ) c t h0]
  dsimp only
  refine ⟨fun d => ?_, fun d f => ?_, fun d f => ?_⟩
  · refine (congrFun (out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk m ρ c t) (yblk m ρ c t))
      (ix3 (0 : Fin 1) d (0 : Fin 1))).trans ?_
    refine (pay1_apply (yblk m ρ c t) (k0_pay2 (F := Ideal)) d).trans ?_
    refine congrArg₂ (· + ·) (pay2_apply _) ?_
    exact Finset.sum_congr rfl fun r _ => ohB_eq m ρ c t d r
  · refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk m ρ c t) (yblk m ρ c t))
      (ix3 (0 : Fin 1) d f)).trans ?_
    refine (pay6_apply (yblk m ρ c t) (xblk m ρ c t) (k0_pay3 (F := Ideal)) d f).trans ?_
    refine congrArg₂ (· + ·) (pay3_apply _) ?_
    exact Finset.sum_congr rfl fun r _ => congrArg₂ (· * ·) (ohB_eq m ρ c t d r) (xblk_apply m ρ c t r f)
  · refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk m ρ c t) (yblk m ρ c t))
      (ix3 (0 : Fin 1) d f)).trans ?_
    refine (pay7_apply (yblk m ρ c t) (xblk m ρ c t) (k0_pay4 (F := Ideal)) d f).trans ?_
    refine congrArg₂ (· + ·) (pay4_apply _) ?_
    exact Finset.sum_congr rfl fun r _ => congrArg₂ (· * ·) (ohB_eq m ρ c t d r)
      (congrArg₂ (· * ·) (xblk_apply m ρ c t r f) (xblk_apply m ρ c t r f))

end Points

section Points2
variable (m : (ℓ : Loc nD τ sig) → Buf (Elt Ideal) ℓ) (ρ : Dev nD → PrngReg)

/-- A point that continues a half leaves what the point before left plus its block's three sums. -/
theorem point_B (c : Dev nD) (t : Fin cfg0.N) (h0 : ¬t.val % 4 = 0) :
    (∀ d : Fin 8, (outsAt0 (V3 m ρ) c t.val t.isLt).1 (ix3 (0 : Fin 1) d (0 : Fin 1))
        = (outsAt0 (V3 m ρ) c (t.val - 1) (pred_lt t)).1 (ix3 (0 : Fin 1) d (0 : Fin 1)) + blockSum (gC m ρ c d) t.val (lt8 t))
    ∧ (∀ (d : Fin 8) (f : Fin 1024), (outsAt0 (V3 m ρ) c t.val t.isLt).2.1 (ix3 (0 : Fin 1) d f)
        = (outsAt0 (V3 m ρ) c (t.val - 1) (pred_lt t)).2.1 (ix3 (0 : Fin 1) d f) + blockSum (g1 m ρ c d f) t.val (lt8 t))
    ∧ (∀ (d : Fin 8) (f : Fin 1024), (outsAt0 (V3 m ρ) c t.val t.isLt).2.2 (ix3 (0 : Fin 1) d f)
        = (outsAt0 (V3 m ρ) c (t.val - 1) (pred_lt t)).2.2 (ix3 (0 : Fin 1) d f) + blockSum (g2 m ρ c d f) t.val (lt8 t)) := by
  rw [outsAt0_B (V3 m ρ) c t h0]
  dsimp only
  refine ⟨fun d => ?_, fun d f => ?_, fun d f => ?_⟩
  · refine (congrFun (out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m ρ c t) (yblk m ρ c t)
      (outsAt0 (V3 m ρ) c (t.val - 1) (pred_lt t)).1 (outsAt0 (V3 m ρ) c (t.val - 1) (pred_lt t)).2.1 (outsAt0 (V3 m ρ) c (t.val - 1) (pred_lt t)).2.2) (ix3 (0 : Fin 1) d (0 : Fin 1))).trans ?_
    refine (pay1_apply (yblk m ρ c t) (outsAt0 (V3 m ρ) c (t.val - 1) (pred_lt t)).1 d).trans ?_
    refine congrArg₂ (· + ·) rfl ?_
    exact Finset.sum_congr rfl fun r _ => ohB_eq m ρ c t d r
  · refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m ρ c t) (yblk m ρ c t)
      (outsAt0 (V3 m ρ) c (t.val - 1) (pred_lt t)).1 (outsAt0 (V3 m ρ) c (t.val - 1) (pred_lt t)).2.1 (outsAt0 (V3 m ρ) c (t.val - 1) (pred_lt t)).2.2) (ix3 (0 : Fin 1) d f)).trans ?_
    refine (pay6_apply (yblk m ρ c t) (xblk m ρ c t) (outsAt0 (V3 m ρ) c (t.val - 1) (pred_lt t)).2.1 d f).trans ?_
    refine congrArg₂ (· + ·) rfl ?_
    exact Finset.sum_congr rfl fun r _ => congrArg₂ (· * ·) (ohB_eq m ρ c t d r) (xblk_apply m ρ c t r f)
  · refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m ρ c t) (yblk m ρ c t)
      (outsAt0 (V3 m ρ) c (t.val - 1) (pred_lt t)).1 (outsAt0 (V3 m ρ) c (t.val - 1) (pred_lt t)).2.1 (outsAt0 (V3 m ρ) c (t.val - 1) (pred_lt t)).2.2) (ix3 (0 : Fin 1) d f)).trans ?_
    refine (pay7_apply (yblk m ρ c t) (xblk m ρ c t) (outsAt0 (V3 m ρ) c (t.val - 1) (pred_lt t)).2.2 d f).trans ?_
    refine congrArg₂ (· + ·) rfl ?_
    exact Finset.sum_congr rfl fun r _ => congrArg₂ (· * ·) (ohB_eq m ρ c t d r)
      (congrArg₂ (· * ·) (xblk_apply m ρ c t r f) (xblk_apply m ρ c t r f))

end Points2

section Halves
variable (m : (ℓ : Loc nD τ sig) → Buf (Elt Ideal) ℓ) (ρ : Dev nD → PrngReg)

theorem lt8' {n : ℕ} (h : n < cfg0.N) : n < 8 := lt_of_lt_of_eq h (show cfg0.N = 8 from N_0)

/-- The two point lemmas over a point's number. -/
theorem point_Z (c : Dev nD) (n : ℕ) (h : n < cfg0.N) (h0 : n % 4 = 0) :
    (∀ d : Fin 8, (outsAt0 (V3 m ρ) c n h).1 (ix3 (0 : Fin 1) d (0 : Fin 1)) = 0 + blockSum (gC m ρ c d) n (lt8' h))
    ∧ (∀ (d : Fin 8) (f : Fin 1024), (outsAt0 (V3 m ρ) c n h).2.1 (ix3 (0 : Fin 1) d f) = 0 + blockSum (g1 m ρ c d f) n (lt8' h))
    ∧ (∀ (d : Fin 8) (f : Fin 1024), (outsAt0 (V3 m ρ) c n h).2.2 (ix3 (0 : Fin 1) d f) = 0 + blockSum (g2 m ρ c d f) n (lt8' h)) :=
  point_A m ρ c ⟨n, h⟩ h0

theorem point_S (c : Dev nD) (n : ℕ) (h : n + 1 < cfg0.N) (h0 : ¬(n + 1) % 4 = 0) :
    (∀ d : Fin 8, (outsAt0 (V3 m ρ) c (n + 1) h).1 (ix3 (0 : Fin 1) d (0 : Fin 1))
        = (outsAt0 (V3 m ρ) c n (Nat.lt_of_succ_lt h)).1 (ix3 (0 : Fin 1) d (0 : Fin 1)) + blockSum (gC m ρ c d) (n + 1) (lt8' h))
    ∧ (∀ (d : Fin 8) (f : Fin 1024), (outsAt0 (V3 m ρ) c (n + 1) h).2.1 (ix3 (0 : Fin 1) d f)
        = (outsAt0 (V3 m ρ) c n (Nat.lt_of_succ_lt h)).2.1 (ix3 (0 : Fin 1) d f) + blockSum (g1 m ρ c d f) (n + 1) (lt8' h))
    ∧ (∀ (d : Fin 8) (f : Fin 1024), (outsAt0 (V3 m ρ) c (n + 1) h).2.2 (ix3 (0 : Fin 1) d f)
        = (outsAt0 (V3 m ρ) c n (Nat.lt_of_succ_lt h)).2.2 (ix3 (0 : Fin 1) d f) + blockSum (g2 m ρ c d f) (n + 1) (lt8' h)) :=
  point_B m ρ c ⟨n + 1, h⟩ h0

/-- Four points from one that opens a half: zero plus the four blocks' sums, in order. -/
theorem run4 (c : Dev nD) (b : ℕ) (hb : b % 4 = 0) (h : b + 3 < cfg0.N) :
    (∀ d : Fin 8, (outsAt0 (V3 m ρ) c (b + 3) h).1 (ix3 (0 : Fin 1) d (0 : Fin 1))
        = 0 + blockSum (gC m ρ c d) b (lt8' (by omega)) + blockSum (gC m ρ c d) (b + 1) (lt8' (by omega))
          + blockSum (gC m ρ c d) (b + 2) (lt8' (by omega)) + blockSum (gC m ρ c d) (b + 3) (lt8' h))
    ∧ (∀ (d : Fin 8) (f : Fin 1024), (outsAt0 (V3 m ρ) c (b + 3) h).2.1 (ix3 (0 : Fin 1) d f)
        = 0 + blockSum (g1 m ρ c d f) b (lt8' (by omega)) + blockSum (g1 m ρ c d f) (b + 1) (lt8' (by omega))
          + blockSum (g1 m ρ c d f) (b + 2) (lt8' (by omega)) + blockSum (g1 m ρ c d f) (b + 3) (lt8' h))
    ∧ (∀ (d : Fin 8) (f : Fin 1024), (outsAt0 (V3 m ρ) c (b + 3) h).2.2 (ix3 (0 : Fin 1) d f)
        = 0 + blockSum (g2 m ρ c d f) b (lt8' (by omega)) + blockSum (g2 m ρ c d f) (b + 1) (lt8' (by omega))
          + blockSum (g2 m ρ c d f) (b + 2) (lt8' (by omega)) + blockSum (g2 m ρ c d f) (b + 3) (lt8' h)) := by
  have h2 : b + 2 < cfg0.N := by omega
  have h1 : b + 1 < cfg0.N := by omega
  have hz : b < cfg0.N := by omega
  have P3 : (∀ d : Fin 8, (outsAt0 (V3 m ρ) c (b + 3) h).1 (ix3 (0 : Fin 1) d (0 : Fin 1))
        = (outsAt0 (V3 m ρ) c (b + 2) h2).1 (ix3 (0 : Fin 1) d (0 : Fin 1)) + blockSum (gC m ρ c d) (b + 3) (lt8' h))
    ∧ (∀ (d : Fin 8) (f : Fin 1024), (outsAt0 (V3 m ρ) c (b + 3) h).2.1 (ix3 (0 : Fin 1) d f)
        = (outsAt0 (V3 m ρ) c (b + 2) h2).2.1 (ix3 (0 : Fin 1) d f) + blockSum (g1 m ρ c d f) (b + 3) (lt8' h))
    ∧ (∀ (d : Fin 8) (f : Fin 1024), (outsAt0 (V3 m ρ) c (b + 3) h).2.2 (ix3 (0 : Fin 1) d f)
        = (outsAt0 (V3 m ρ) c (b + 2) h2).2.2 (ix3 (0 : Fin 1) d f) + blockSum (g2 m ρ c d f) (b + 3) (lt8' h)) :=
    point_S m ρ c (b + 2) h (by omega)
  have P2 : (∀ d : Fin 8, (outsAt0 (V3 m ρ) c (b + 2) h2).1 (ix3 (0 : Fin 1) d (0 : Fin 1))
        = (outsAt0 (V3 m ρ) c (b + 1) h1).1 (ix3 (0 : Fin 1) d (0 : Fin 1)) + blockSum (gC m ρ c d) (b + 2) (lt8' h2))
    ∧ (∀ (d : Fin 8) (f : Fin 1024), (outsAt0 (V3 m ρ) c (b + 2) h2).2.1 (ix3 (0 : Fin 1) d f)
        = (outsAt0 (V3 m ρ) c (b + 1) h1).2.1 (ix3 (0 : Fin 1) d f) + blockSum (g1 m ρ c d f) (b + 2) (lt8' h2))
    ∧ (∀ (d : Fin 8) (f : Fin 1024), (outsAt0 (V3 m ρ) c (b + 2) h2).2.2 (ix3 (0 : Fin 1) d f)
        = (outsAt0 (V3 m ρ) c (b + 1) h1).2.2 (ix3 (0 : Fin 1) d f) + blockSum (g2 m ρ c d f) (b + 2) (lt8' h2)) :=
    point_S m ρ c (b + 1) h2 (by omega)
  have P1 : (∀ d : Fin 8, (outsAt0 (V3 m ρ) c (b + 1) h1).1 (ix3 (0 : Fin 1) d (0 : Fin 1))
        = (outsAt0 (V3 m ρ) c b hz).1 (ix3 (0 : Fin 1) d (0 : Fin 1)) + blockSum (gC m ρ c d) (b + 1) (lt8' h1))
    ∧ (∀ (d : Fin 8) (f : Fin 1024), (outsAt0 (V3 m ρ) c (b + 1) h1).2.1 (ix3 (0 : Fin 1) d f)
        = (outsAt0 (V3 m ρ) c b hz).2.1 (ix3 (0 : Fin 1) d f) + blockSum (g1 m ρ c d f) (b + 1) (lt8' h1))
    ∧ (∀ (d : Fin 8) (f : Fin 1024), (outsAt0 (V3 m ρ) c (b + 1) h1).2.2 (ix3 (0 : Fin 1) d f)
        = (outsAt0 (V3 m ρ) c b hz).2.2 (ix3 (0 : Fin 1) d f) + blockSum (g2 m ρ c d f) (b + 1) (lt8' h1)) :=
    point_S m ρ c b h1 (by omega)
  have P0 := point_Z m ρ c b hz hb
  refine ⟨fun d => ?_, fun d f => ?_, fun d f => ?_⟩
  · rw [P3.1 d, P2.1 d, P1.1 d, P0.1 d]
  · rw [P3.2.1 d f, P2.2.1 d f, P1.2.1 d f, P0.2.1 d f]
  · rw [P3.2.2 d f, P2.2.2 d f, P1.2.2 d f, P0.2.2 d f]

/-- After the last point of half `k` the three buffers hold the half's three sums. -/
theorem half_end (c : Dev nD) (k : Fin 2) (h : 4 * k.val + 3 < cfg0.N) :
    (∀ d : Fin 8, (outsAt0 (V3 m ρ) c (4 * k.val + 3) h).1 (ix3 (0 : Fin 1) d (0 : Fin 1)) = cntP (y0 m ρ c) k d)
    ∧ (∀ (d : Fin 8) (f : Fin 1024), (outsAt0 (V3 m ρ) c (4 * k.val + 3) h).2.1 (ix3 (0 : Fin 1) d f) = sum1P (x0 m ρ c) (y0 m ρ c) k d f)
    ∧ (∀ (d : Fin 8) (f : Fin 1024), (outsAt0 (V3 m ρ) c (4 * k.val + 3) h).2.2 (ix3 (0 : Fin 1) d f) = sum2P (x0 m ρ c) (y0 m ρ c) k d f) := by
  have R := run4 m ρ c (4 * k.val) (by omega) h
  exact ⟨fun d => (R.1 d).trans (sum_half (gC m ρ c d) k).symm,
    fun d f => (R.2.1 d f).trans (sum_half (g1 m ρ c d f) k).symm,
    fun d f => (R.2.2 d f).trans (sum_half (g2 m ρ c d f) k).symm⟩

end Halves

section Final
variable (m : (ℓ : Loc nD τ sig) → Buf (Elt Ideal) ℓ) (ρ : Dev nD → PrngReg)

theorem outs_congr (c : Dev nD) (a b : ℕ) (ha : a < cfg0.N) (hb : b < cfg0.N) (e : a = b) :
    outsAt0 (V3 m ρ) c a ha = outsAt0 (V3 m ρ) c b hb := by subst e; rfl

/-- Where output window 2's block sits at each point: at half `t / 4`. -/
theorem idx_2 (t : Fin cfg0.N) : win0_2.index t 0 = t.val / 4 ∧ win0_2.index t 1 = 0 ∧ win0_2.index t 2 = 0 := by
  rcases fin_N0 t with rfl | rfl | rfl | rfl | rfl | rfl | rfl | rfl <;> decide

/-- What the first pass should leave in output 2. -/
def G0 (c : Dev nD) : SP0.Idx → EReal := fun j => cntP (y0 m ρ c) (j 0) (j 1)

/-- The write-back at the last point of a half writes that half's block of it. -/
theorem flushed_2 (c : Dev nD) (t : Fin cfg0.N) (hf : (cfg0.win 2).flush t = true) :
    (dat0 (V3 m ρ) c).flushed 2 t = ((cfg0.win 2).blk t).view.read (Elt Ideal) (G0 m ρ c) := by
  have hN : cfg0.N = 8 := N_0
  have h3 : t.val % 4 = 3 := (flush0_2 t).mp hf
  have hlt : t.val < 8 := lt8 t
  have hk : t.val / 4 < 2 := by omega
  have he : t.val = 4 * (⟨t.val / 4, hk⟩ : Fin 2).val + 3 := by show t.val = 4 * (t.val / 4) + 3; omega
  have hb : 4 * (⟨t.val / 4, hk⟩ : Fin 2).val + 3 < cfg0.N := by show 4 * (t.val / 4) + 3 < cfg0.N; omega
  have H := half_end m ρ c ⟨t.val / 4, hk⟩ hb
  rw [← outs_congr m ρ c t.val _ t.isLt hb he] at H
  show (dat0 (V3 m ρ) c).after 2 t = _
  rw [after0_2]
  funext y
  obtain ⟨u, d, f, rfl⟩ : ∃ (u : Fin 1) (d : Fin 8) (f : Fin 1), y = ix3 u d f := ⟨_, _, _, eq_ix3 y⟩
  obtain rfl : u = 0 := Subsingleton.elim _ _
  obtain rfl : f = 0 := Subsingleton.elim _ _
  rw [View.read_apply]
  refine (H.1 d).trans ?_
  have e0 : (((cfg0.win 2).blk t).view.emb (ix3 (0 : Fin 1) d (0 : Fin 1)) 0 : Fin 2) = ⟨t.val / 4, hk⟩ := Fin.ext (by
    show win0_2.index t 0 * 1 + 1 * 0 = t.val / 4; rw [(idx_2 t).1]; omega)
  have e1 : (((cfg0.win 2).blk t).view.emb (ix3 (0 : Fin 1) d (0 : Fin 1)) 1 : Fin 8) = d := Fin.ext (by
    show win0_2.index t 1 * 8 + 1 * d.val = d.val; rw [(idx_2 t).2.1]; omega)
  unfold G0
  rw [e0, e1, cast_eq]
  rfl

/-- Output window 2's block extents at each point. -/
theorem xs_2 (t : Fin cfg0.N) : win0_2.xsize (grid0.coords t) 0 = 1 ∧ win0_2.xsize (grid0.coords t) 1 = 8
    ∧ win0_2.xsize (grid0.coords t) 2 = 1 := by
  rcases fin_N0 t with rfl | rfl | rfl | rfl | rfl | rfl | rfl | rfl <;> decide

/-- The two write-backs cover output 2, so it ends holding the sums of both halves. -/
theorem arr_2 (c : Dev nD) : (dat0 (V3 m ρ) c).arrAt 2 cfg0.N = G0 m ρ c :=
  (dat0 (V3 m ρ) c).arrAt_eq_of_cover 2 (G0 m ρ c) (flushed_2 m ρ c) fun i => by
    have hi0 : (i 0 : ℕ) < 2 := (i 0).isLt
    have hi1 : (i 1 : ℕ) < 8 := (i 1).isLt
    have hi2 : (i 2 : ℕ) < 1 := (i 2).isLt
    have hN : cfg0.N = 8 := N_0
    have hlt : 4 * (i 0 : ℕ) + 3 < cfg0.N := by omega
    refine ⟨⟨4 * (i 0 : ℕ) + 3, hlt⟩, (flush0_2 _).mpr (by show (4 * (i 0 : ℕ) + 3) % 4 = 3; omega), ?_⟩
    have hx := xs_2 ⟨4 * (i 0 : ℕ) + 3, hlt⟩
    have hid := idx_2 ⟨4 * (i 0 : ℕ) + 3, hlt⟩
    show i ∈ ((View.whole main_v2_0).slice (win0_2.rect ⟨4 * (i 0 : ℕ) + 3, hlt⟩)).set
    rw [View.set_slice_whole, Rect.mem_set_unit]
    intro a
    match a with
    | ⟨0, _⟩ =>
      show win0_2.index ⟨4 * (i 0 : ℕ) + 3, hlt⟩ 0 * 1 ≤ (i 0 : ℕ)
        ∧ (i 0 : ℕ) < win0_2.index ⟨4 * (i 0 : ℕ) + 3, hlt⟩ 0 * 1 + win0_2.xsize (grid0.coords ⟨4 * (i 0 : ℕ) + 3, hlt⟩) 0
      rw [hid.1, hx.1]; dsimp only; omega
    | ⟨1, _⟩ =>
      show win0_2.index ⟨4 * (i 0 : ℕ) + 3, hlt⟩ 1 * 8 ≤ (i 1 : ℕ)
        ∧ (i 1 : ℕ) < win0_2.index ⟨4 * (i 0 : ℕ) + 3, hlt⟩ 1 * 8 + win0_2.xsize (grid0.coords ⟨4 * (i 0 : ℕ) + 3, hlt⟩) 1
      rw [hid.2.1, hx.2.1]; omega
    | ⟨2, _⟩ =>
      show win0_2.index ⟨4 * (i 0 : ℕ) + 3, hlt⟩ 2 * 1 ≤ (i 2 : ℕ)
        ∧ (i 2 : ℕ) < win0_2.index ⟨4 * (i 0 : ℕ) + 3, hlt⟩ 2 * 1 + win0_2.xsize (grid0.coords ⟨4 * (i 0 : ℕ) + 3, hlt⟩) 2
      rw [hid.2.2, hx.2.2]; omega

/-- Where output window 3's block sits at each point: at half `t / 4`. -/
theorem idx_3 (t : Fin cfg0.N) : win0_3.index t 0 = t.val / 4 ∧ win0_3.index t 1 = 0 ∧ win0_3.index t 2 = 0 := by
  rcases fin_N0 t with rfl | rfl | rfl | rfl | rfl | rfl | rfl | rfl <;> decide

/-- What the first pass should leave in output 3. -/
def G1 (c : Dev nD) : SP1.Idx → EReal := fun j => sum1P (x0 m ρ c) (y0 m ρ c) (j 0) (j 1) (j 2)

/-- The write-back at the last point of a half writes that half's block of it. -/
theorem flushed_3 (c : Dev nD) (t : Fin cfg0.N) (hf : (cfg0.win 3).flush t = true) :
    (dat0 (V3 m ρ) c).flushed 3 t = ((cfg0.win 3).blk t).view.read (Elt Ideal) (G1 m ρ c) := by
  have hN : cfg0.N = 8 := N_0
  have h3 : t.val % 4 = 3 := (flush0_3 t).mp hf
  have hlt : t.val < 8 := lt8 t
  have hk : t.val / 4 < 2 := by omega
  have he : t.val = 4 * (⟨t.val / 4, hk⟩ : Fin 2).val + 3 := by show t.val = 4 * (t.val / 4) + 3; omega
  have hb : 4 * (⟨t.val / 4, hk⟩ : Fin 2).val + 3 < cfg0.N := by show 4 * (t.val / 4) + 3 < cfg0.N; omega
  have H := half_end m ρ c ⟨t.val / 4, hk⟩ hb
  rw [← outs_congr m ρ c t.val _ t.isLt hb he] at H
  show (dat0 (V3 m ρ) c).after 3 t = _
  rw [after0_3]
  funext y
  obtain ⟨u, d, f, rfl⟩ : ∃ (u : Fin 1) (d : Fin 8) (f : Fin 1024), y = ix3 u d f := ⟨_, _, _, eq_ix3 y⟩
  obtain rfl : u = 0 := Subsingleton.elim _ _
  rw [View.read_apply]
  refine (H.2.1 d f).trans ?_
  have e0 : (((cfg0.win 3).blk t).view.emb (ix3 (0 : Fin 1) d f) 0 : Fin 2) = ⟨t.val / 4, hk⟩ := Fin.ext (by
    show win0_3.index t 0 * 1 + 1 * 0 = t.val / 4; rw [(idx_3 t).1]; omega)
  have e1 : (((cfg0.win 3).blk t).view.emb (ix3 (0 : Fin 1) d f) 1 : Fin 8) = d := Fin.ext (by
    show win0_3.index t 1 * 8 + 1 * d.val = d.val; rw [(idx_3 t).2.1]; omega)
  have e2 : (((cfg0.win 3).blk t).view.emb (ix3 (0 : Fin 1) d f) 2 : Fin 1024) = f := Fin.ext (by
    show win0_3.index t 2 * 1024 + 1 * f.val = f.val; rw [(idx_3 t).2.2]; omega)
  unfold G1
  rw [e0, e1, e2, cast_eq]
  rfl

/-- Output window 3's block extents at each point. -/
theorem xs_3 (t : Fin cfg0.N) : win0_3.xsize (grid0.coords t) 0 = 1 ∧ win0_3.xsize (grid0.coords t) 1 = 8
    ∧ win0_3.xsize (grid0.coords t) 2 = 1024 := by
  rcases fin_N0 t with rfl | rfl | rfl | rfl | rfl | rfl | rfl | rfl <;> decide

/-- The two write-backs cover output 3, so it ends holding the sums of both halves. -/
theorem arr_3 (c : Dev nD) : (dat0 (V3 m ρ) c).arrAt 3 cfg0.N = G1 m ρ c :=
  (dat0 (V3 m ρ) c).arrAt_eq_of_cover 3 (G1 m ρ c) (flushed_3 m ρ c) fun i => by
    have hi0 : (i 0 : ℕ) < 2 := (i 0).isLt
    have hi1 : (i 1 : ℕ) < 8 := (i 1).isLt
    have hi2 : (i 2 : ℕ) < 1024 := (i 2).isLt
    have hN : cfg0.N = 8 := N_0
    have hlt : 4 * (i 0 : ℕ) + 3 < cfg0.N := by omega
    refine ⟨⟨4 * (i 0 : ℕ) + 3, hlt⟩, (flush0_3 _).mpr (by show (4 * (i 0 : ℕ) + 3) % 4 = 3; omega), ?_⟩
    have hx := xs_3 ⟨4 * (i 0 : ℕ) + 3, hlt⟩
    have hid := idx_3 ⟨4 * (i 0 : ℕ) + 3, hlt⟩
    show i ∈ ((View.whole main_v2_1).slice (win0_3.rect ⟨4 * (i 0 : ℕ) + 3, hlt⟩)).set
    rw [View.set_slice_whole, Rect.mem_set_unit]
    intro a
    match a with
    | ⟨0, _⟩ =>
      show win0_3.index ⟨4 * (i 0 : ℕ) + 3, hlt⟩ 0 * 1 ≤ (i 0 : ℕ)
        ∧ (i 0 : ℕ) < win0_3.index ⟨4 * (i 0 : ℕ) + 3, hlt⟩ 0 * 1 + win0_3.xsize (grid0.coords ⟨4 * (i 0 : ℕ) + 3, hlt⟩) 0
      rw [hid.1, hx.1]; dsimp only; omega
    | ⟨1, _⟩ =>
      show win0_3.index ⟨4 * (i 0 : ℕ) + 3, hlt⟩ 1 * 8 ≤ (i 1 : ℕ)
        ∧ (i 1 : ℕ) < win0_3.index ⟨4 * (i 0 : ℕ) + 3, hlt⟩ 1 * 8 + win0_3.xsize (grid0.coords ⟨4 * (i 0 : ℕ) + 3, hlt⟩) 1
      rw [hid.2.1, hx.2.1]; omega
    | ⟨2, _⟩ =>
      show win0_3.index ⟨4 * (i 0 : ℕ) + 3, hlt⟩ 2 * 1024 ≤ (i 2 : ℕ)
        ∧ (i 2 : ℕ) < win0_3.index ⟨4 * (i 0 : ℕ) + 3, hlt⟩ 2 * 1024 + win0_3.xsize (grid0.coords ⟨4 * (i 0 : ℕ) + 3, hlt⟩) 2
      rw [hid.2.2, hx.2.2]; omega

/-- Where output window 4's block sits at each point: at half `t / 4`. -/
theorem idx_4 (t : Fin cfg0.N) : win0_4.index t 0 = t.val / 4 ∧ win0_4.index t 1 = 0 ∧ win0_4.index t 2 = 0 := by
  rcases fin_N0 t with rfl | rfl | rfl | rfl | rfl | rfl | rfl | rfl <;> decide

/-- What the first pass should leave in output 4. -/
def G2 (c : Dev nD) : SP1.Idx → EReal := fun j => sum2P (x0 m ρ c) (y0 m ρ c) (j 0) (j 1) (j 2)

/-- The write-back at the last point of a half writes that half's block of it. -/
theorem flushed_4 (c : Dev nD) (t : Fin cfg0.N) (hf : (cfg0.win 4).flush t = true) :
    (dat0 (V3 m ρ) c).flushed 4 t = ((cfg0.win 4).blk t).view.read (Elt Ideal) (G2 m ρ c) := by
  have hN : cfg0.N = 8 := N_0
  have h3 : t.val % 4 = 3 := (flush0_4 t).mp hf
  have hlt : t.val < 8 := lt8 t
  have hk : t.val / 4 < 2 := by omega
  have he : t.val = 4 * (⟨t.val / 4, hk⟩ : Fin 2).val + 3 := by show t.val = 4 * (t.val / 4) + 3; omega
  have hb : 4 * (⟨t.val / 4, hk⟩ : Fin 2).val + 3 < cfg0.N := by show 4 * (t.val / 4) + 3 < cfg0.N; omega
  have H := half_end m ρ c ⟨t.val / 4, hk⟩ hb
  rw [← outs_congr m ρ c t.val _ t.isLt hb he] at H
  show (dat0 (V3 m ρ) c).after 4 t = _
  rw [after0_4]
  funext y
  obtain ⟨u, d, f, rfl⟩ : ∃ (u : Fin 1) (d : Fin 8) (f : Fin 1024), y = ix3 u d f := ⟨_, _, _, eq_ix3 y⟩
  obtain rfl : u = 0 := Subsingleton.elim _ _
  rw [View.read_apply]
  refine (H.2.2 d f).trans ?_
  have e0 : (((cfg0.win 4).blk t).view.emb (ix3 (0 : Fin 1) d f) 0 : Fin 2) = ⟨t.val / 4, hk⟩ := Fin.ext (by
    show win0_4.index t 0 * 1 + 1 * 0 = t.val / 4; rw [(idx_4 t).1]; omega)
  have e1 : (((cfg0.win 4).blk t).view.emb (ix3 (0 : Fin 1) d f) 1 : Fin 8) = d := Fin.ext (by
    show win0_4.index t 1 * 8 + 1 * d.val = d.val; rw [(idx_4 t).2.1]; omega)
  have e2 : (((cfg0.win 4).blk t).view.emb (ix3 (0 : Fin 1) d f) 2 : Fin 1024) = f := Fin.ext (by
    show win0_4.index t 2 * 1024 + 1 * f.val = f.val; rw [(idx_4 t).2.2]; omega)
  unfold G2
  rw [e0, e1, e2, cast_eq]
  rfl

/-- Output window 4's block extents at each point. -/
theorem xs_4 (t : Fin cfg0.N) : win0_4.xsize (grid0.coords t) 0 = 1 ∧ win0_4.xsize (grid0.coords t) 1 = 8
    ∧ win0_4.xsize (grid0.coords t) 2 = 1024 := by
  rcases fin_N0 t with rfl | rfl | rfl | rfl | rfl | rfl | rfl | rfl <;> decide

/-- The two write-backs cover output 4, so it ends holding the sums of both halves. -/
theorem arr_4 (c : Dev nD) : (dat0 (V3 m ρ) c).arrAt 4 cfg0.N = G2 m ρ c :=
  (dat0 (V3 m ρ) c).arrAt_eq_of_cover 4 (G2 m ρ c) (flushed_4 m ρ c) fun i => by
    have hi0 : (i 0 : ℕ) < 2 := (i 0).isLt
    have hi1 : (i 1 : ℕ) < 8 := (i 1).isLt
    have hi2 : (i 2 : ℕ) < 1024 := (i 2).isLt
    have hN : cfg0.N = 8 := N_0
    have hlt : 4 * (i 0 : ℕ) + 3 < cfg0.N := by omega
    refine ⟨⟨4 * (i 0 : ℕ) + 3, hlt⟩, (flush0_4 _).mpr (by show (4 * (i 0 : ℕ) + 3) % 4 = 3; omega), ?_⟩
    have hx := xs_4 ⟨4 * (i 0 : ℕ) + 3, hlt⟩
    have hid := idx_4 ⟨4 * (i 0 : ℕ) + 3, hlt⟩
    show i ∈ ((View.whole main_v2_2).slice (win0_4.rect ⟨4 * (i 0 : ℕ) + 3, hlt⟩)).set
    rw [View.set_slice_whole, Rect.mem_set_unit]
    intro a
    match a with
    | ⟨0, _⟩ =>
      show win0_4.index ⟨4 * (i 0 : ℕ) + 3, hlt⟩ 0 * 1 ≤ (i 0 : ℕ)
        ∧ (i 0 : ℕ) < win0_4.index ⟨4 * (i 0 : ℕ) + 3, hlt⟩ 0 * 1 + win0_4.xsize (grid0.coords ⟨4 * (i 0 : ℕ) + 3, hlt⟩) 0
      rw [hid.1, hx.1]; dsimp only; omega
    | ⟨1, _⟩ =>
      show win0_4.index ⟨4 * (i 0 : ℕ) + 3, hlt⟩ 1 * 8 ≤ (i 1 : ℕ)
        ∧ (i 1 : ℕ) < win0_4.index ⟨4 * (i 0 : ℕ) + 3, hlt⟩ 1 * 8 + win0_4.xsize (grid0.coords ⟨4 * (i 0 : ℕ) + 3, hlt⟩) 1
      rw [hid.2.1, hx.2.1]; omega
    | ⟨2, _⟩ =>
      show win0_4.index ⟨4 * (i 0 : ℕ) + 3, hlt⟩ 2 * 1024 ≤ (i 2 : ℕ)
        ∧ (i 2 : ℕ) < win0_4.index ⟨4 * (i 0 : ℕ) + 3, hlt⟩ 2 * 1024 + win0_4.xsize (grid0.coords ⟨4 * (i 0 : ℕ) + 3, hlt⟩) 2
      rw [hid.2.2, hx.2.2]; omega

end Final

end R0

variable (m : (ℓ : Loc nD τ sig) → Buf (Elt Ideal) ℓ) (ρ : Dev nD → PrngReg)

theorem cnt_part (c : Dev nD) (k : Fin 2) (d : Fin 8) :
    p0 m ρ c (ix3 k d (0 : Fin 1)) = cntP (y0 m ρ c) k d := by
  refine (congrFun ((W4_arr m ρ c 2).trans (R0.arr_2 m ρ c)) (ix3 k d (0 : Fin 1))).trans ?_
  rfl

theorem sum1_part (c : Dev nD) (k : Fin 2) (d : Fin 8) (f : Fin 1024) :
    p1 m ρ c (ix3 k d f) = sum1P (x0 m ρ c) (y0 m ρ c) k d f := by
  refine (congrFun ((W4_arr m ρ c 3).trans (R0.arr_3 m ρ c)) (ix3 k d f)).trans ?_
  rfl

theorem sum2_part (c : Dev nD) (k : Fin 2) (d : Fin 8) (f : Fin 1024) :
    p2 m ρ c (ix3 k d f) = sum2P (x0 m ρ c) (y0 m ρ c) k d f := by
  refine (congrFun ((W4_arr m ρ c 4).trans (R0.arr_4 m ρ c)) (ix3 k d f)).trans ?_
  rfl

end Cert.KernelIdeal.KV

end
-- ==== Proof.KRegion1.lean ====
/-
  The second pass, read: the result at row `n`, column `f` is the row's entry times the two scale tables picked at
  the row's label, plus the two shift tables picked there — each pick a sum over the eight domains against the
  label's indicator.

  The pass works on eight blocks of 2048 rows. At block `t` it compares the block's 2048 label words with the words
  `0 … 7` (an `[8, 2048]` indicator), contracts the indicator's domain axis against each of the four `[8, 1024]` tables
  (four sums over the eight domains into zero accumulators), and returns `x · (m₁ + m₂) + (m₃ + m₄)` on the block.
  Read at one place of the block this is `res1` at row `2048·t + p` (`block_value`); the blocks of the rows, of the
  laid-out labels and of the tables are the arrays restricted (`blk_rows` … `blk_uLo`), so what block `t` writes back is
  block `t` of ONE function `G1` of the pass's entry contents (`flushed_eq`); the eight blocks cover the result
  (`cover_out`), so the result is `G1` (`out_eq`), which at `(n, f)` is the statement (`out_value`).
-/
import proofs.«420900_j1090921693630_3_alg».proof.Proof.KDefs
import Idealize.ShloMosaic.Lib.Pipeline.Value
import Idealize.ShloMosaic.PureOps.Ideal.Laws

noncomputable section

namespace Cert.KernelIdeal.KV

namespace Pass2

open Idealize.ShloMosaic Idealize.ShloMosaic.TcCoe Idealize.SL.Sem Idealize.ShloMosaic.ValueIdx
open Idealize.ShloMosaic.Pipeline (Dat)
open Cert.KernelIdeal Cert.KernelIdeal.Gen Cert.DomainNorm

/-! ## One place of a block: the indicator, the contraction, the payload -/

/-- The word comparison read as an extended real: `1` where the two words agree, else `0`. -/
theorem sitofp_cmpi_eq (x y : BitVec 32) :
    (FloatOps.sitofp (F := Ideal) .f32 ((IntOp.cmpi .eq x y).setWidth 32) : EReal) = if y = x then 1 else 0 := by
  change ((((IntOp.cmpi .eq x y).setWidth 32).toInt : ℝ) : EReal) = _
  by_cases h : y = x
  · subst h
    rw [if_pos rfl]
    have e : IntOp.cmpi .eq y y = 1#1 := by simp [IntOp.cmpi]
    rw [e]
    have e2 : ((1#1 : BitVec 1).setWidth 32).toInt = 1 := by decide
    rw [e2]; simp
  · rw [if_neg h]
    have e : IntOp.cmpi .eq x y = 0#1 := by
      have : (x == y) = false := beq_eq_false_iff_ne.mpr fun e => h e.symm
      simp [IntOp.cmpi, this]
    rw [e]
    have e2 : ((0#1 : BitVec 1).setWidth 32).toInt = 0 := by decide
    rw [e2]; simp

/-- The indicator the second pass builds from a block of labels: at (d, t) it is `1` where label `t` of the block is the word `d`. -/
theorem onehot_apply (lbl : IVec S1x1x2048 32) (d : Fin 8) (t : Fin 2048) :
    (truncf .bf16 (sitofp (F := Ideal) .f32 (extui 32 (cmpi .eq (iota .tc S8x2048 32 [0] iota_S8x2048_d0_w32)
      (broadcastTo S8x2048 (shapeCast S1x2048 lbl shapeCasts_S1x1x2048_S1x2048) broadcasts_S1x2048_S8x2048)) natLt_1_32)) bitsLt_bf16_f32 : FVec Ideal S8x2048 .bf16) (ix2 d t)
      = if lbl (ix3 (0 : Fin 1) (0 : Fin 1) t) = BitVec.ofNat 32 d.val then 1 else 0 := by
  rw [truncf_apply, sitofp_apply, extui_apply]
  show FloatOps.sitofp (F := Ideal) .f32 ((IntOp.cmpi .eq (iota .tc S8x2048 32 [0] iota_S8x2048_d0_w32 (ix2 d t))
      (broadcastTo S8x2048 (shapeCast S1x2048 lbl shapeCasts_S1x1x2048_S1x2048) broadcasts_S1x2048_S8x2048 (ix2 d t))).setWidth 32) = _
  rw [iota_single_apply,
    broadcastTo_apply _ broadcasts_S1x2048_S8x2048 (ix2 d t) (ix2 (0 : Fin 1) t) (by
      intro a; match a with
      | ⟨0, _⟩ => rfl
      | ⟨1, _⟩ => rfl),
    shapeCast_apply lbl shapeCasts_S1x1x2048_S1x2048 (ix2 (0 : Fin 1) t) (ix3 (0 : Fin 1) (0 : Fin 1) t) (by
      rw [Shape.rowMajor_val_three, Shape.rowMajor_val_two]; rfl)]
  exact sitofp_cmpi_eq _ _

/-! ## The contraction over the eight domains -/

theorem lhs_pick_0 (i : S2048x1024.Idx) (q : dot_S8x2048_S8x1024_S2048x1024_0_0_1_1_n_n.contr.Idx) :
    (dot_S8x2048_S8x1024_S2048x1024_0_0_1_1_n_n.lhsIdx i q 0).val = (q ⟨0, by decide⟩).val :=
  dot_S8x2048_S8x1024_S2048x1024_0_0_1_1_n_n.lhsIdx_val_of_single rfl i q
theorem lhs_pick_1 (i : S2048x1024.Idx) (q : dot_S8x2048_S8x1024_S2048x1024_0_0_1_1_n_n.contr.Idx) :
    (dot_S8x2048_S8x1024_S2048x1024_0_0_1_1_n_n.lhsIdx i q 1).val = (i 0).val := by
  unfold DotDims.lhsIdx
  rw [dif_neg (show ¬(1 : Fin S8x2048.rank) ∈ dot_S8x2048_S8x1024_S2048x1024_0_0_1_1_n_n.lhsBatch by decide), dif_pos (show (1 : Fin S8x2048.rank) ∈ dot_S8x2048_S8x1024_S2048x1024_0_0_1_1_n_n.lhsNonContracting by decide)]
  rfl
theorem rhs_pick_0 (i : S2048x1024.Idx) (q : dot_S8x2048_S8x1024_S2048x1024_0_0_1_1_n_n.contr.Idx) :
    (dot_S8x2048_S8x1024_S2048x1024_0_0_1_1_n_n.rhsIdx i q 0).val = (q ⟨0, by decide⟩).val :=
  dot_S8x2048_S8x1024_S2048x1024_0_0_1_1_n_n.rhsIdx_val_of_single rfl i q
theorem rhs_pick_1 (i : S2048x1024.Idx) (q : dot_S8x2048_S8x1024_S2048x1024_0_0_1_1_n_n.contr.Idx) :
    (dot_S8x2048_S8x1024_S2048x1024_0_0_1_1_n_n.rhsIdx i q 1).val = (i 1).val := by
  unfold DotDims.rhsIdx
  rw [dif_neg (show ¬(1 : Fin S8x1024.rank) ∈ dot_S8x2048_S8x1024_S2048x1024_0_0_1_1_n_n.rhsBatch by decide), dif_pos (show (1 : Fin S8x1024.rank) ∈ dot_S8x2048_S8x1024_S2048x1024_0_0_1_1_n_n.rhsNonContracting by decide)]
  rfl

/-- The product into a zero accumulator, at row `t` and column `f`: the sum over the eight domains of the left factor at
    (d, t) times the table at (d, f). -/
theorem pick_apply (A : FVec Ideal S8x2048 .bf16) (B : FVec Ideal S8x1024 .bf16) (t : Fin 2048) (f : Fin 1024) :
    (matmul dot_S8x2048_S8x1024_S2048x1024_0_0_1_1_n_n none A B (constant (F := Ideal) S2048x1024 .f32 0x00000000#32) : FVec Ideal S2048x1024 .f32) (ix2 t f)
      = ∑ d : Fin 8, A (ix2 d t) * B (ix2 d f) := by
  refine (Ideal.matmul_constant_zero_apply dot_S8x2048_S8x1024_S2048x1024_0_0_1_1_n_n none A B (ix2 t f)).trans ?_
  rw [← Equiv.sum_comp (contrEquiv1 dot_S8x2048_S8x1024_S2048x1024_0_0_1_1_n_n 8 rfl rfl).symm]
  refine Finset.sum_congr rfl fun k _ => ?_
  have hk := contrEquiv1_symm_val dot_S8x2048_S8x1024_S2048x1024_0_0_1_1_n_n 8 rfl rfl k
  have el : dot_S8x2048_S8x1024_S2048x1024_0_0_1_1_n_n.lhsIdx (ix2 t f) ((contrEquiv1 dot_S8x2048_S8x1024_S2048x1024_0_0_1_1_n_n 8 rfl rfl).symm k) = ix2 k t := funext fun a => Fin.ext (by
    match a with
    | ⟨0, _⟩ => exact (lhs_pick_0 _ _).trans hk
    | ⟨1, _⟩ => exact lhs_pick_1 _ _)
  have er : dot_S8x2048_S8x1024_S2048x1024_0_0_1_1_n_n.rhsIdx (ix2 t f) ((contrEquiv1 dot_S8x2048_S8x1024_S2048x1024_0_0_1_1_n_n 8 rfl rfl).symm k) = ix2 k f := funext fun a => Fin.ext (by
    match a with
    | ⟨0, _⟩ => exact (rhs_pick_0 _ _).trans hk
    | ⟨1, _⟩ => exact rhs_pick_1 _ _)
  rw [el, er]

/-- The indicator of "label `t` of the block is the word `d`". -/
def ohB (lbl : IVec S1x1x2048 32) (d : Fin 8) (t : Fin 2048) : EReal :=
  if lbl (ix3 (0 : Fin 1) (0 : Fin 1) t) = BitVec.ofNat 32 d.val then 1 else 0

/-- The second pass's payload at row `t`, column `f` of a block. -/
theorem pay_apply (lbl : IVec S1x1x2048 32) (a b u v : FVec Ideal S8x1024 .bf16) (xb : FVec Ideal S2048x1024 .f32) (t : Fin 2048) (f : Fin 1024) :
    (k1_pay1 (F := Ideal) lbl a b u v xb) (ix2 t f)
      = xb (ix2 t f) * ((∑ d : Fin 8, ohB lbl d t * a (ix2 d f)) + (∑ d : Fin 8, ohB lbl d t * b (ix2 d f)))
        + ((∑ d : Fin 8, ohB lbl d t * u (ix2 d f)) + (∑ d : Fin 8, ohB lbl d t * v (ix2 d f))) := by
  have h : ∀ d : Fin 8, ohB lbl d t = _ := fun d => (onehot_apply lbl d t).symm
  unfold k1_pay1
  simp only [addf_apply, mulf_apply, shapeCast_self, pick_apply, h]

/-! ## The result as one function of the pass's entry contents -/

/-- The second pass's result at row `n`, column `f`, from the rows, the laid-out labels and the four tables. -/
def res1 (x : SX.Idx → EReal) (y3 : IVec SY3 32) (a b u v : ST.Idx → EReal) (n : Fin 16384) (f : Fin 1024) : EReal :=
  x (ix2 n f) * ((∑ d : Fin 8, oh3 y3 d n * a (ix2 d f)) + (∑ d : Fin 8, oh3 y3 d n * b (ix2 d f)))
    + ((∑ d : Fin 8, oh3 y3 d n * u (ix2 d f)) + (∑ d : Fin 8, oh3 y3 d n * v (ix2 d f)))

/-- The same as one function of the result's index. -/
def G1 (x : SX.Idx → EReal) (y3 : IVec SY3 32) (a b u v : ST.Idx → EReal) : SX.Idx → EReal := fun i =>
  res1 x y3 a b u v ⟨(i 0).val, idx2_lt0 i⟩ ⟨(i 1).val, idx2_lt1 i⟩

/-- Row `2048·k + p` sits at place `p` of block `k` of the laid-out labels. -/
theorem at3_block (k : Nat) (hk : k < 8) (p : Fin 2048) (h : 2048 * k + p.val < 16384) :
    at3 ⟨2048 * k + p.val, h⟩ = ix3 (⟨k, hk⟩ : Fin 8) (0 : Fin 1) p := by
  unfold at3
  congr 1
  · exact Fin.ext (by show (2048 * k + p.val) / 2048 = k; have := p.isLt; omega)
  · exact Fin.ext (by show (2048 * k + p.val) % 2048 = p.val; have := p.isLt; omega)

/-- WHAT A POINT COMPUTES: when the block of rows is rows `2048·k …` of `X`, the block of labels is block `k` of the
    laid-out labels `Y` and the four tables are `A B U W` whole, the payload at (p, q) is the result at row
    `2048·k + p`, column `q`. -/
theorem block_value (X : SX.Idx → EReal) (Y : IVec SY3 32) (A B U W : ST.Idx → EReal)
    (lbl : IVec S1x1x2048 32) (a b u v : FVec Ideal S8x1024 .bf16) (xb : FVec Ideal S2048x1024 .f32)
    (k : Nat) (hk : k < 8)
    (hx : ∀ (p : Fin 2048) (q : Fin 1024), xb (ix2 p q) = X (ix2 (⟨2048 * k + p.val, by have := p.isLt; omega⟩ : Fin 16384) q))
    (hl : ∀ p : Fin 2048, lbl (ix3 (0 : Fin 1) (0 : Fin 1) p) = Y (ix3 (⟨k, hk⟩ : Fin 8) (0 : Fin 1) p))
    (ha : ∀ (d : Fin 8) (q : Fin 1024), a (ix2 d q) = A (ix2 d q)) (hb : ∀ (d : Fin 8) (q : Fin 1024), b (ix2 d q) = B (ix2 d q))
    (hu : ∀ (d : Fin 8) (q : Fin 1024), u (ix2 d q) = U (ix2 d q)) (hv : ∀ (d : Fin 8) (q : Fin 1024), v (ix2 d q) = W (ix2 d q))
    (j : S2048x1024.Idx) :
    (k1_pay1 (F := Ideal) lbl a b u v xb) j
      = res1 X Y A B U W ⟨2048 * k + (j 0).val, by have := idx2_lt0 j; omega⟩ ⟨(j 1).val, idx2_lt1 j⟩ := by
  obtain ⟨p, q, rfl⟩ : ∃ (p : Fin 2048) (q : Fin 1024), j = ix2 p q := ⟨j 0, j 1, eq_ix2 j⟩
  rw [pay_apply]
  have ho : ∀ d : Fin 8, ohB lbl d p = oh3 Y d ⟨2048 * k + p.val, by have := p.isLt; omega⟩ := fun d => by
    unfold ohB oh3
    rw [hl, at3_block k hk p]
  unfold res1
  simp only [ho, hx, ha, hb, hu, hv]

/-! ## From the blocks to the array -/

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the rows' block and the result's block are block `t`, the labels'
    block is block `t`, the tables' blocks are the tables. -/
theorem idx_facts1 : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A function of the result's index, read through the result's block at point `t`. -/
theorem read_out_block (G : SX.Idx → EReal) (t : Fin cfg1.N) (j : ((win1 6).xblock (grid1.coords t)).Idx) :
    View.read (Elt Ideal) ((View.whole main_v42).slice ((win1 6).rect t)) G j = G (((cfg1.win 6).blk t).view.emb j) := rfl

theorem G1_apply (x : SX.Idx → EReal) (y3 : IVec SY3 32) (a b u v : ST.Idx → EReal) (i : SX.Idx) :
    G1 x y3 a b u v i = res1 x y3 a b u v ⟨(i 0).val, idx2_lt0 i⟩ ⟨(i 1).val, idx2_lt1 i⟩ := rfl

/-- The block of rows at point `t` is rows `2048·t …` of the rows as the pass finds them. -/
theorem blk_rows (c : Dev nD) (t : Fin cfg1.N) (p : Fin 2048) (q : Fin 1024) :
    (iblk1 (V11 m ρ) c 0 t : FVec Ideal S2048x1024 .f32) (ix2 p q)
      = x1 m ρ c (ix2 (⟨2048 * t.val + p.val, by have := p.isLt; have := t.isLt; have hN : cfg1.N = 8 := N_1; omega⟩ : Fin 16384) q) := by
  obtain ⟨e00, e01, -⟩ := idx_facts1 t
  show V11 m ρ c main_arg0 (((cfg1.win 0).blk t).view.emb (ix2 p q)) = V11 m ρ c main_arg0 _
  congr 1; funext a; apply Fin.ext
  match a with
  | ⟨0, _⟩ => show win1_0.index t (0 : Fin 2) * 2048 + 1 * p.val = 2048 * t.val + p.val; rw [e00, Nat.one_mul, Nat.mul_comm]
  | ⟨1, _⟩ => show win1_0.index t (1 : Fin 2) * 1024 + 1 * q.val = q.val; rw [e01, Nat.zero_mul, Nat.zero_add, Nat.one_mul]

/-- The block of labels at point `t` is block `t` of the laid-out labels. -/
theorem blk_labels (c : Dev nD) (t : Fin cfg1.N) (p : Fin 2048) :
    (iblk1 (V11 m ρ) c 1 t : IVec S1x1x2048 32) (ix3 (0 : Fin 1) (0 : Fin 1) p)
      = y1 m ρ c (ix3 (⟨t.val, by have := t.isLt; have hN : cfg1.N = 8 := N_1; omega⟩ : Fin 8) (0 : Fin 1) p) := by
  obtain ⟨-, -, e10, e11, e12, -⟩ := idx_facts1 t
  show V11 m ρ c main_v41 (((cfg1.win 1).blk t).view.emb (ix3 (0 : Fin 1) (0 : Fin 1) p)) = V11 m ρ c main_v41 _
  congr 1; funext a; apply Fin.ext
  match a with
  | ⟨0, _⟩ => show win1_1.index t (0 : Fin 3) * 1 + 1 * 0 = t.val; rw [e10, Nat.mul_one, Nat.mul_zero, Nat.add_zero]
  | ⟨1, _⟩ => show win1_1.index t (1 : Fin 3) * 1 + 1 * 0 = 0; rw [e11]
  | ⟨2, _⟩ => show win1_1.index t (2 : Fin 3) * 2048 + 1 * p.val = p.val; rw [e12, Nat.zero_mul, Nat.zero_add, Nat.one_mul]

/-- Each table's block at any point is the table. -/
theorem blk_tHi (c : Dev nD) (t : Fin cfg1.N) (d : Fin 8) (q : Fin 1024) :
    (iblk1 (V11 m ρ) c 2 t : FVec Ideal S8x1024 .bf16) (ix2 d q) = tHi m ρ c (ix2 d q) := by
  obtain ⟨-, -, -, -, -, e0, e1, -⟩ := idx_facts1 t
  show V11 m ρ c main_v33 (((cfg1.win 2).blk t).view.emb (ix2 d q)) = V11 m ρ c main_v33 _
  congr 1; funext a; apply Fin.ext
  match a with
  | ⟨0, _⟩ => show win1_2.index t (0 : Fin 2) * 8 + 1 * d.val = d.val; rw [e0, Nat.zero_mul, Nat.zero_add, Nat.one_mul]
  | ⟨1, _⟩ => show win1_2.index t (1 : Fin 2) * 1024 + 1 * q.val = q.val; rw [e1, Nat.zero_mul, Nat.zero_add, Nat.one_mul]
theorem blk_tLo (c : Dev nD) (t : Fin cfg1.N) (d : Fin 8) (q : Fin 1024) :
    (iblk1 (V11 m ρ) c 3 t : FVec Ideal S8x1024 .bf16) (ix2 d q) = tLo m ρ c (ix2 d q) := by
  obtain ⟨-, -, -, -, -, -, -, e0, e1, -⟩ := idx_facts1 t
  show V11 m ρ c main_v36 (((cfg1.win 3).blk t).view.emb (ix2 d q)) = V11 m ρ c main_v36 _
  congr 1; funext a; apply Fin.ext
  match a with
  | ⟨0, _⟩ => show win1_3.index t (0 : Fin 2) * 8 + 1 * d.val = d.val; rw [e0, Nat.zero_mul, Nat.zero_add, Nat.one_mul]
  | ⟨1, _⟩ => show win1_3.index t (1 : Fin 2) * 1024 + 1 * q.val = q.val; rw [e1, Nat.zero_mul, Nat.zero_add, Nat.one_mul]
theorem blk_uHi (c : Dev nD) (t : Fin cfg1.N) (d : Fin 8) (q : Fin 1024) :
    (iblk1 (V11 m ρ) c 4 t : FVec Ideal S8x1024 .bf16) (ix2 d q) = uHi m ρ c (ix2 d q) := by
  obtain ⟨-, -, -, -, -, -, -, -, -, e0, e1, -⟩ := idx_facts1 t
  show V11 m ρ c main_v37 (((cfg1.win 4).blk t).view.emb (ix2 d q)) = V11 m ρ c main_v37 _
  congr 1; funext a; apply Fin.ext
  match a with
  | ⟨0, _⟩ => show win1_4.index t (0 : Fin 2) * 8 + 1 * d.val = d.val; rw [e0, Nat.zero_mul, Nat.zero_add, Nat.one_mul]
  | ⟨1, _⟩ => show win1_4.index t (1 : Fin 2) * 1024 + 1 * q.val = q.val; rw [e1, Nat.zero_mul, Nat.zero_add, Nat.one_mul]
theorem blk_uLo (c : Dev nD) (t : Fin cfg1.N) (d : Fin 8) (q : Fin 1024) :
    (iblk1 (V11 m ρ) c 5 t : FVec Ideal S8x1024 .bf16) (ix2 d q) = uLo m ρ c (ix2 d q) := by
  obtain ⟨-, -, -, -, -, -, -, -, -, -, -, e0, e1, -⟩ := idx_facts1 t
  show V11 m ρ c main_v40 (((cfg1.win 5).blk t).view.emb (ix2 d q)) = V11 m ρ c main_v40 _
  congr 1; funext a; apply Fin.ext
  match a with
  | ⟨0, _⟩ => show win1_5.index t (0 : Fin 2) * 8 + 1 * d.val = d.val; rw [e0, Nat.zero_mul, Nat.zero_add, Nat.one_mul]
  | ⟨1, _⟩ => show win1_5.index t (1 : Fin 2) * 1024 + 1 * q.val = q.val; rw [e1, Nat.zero_mul, Nat.zero_add, Nat.one_mul]

/-- A place of the result's block at point `t` is, in the result, row `2048·t + ` its row, and its column. -/
theorem emb_out_block (t : Fin cfg1.N) (j : ((win1 6).xblock (grid1.coords t)).Idx) :
    ((((cfg1.win 6).blk t).view.emb j) (0 : Fin 2)).val = 2048 * t.val + (j (0 : Fin 2)).val
    ∧ ((((cfg1.win 6).blk t).view.emb j) (1 : Fin 2)).val = (j (1 : Fin 2)).val := by
  obtain ⟨-, -, -, -, -, -, -, -, -, -, -, -, -, e0, e1⟩ := idx_facts1 t
  constructor
  · show win1_6.index t (0 : Fin 2) * 2048 + 1 * (j (0 : Fin 2)).val = _
    rw [e0, Nat.one_mul, Nat.mul_comm]
  · show win1_6.index t (1 : Fin 2) * 1024 + 1 * (j (1 : Fin 2)).val = _
    rw [e1, Nat.zero_mul, Nat.zero_add, Nat.one_mul]

/-- WHAT POINT `t` WRITES BACK is block `t` of the result function of the pass's entry contents. -/
theorem flushed_eq (c : Dev nD) (t : Fin cfg1.N) :
    (dat1 (V11 m ρ) c).flushed 6 t = ((cfg1.win 6).blk t).view.read (Elt Ideal)
      (G1 (x1 m ρ c) (y1 m ρ c) (tHi m ρ c) (tLo m ρ c) (uHi m ρ c) (uLo m ρ c)) := by
  show (cfg1.win 6).cut (grid1.coords t) ((dat1 (V11 m ρ) c).after 6 t) = _
  rw [after1_6]
  unfold out1_6
  rw [View.canon_unit_zero hz2]
  simp only [View.ld_unit_zero (S := S1x1x2048) hz3, View.ld_unit_zero (S := S8x1024) hz2, View.ld_unit_zero (S := S2048x1024) hz2]
  have ht : t.val < 8 := by have := t.isLt; have hN : cfg1.N = 8 := N_1; omega
  funext j
  refine (block_value (x1 m ρ c) (y1 m ρ c) (tHi m ρ c) (tLo m ρ c) (uHi m ρ c) (uLo m ρ c)
    (iblk1 (V11 m ρ) c 1 t) (iblk1 (V11 m ρ) c 2 t) (iblk1 (V11 m ρ) c 3 t) (iblk1 (V11 m ρ) c 4 t) (iblk1 (V11 m ρ) c 5 t) (iblk1 (V11 m ρ) c 0 t)
    t.val ht (blk_rows m ρ c t) (blk_labels m ρ c t) (blk_tHi m ρ c t) (blk_tLo m ρ c t) (blk_uHi m ρ c t) (blk_uLo m ρ c t)
    ((win1 6).xinj (grid1.coords t) j)).trans ?_
  refine Eq.trans ?_ (read_out_block _ t j).symm
  refine Eq.trans ?_ (G1_apply _ _ _ _ _ _ _).symm
  obtain ⟨h0, h1⟩ := emb_out_block t j
  exact congrArg₂ (res1 _ _ _ _ _ _) (Fin.ext h0.symm) (Fin.ext h1.symm)

/-- An index of the result is in point `t`'s block iff each coordinate is in the block's range on its axis. -/
theorem mem_out_block (t : Fin cfg1.N) (i : S16384x1024.Idx) :
    i ∈ ((cfg1.win 6).blk t).view.set ↔ ∀ a : Fin 2, win1_6.index t a * S2048x1024.size a ≤ (i a).val ∧ (i a).val < win1_6.index t a * S2048x1024.size a + S2048x1024.size a := by
  show i ∈ ((View.whole main_v42).slice (win1_6.rect t)).set ↔ _
  rw [View.set_slice_whole, Rect.mem_set_unit]
  exact Iff.rfl

/-- Every index of the result is in the block of the point its row's block names, and every point writes back. -/
theorem cover_out (i : S16384x1024.Idx) :
    ∃ t : Fin cfg1.N, (cfg1.win 6).flush t = true ∧ i ∈ ((cfg1.win 6).blk t).view.set := by
  have hN : cfg1.N = 8 := N_1
  have hi0 : (i 0).val < 16384 := (i 0).isLt
  have hi1 : (i 1).val < 1024 := (i 1).isLt
  refine ⟨⟨(i 0).val / 2048, by omega⟩, flush1_6 _, ?_⟩
  rw [mem_out_block]
  obtain ⟨-, -, -, -, -, -, -, -, -, -, -, -, -, e0, e1⟩ := idx_facts1 ⟨(i 0).val / 2048, by omega⟩
  intro a
  match a with
  | ⟨0, _⟩ =>
    show win1_6.index _ (0 : Fin 2) * 2048 ≤ (i 0).val ∧ (i 0).val < win1_6.index _ (0 : Fin 2) * 2048 + 2048
    rw [e0]; show (i 0).val / 2048 * 2048 ≤ (i 0).val ∧ (i 0).val < (i 0).val / 2048 * 2048 + 2048; omega
  | ⟨1, _⟩ =>
    show win1_6.index _ (1 : Fin 2) * 1024 ≤ (i 1).val ∧ (i 1).val < win1_6.index _ (1 : Fin 2) * 1024 + 1024
    rw [e1]; omega

/-- THE RESULT after the second pass: the result function of the pass's entry contents. -/
theorem out_eq (c : Dev nD) :
    out m ρ c = G1 (x1 m ρ c) (y1 m ρ c) (tHi m ρ c) (tLo m ρ c) (uHi m ρ c) (uLo m ρ c) :=
  (W12_arr m ρ c 6).trans
    ((dat1 (V11 m ρ) c).arrAt_eq_of_cover 6 _ (fun t _ => flushed_eq m ρ c t) cover_out)

end Pass2

open Idealize.ShloMosaic Idealize.ShloMosaic.TcCoe Idealize.SL.Sem Idealize.ShloMosaic.ValueIdx
open Idealize.ShloMosaic.Pipeline (Dat)
open Cert.KernelIdeal Cert.KernelIdeal.Gen Cert.DomainNorm

variable (m : (ℓ : Loc nD τ sig) → Buf (Elt Ideal) ℓ) (ρ : Dev nD → PrngReg)

theorem out_value (c : Dev nD) (n : Fin 16384) (f : Fin 1024) :
    out m ρ c (ix2 n f) =
      x1 m ρ c (ix2 n f) * ((∑ d : Fin 8, oh3 (y1 m ρ c) d n * tHi m ρ c (ix2 d f)) + (∑ d : Fin 8, oh3 (y1 m ρ c) d n * tLo m ρ c (ix2 d f)))
        + ((∑ d : Fin 8, oh3 (y1 m ρ c) d n * uHi m ρ c (ix2 d f)) + (∑ d : Fin 8, oh3 (y1 m ρ c) d n * uLo m ρ c (ix2 d f))) :=
  (congrFun (Pass2.out_eq m ρ c) (ix2 n f)).trans (Pass2.G1_apply _ _ _ _ _ _ _)

end Cert.KernelIdeal.KV

end
-- ==== Proof.KHost.lean ====
/-
  The host operations between the two passes, read at an index: the four tables as the host's chain on the two
  halves' sums. The first pass leaves, per half of the rows, a count per domain and two sums per domain and column;
  the host adds the halves, divides by the count (by one for an empty domain), forms the variance and its inverse
  root, folds in the empty and the singleton domain by two selects, and splits each table into its rounding to the
  narrow format and the residual of that rounding. At the ideal values a change of format is the identity, so the
  residual is the table minus itself.
-/
import proofs.«420900_j1090921693630_3_alg».proof.Proof.KDefs
import Idealize.ShloMosaic.Lib.Pipeline.Value
import Idealize.ShloMosaic.PureOps.Ideal.Laws

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.DomainNorm

namespace Between

/-! ## The host's chain between the two passes, on whole arrays

The three outputs of the first pass hold, per half of the rows, a count per domain and two sums per domain and
column. The host adds the two halves, divides by the count (or by one for an empty domain), forms the variance and
its inverse root, and selects by "the count is zero" and "the count is one". -/

/-- The two halves' counts added: one entry per domain. -/
def cntH (P0 : SP0.Idx → EReal) : S8x1.Idx → EReal :=
  Host.reduceAdd (F := Ideal) (φ := .f32) P0 (constant (F := Ideal) S_ .f32 0x00000000#32) reducesTo_S2x8x1_S8x1_d0 h_S_

/-- The two halves' sums added: one entry per domain and column. -/
def sumH (P : SP1.Idx → EReal) : ST.Idx → EReal :=
  Host.reduceAdd (F := Ideal) (φ := .f32) P (constant (F := Ideal) S_ .f32 0x00000000#32) reducesTo_S2x8x1024_S8x1024_d0 h_S_

/-- The divisor, the count or one for an empty domain, spread along the columns. -/
def denH (P0 : SP0.Idx → EReal) : ST.Idx → EReal :=
  broadcastInDim S8x1024 ![0, 1] bcast_S8x1_S8x1024_0_1
    (maximumf (F := Ideal) (φ := .f32) (cntH P0) (broadcastInDim S8x1 ![] bcast_S_S8x1 (constant (F := Ideal) S_ .f32 0x3F800000#32)))

/-- The mean: the sum over the divisor. -/
def meanH (P0 : SP0.Idx → EReal) (P1 : SP1.Idx → EReal) : ST.Idx → EReal :=
  Host.divf (F := Ideal) (φ := .f32) (sumH P1) (denH P0)

/-- The inverse root of the variance plus the small constant. -/
def invH (P0 : SP0.Idx → EReal) (P1 P2 : SP1.Idx → EReal) : ST.Idx → EReal :=
  Host.rsqrt (F := Ideal) (φ := .f32)
    (addf (subf (Host.divf (F := Ideal) (φ := .f32) (sumH P2) (denH P0)) (mulf (meanH P0 P1) (meanH P0 P1)))
      (broadcastInDim S8x1024 ![] bcast_S_S8x1024 (constant (F := Ideal) S_ .f32 0x3727C5AC#32)))

/-- "The count is zero", spread along the columns. -/
def isZeroH (P0 : SP0.Idx → EReal) : IVec S8x1024 1 :=
  broadcastInDim S8x1024 ![0, 1] bcast_S8x1_S8x1024_0_1
    (cmpf (F := Ideal) (φ := .f32) .oeq (cntH P0) (broadcastInDim S8x1 ![] bcast_S_S8x1 (constant (F := Ideal) S_ .f32 0x00000000#32)))

/-- "The count is one", spread along the columns. -/
def isOneH (P0 : SP0.Idx → EReal) : IVec S8x1024 1 :=
  broadcastInDim S8x1024 ![0, 1] bcast_S8x1_S8x1024_0_1
    (cmpf (F := Ideal) (φ := .f32) .oeq (cntH P0) (broadcastInDim S8x1 ![] bcast_S_S8x1 (constant (F := Ideal) S_ .f32 0x3F800000#32)))

/-- The constant arrays of zeros and of ones. -/
def zerosH : ST.Idx → EReal := broadcastInDim S8x1024 ![] bcast_S_S8x1024 (constant (F := Ideal) S_ .f32 0x00000000#32)
def onesH : ST.Idx → EReal := broadcastInDim S8x1024 ![] bcast_S_S8x1024 (constant (F := Ideal) S_ .f32 0x3F800000#32)

/-- The scale table before it is split. -/
def scaleH (P0 : SP0.Idx → EReal) (P1 P2 : SP1.Idx → EReal) (G : ST.Idx → EReal) : ST.Idx → EReal :=
  select (isZeroH P0) zerosH (select (isOneH P0) onesH (mulf (F := Ideal) (φ := .f32) G (invH P0 P1 P2)))

/-- The shift table before it is split. -/
def shiftH (P0 : SP0.Idx → EReal) (P1 P2 : SP1.Idx → EReal) (G B : ST.Idx → EReal) : ST.Idx → EReal :=
  select (isZeroH P0) zerosH (select (isOneH P0) zerosH
    (subf (F := Ideal) (φ := .f32) B (mulf (F := Ideal) (φ := .f32) (mulf (F := Ideal) (φ := .f32) G (invH P0 P1 P2)) (meanH P0 P1))))

/-- The residual a table leaves after its rounding to the narrow format. -/
def loH (T : FVec Ideal S8x1024 .f32) : FVec Ideal S8x1024 .bf16 :=
  truncf .bf16 (subf T (extf .f32 (truncf .bf16 T bitsLt_bf16_f32) bitsLt_bf16_f32)) bitsLt_bf16_f32

/-- At the ideal values the rounding is the identity: the residual is the table minus itself. -/
theorem loH_apply (T : FVec Ideal S8x1024 .f32) (i : S8x1024.Idx) : loH T i = T i - T i := rfl

/-! ## The constants -/

theorem ofBits_f32_zero : Ideal.ofBits .f32 0x00000000#32 = 0 := by
  simp [Ideal.ofBits, Ideal.ieee]

theorem ofBits_f32_one : Ideal.ofBits .f32 0x3F800000#32 = 1 := by
  simp [Ideal.ofBits, Ideal.ieee, -EReal.coe_mul]; norm_num

/-- A select on the bit of a decided proposition is the conditional. -/
theorem select_ofBool_decide {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-! ## The chain read at an index -/

/-- A column spread along the columns reads the column's entry. -/
theorem spread_apply {α : Type} (x : S8x1.Idx → α) (d : Fin 8) (f : Fin 1024) :
    broadcastInDim S8x1024 ![0, 1] bcast_S8x1_S8x1024_0_1 x (ix2 d f) = x (ix2 d (0 : Fin 1)) :=
  broadcastInDim_apply ![0, 1] bcast_S8x1_S8x1024_0_1 x (ix2 d f) (ix2 d (0 : Fin 1))
    (fun a => match a with | ⟨0, _⟩ => rfl | ⟨1, _⟩ => rfl)

theorem cntH_apply (P0 : SP0.Idx → EReal) (d : Fin 8) :
    cntH P0 (ix2 d (0 : Fin 1)) = P0 (ix3 (0 : Fin 2) d (0 : Fin 1)) + P0 (ix3 (1 : Fin 2) d (0 : Fin 1)) := by
  have hR : S2x8x1.Reduces [0] S8x1 := by decide
  have e0 : Shape.Reduces.lift hR (ix2 d (0 : Fin 1)) (0 : Fin 2) = ix3 (0 : Fin 2) d (0 : Fin 1) := by
    funext a; match a with | ⟨0, _⟩ => rfl | ⟨1, _⟩ => rfl | ⟨2, _⟩ => rfl
  have e1 : Shape.Reduces.lift hR (ix2 d (0 : Fin 1)) (1 : Fin 2) = ix3 (1 : Fin 2) d (0 : Fin 1) := by
    funext a; match a with | ⟨0, _⟩ => rfl | ⟨1, _⟩ => rfl | ⟨2, _⟩ => rfl
  calc cntH P0 (ix2 d (0 : Fin 1))
      = Ideal.ofBits .f32 0x00000000#32 + ∑ k : Fin 2, P0 (Shape.Reduces.lift hR (ix2 d (0 : Fin 1)) k) :=
        Ideal.hostReduceAdd_single reducesTo_S2x8x1_S8x1_d0 hR P0 _ (ix2 d (0 : Fin 1))
    _ = _ := by rw [Fin.sum_univ_two, e0, e1, ofBits_f32_zero, zero_add]

theorem sumH_apply (P : SP1.Idx → EReal) (d : Fin 8) (f : Fin 1024) :
    sumH P (ix2 d f) = P (ix3 (0 : Fin 2) d f) + P (ix3 (1 : Fin 2) d f) := by
  have hR : S2x8x1024.Reduces [0] S8x1024 := by decide
  have e0 : Shape.Reduces.lift hR (ix2 d f) (0 : Fin 2) = ix3 (0 : Fin 2) d f := by
    funext a; match a with | ⟨0, _⟩ => rfl | ⟨1, _⟩ => rfl | ⟨2, _⟩ => rfl
  have e1 : Shape.Reduces.lift hR (ix2 d f) (1 : Fin 2) = ix3 (1 : Fin 2) d f := by
    funext a; match a with | ⟨0, _⟩ => rfl | ⟨1, _⟩ => rfl | ⟨2, _⟩ => rfl
  calc sumH P (ix2 d f)
      = Ideal.ofBits .f32 0x00000000#32 + ∑ k : Fin 2, P (Shape.Reduces.lift hR (ix2 d f) k) :=
        Ideal.hostReduceAdd_single reducesTo_S2x8x1024_S8x1024_d0 hR P _ (ix2 d f)
    _ = _ := by rw [Fin.sum_univ_two, e0, e1, ofBits_f32_zero, zero_add]

theorem denH_apply (P0 : SP0.Idx → EReal) (d : Fin 8) (f : Fin 1024) :
    denH P0 (ix2 d f) = max (cntH P0 (ix2 d (0 : Fin 1))) 1 := by
  unfold denH
  rw [spread_apply]
  show max (cntH P0 (ix2 d (0 : Fin 1))) (Ideal.ofBits .f32 0x3F800000#32) = _
  rw [ofBits_f32_one]

theorem meanH_apply (P0 : SP0.Idx → EReal) (P1 : SP1.Idx → EReal) (d : Fin 8) (f : Fin 1024) :
    meanH P0 P1 (ix2 d f) = Ideal.div (sumH P1 (ix2 d f)) (max (cntH P0 (ix2 d (0 : Fin 1))) 1) := by
  show Ideal.div (sumH P1 (ix2 d f)) (denH P0 (ix2 d f)) = _
  rw [denH_apply]

theorem invH_apply (P0 : SP0.Idx → EReal) (P1 P2 : SP1.Idx → EReal) (d : Fin 8) (f : Fin 1024) :
    invH P0 P1 P2 (ix2 d f)
      = Ideal.rsqrt ((Ideal.div (sumH P2 (ix2 d f)) (max (cntH P0 (ix2 d (0 : Fin 1))) 1)
          - meanH P0 P1 (ix2 d f) * meanH P0 P1 (ix2 d f)) + eps) := by
  show Ideal.rsqrt ((Ideal.div (sumH P2 (ix2 d f)) (denH P0 (ix2 d f))
          - meanH P0 P1 (ix2 d f) * meanH P0 P1 (ix2 d f)) + Ideal.ofBits .f32 0x3727C5AC#32) = _
  rw [denH_apply]; rfl

theorem isZeroH_apply (P0 : SP0.Idx → EReal) (d : Fin 8) (f : Fin 1024) :
    isZeroH P0 (ix2 d f) = BitVec.ofBool (decide (cntH P0 (ix2 d (0 : Fin 1)) = 0)) := by
  unfold isZeroH
  rw [spread_apply]
  show BitVec.ofBool (decide (cntH P0 (ix2 d (0 : Fin 1)) = Ideal.ofBits .f32 0x00000000#32)) = _
  rw [ofBits_f32_zero]

theorem isOneH_apply (P0 : SP0.Idx → EReal) (d : Fin 8) (f : Fin 1024) :
    isOneH P0 (ix2 d f) = BitVec.ofBool (decide (cntH P0 (ix2 d (0 : Fin 1)) = 1)) := by
  unfold isOneH
  rw [spread_apply]
  show BitVec.ofBool (decide (cntH P0 (ix2 d (0 : Fin 1)) = Ideal.ofBits .f32 0x3F800000#32)) = _
  rw [ofBits_f32_one]

theorem zerosH_apply (i : ST.Idx) : zerosH i = 0 := ofBits_f32_zero
theorem onesH_apply (i : ST.Idx) : onesH i = 1 := ofBits_f32_one

/-- The scale table at a domain and a column, from the two halves' sums. -/
theorem scaleH_apply (P0 : SP0.Idx → EReal) (P1 P2 : SP1.Idx → EReal) (G : ST.Idx → EReal) (d : Fin 8) (f : Fin 1024) :
    scaleH P0 P1 P2 G (ix2 d f)
      = scaleOf (P0 (ix3 (0 : Fin 2) d (0 : Fin 1)) + P0 (ix3 (1 : Fin 2) d (0 : Fin 1)))
          (P1 (ix3 (0 : Fin 2) d f) + P1 (ix3 (1 : Fin 2) d f)) (P2 (ix3 (0 : Fin 2) d f) + P2 (ix3 (1 : Fin 2) d f))
          (G (ix2 d f)) := by
  show Scalar.select (isZeroH P0 (ix2 d f)) (zerosH (ix2 d f))
      (Scalar.select (isOneH P0 (ix2 d f)) (onesH (ix2 d f)) (G (ix2 d f) * invH P0 P1 P2 (ix2 d f))) = _
  rw [isZeroH_apply, isOneH_apply, select_ofBool_decide, select_ofBool_decide, zerosH_apply, onesH_apply,
    invH_apply, meanH_apply, cntH_apply, sumH_apply, sumH_apply]
  rfl

/-- The shift table at a domain and a column, from the two halves' sums. -/
theorem shiftH_apply (P0 : SP0.Idx → EReal) (P1 P2 : SP1.Idx → EReal) (G B : ST.Idx → EReal) (d : Fin 8) (f : Fin 1024) :
    shiftH P0 P1 P2 G B (ix2 d f)
      = shiftOf (P0 (ix3 (0 : Fin 2) d (0 : Fin 1)) + P0 (ix3 (1 : Fin 2) d (0 : Fin 1)))
          (P1 (ix3 (0 : Fin 2) d f) + P1 (ix3 (1 : Fin 2) d f)) (P2 (ix3 (0 : Fin 2) d f) + P2 (ix3 (1 : Fin 2) d f))
          (G (ix2 d f)) (B (ix2 d f)) := by
  show Scalar.select (isZeroH P0 (ix2 d f)) (zerosH (ix2 d f))
      (Scalar.select (isOneH P0 (ix2 d f)) (zerosH (ix2 d f))
        (B (ix2 d f) - G (ix2 d f) * invH P0 P1 P2 (ix2 d f) * meanH P0 P1 (ix2 d f))) = _
  rw [isZeroH_apply, isOneH_apply, select_ofBool_decide, select_ofBool_decide, zerosH_apply,
    invH_apply, meanH_apply, cntH_apply, sumH_apply, sumH_apply]
  rfl

/-! ## The seven stretches between the passes, from any contents at the first pass's exit -/

/-- The buffers after the seven stretches, run in order from the contents V. -/
abbrev stretches (V : Valuation τ sig (Elt Ideal)) : Valuation τ sig (Elt Ideal) :=
  StableHlo.after hostOps1_6 (StableHlo.after hostOps1_5 (StableHlo.after hostOps1_4 (StableHlo.after hostOps1_3
    (StableHlo.after hostOps1_2 (StableHlo.after hostOps1_1 (StableHlo.after hostOps1 V))))))

/-- The scale table's buffer holds the chain's scale table of the first pass's outputs and the scale parameter. -/
theorem scaleHi_after (V : Valuation τ sig (Elt Ideal)) :
    (stretches V (Proc.devRef .tc main_v33) : ST.Idx → EReal)
      = scaleH (V (Proc.devRef .tc main_v2_0)) (V (Proc.devRef .tc main_v2_1)) (V (Proc.devRef .tc main_v2_2))
          (V (Proc.devRef .tc main_arg2)) := by
  after_results_simp
  rfl

theorem scaleLo_after (V : Valuation τ sig (Elt Ideal)) :
    (stretches V (Proc.devRef .tc main_v36) : ST.Idx → EReal)
      = loH (scaleH (V (Proc.devRef .tc main_v2_0)) (V (Proc.devRef .tc main_v2_1)) (V (Proc.devRef .tc main_v2_2))
          (V (Proc.devRef .tc main_arg2))) := by
  after_results_simp
  rfl

/-- The shift table's buffer holds the chain's shift table of the same and the shift parameter. -/
theorem shiftHi_after (V : Valuation τ sig (Elt Ideal)) :
    (stretches V (Proc.devRef .tc main_v37) : ST.Idx → EReal)
      = shiftH (V (Proc.devRef .tc main_v2_0)) (V (Proc.devRef .tc main_v2_1)) (V (Proc.devRef .tc main_v2_2))
          (V (Proc.devRef .tc main_arg2)) (V (Proc.devRef .tc main_arg3)) := by
  after_results_simp
  rfl

theorem shiftLo_after (V : Valuation τ sig (Elt Ideal)) :
    (stretches V (Proc.devRef .tc main_v40) : ST.Idx → EReal)
      = loH (shiftH (V (Proc.devRef .tc main_v2_0)) (V (Proc.devRef .tc main_v2_1)) (V (Proc.devRef .tc main_v2_2))
          (V (Proc.devRef .tc main_arg2)) (V (Proc.devRef .tc main_arg3))) := by
  after_results_simp
  rfl

/-! ## The two parameter tables at the first pass's exit are the arguments

No host operation before the first pass writes an argument, and the first pass writes none of these two. -/

variable (m : (ℓ : Loc nD τ sig) → Buf (Elt Ideal) ℓ) (ρ : Dev nD → PrngReg)

theorem scaleArg_exit (c : Dev nD) : W4 m ρ c (Proc.devRef .tc main_arg2) = m ((c : Thread nD τ).loc main_arg2) := by
  refine (W4_of_ne m ρ c main_arg2 (by decide)).trans ?_
  show StableHlo.after hostOps0_2 (StableHlo.after hostOps0_1 (StableHlo.after hostOps0 (W0 m ρ c))) (Proc.devRef .tc main_arg2) = _
  after_results

theorem shiftArg_exit (c : Dev nD) : W4 m ρ c (Proc.devRef .tc main_arg3) = m ((c : Thread nD τ).loc main_arg3) := by
  refine (W4_of_ne m ρ c main_arg3 (by decide)).trans ?_
  show StableHlo.after hostOps0_2 (StableHlo.after hostOps0_1 (StableHlo.after hostOps0 (W0 m ρ c))) (Proc.devRef .tc main_arg3) = _
  after_results

end Between

open Between

variable (m : (ℓ : Loc nD τ sig) → Buf (Elt Ideal) ℓ) (ρ : Dev nD → PrngReg)

/-- The scale table and its residual, the shift table and its residual, from the two halves' sums. -/
theorem tHi_eq (c : Dev nD) (d : Fin 8) (f : Fin 1024) :
    tHi m ρ c (ix2 d f) = scaleOf (p0 m ρ c (ix3 (0 : Fin 2) d (0 : Fin 1)) + p0 m ρ c (ix3 (1 : Fin 2) d (0 : Fin 1)))
      (p1 m ρ c (ix3 (0 : Fin 2) d f) + p1 m ρ c (ix3 (1 : Fin 2) d f)) (p2 m ρ c (ix3 (0 : Fin 2) d f) + p2 m ρ c (ix3 (1 : Fin 2) d f))
      (argG m c (ix2 d f)) := by
  have h : tHi m ρ c = scaleH (p0 m ρ c) (p1 m ρ c) (p2 m ρ c) (W4 m ρ c (Proc.devRef .tc main_arg2)) :=
    scaleHi_after (W4 m ρ c)
  rw [h, scaleH_apply, scaleArg_exit]

theorem tLo_eq (c : Dev nD) (d : Fin 8) (f : Fin 1024) :
    tLo m ρ c (ix2 d f) = tHi m ρ c (ix2 d f) - tHi m ρ c (ix2 d f) := by
  have h : tHi m ρ c = scaleH (p0 m ρ c) (p1 m ρ c) (p2 m ρ c) (W4 m ρ c (Proc.devRef .tc main_arg2)) :=
    scaleHi_after (W4 m ρ c)
  have l : tLo m ρ c = loH (scaleH (p0 m ρ c) (p1 m ρ c) (p2 m ρ c) (W4 m ρ c (Proc.devRef .tc main_arg2))) :=
    scaleLo_after (W4 m ρ c)
  rw [h, l, loH_apply]

theorem uHi_eq (c : Dev nD) (d : Fin 8) (f : Fin 1024) :
    uHi m ρ c (ix2 d f) = shiftOf (p0 m ρ c (ix3 (0 : Fin 2) d (0 : Fin 1)) + p0 m ρ c (ix3 (1 : Fin 2) d (0 : Fin 1)))
      (p1 m ρ c (ix3 (0 : Fin 2) d f) + p1 m ρ c (ix3 (1 : Fin 2) d f)) (p2 m ρ c (ix3 (0 : Fin 2) d f) + p2 m ρ c (ix3 (1 : Fin 2) d f))
      (argG m c (ix2 d f)) (argB m c (ix2 d f)) := by
  have h : uHi m ρ c = shiftH (p0 m ρ c) (p1 m ρ c) (p2 m ρ c) (W4 m ρ c (Proc.devRef .tc main_arg2))
      (W4 m ρ c (Proc.devRef .tc main_arg3)) := shiftHi_after (W4 m ρ c)
  rw [h, shiftH_apply, scaleArg_exit, shiftArg_exit]

theorem uLo_eq (c : Dev nD) (d : Fin 8) (f : Fin 1024) :
    uLo m ρ c (ix2 d f) = uHi m ρ c (ix2 d f) - uHi m ρ c (ix2 d f) := by
  have h : uHi m ρ c = shiftH (p0 m ρ c) (p1 m ρ c) (p2 m ρ c) (W4 m ρ c (Proc.devRef .tc main_arg2))
      (W4 m ρ c (Proc.devRef .tc main_arg3)) := shiftHi_after (W4 m ρ c)
  have l : uLo m ρ c = loH (shiftH (p0 m ρ c) (p1 m ρ c) (p2 m ρ c) (W4 m ρ c (Proc.devRef .tc main_arg2))
      (W4 m ρ c (Proc.devRef .tc main_arg3))) := shiftLo_after (W4 m ρ c)
  rw [h, l, loH_apply]

end Cert.KernelIdeal.KV

end
-- ==== Proof.KHostXY.lean ====
/-
  The rows and the labels as the two passes find them: the rows are the argument (nothing writes it), and the labels,
  clipped into `[0, 7]` and laid out as `[8, 1, 2048]`, are the labels themselves when they are in range (the clip is
  the identity there, and entry `(n / 2048, 0, n % 2048)` of the row-major layout is entry `n`).
-/
import proofs.«420900_j1090921693630_3_alg».proof.Proof.KDefs

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.DomainNorm

/-- The signed clip of a word into `[0, 7]` is the word itself when it reads as an integer in `[0, 8)`. -/
theorem xy_clip_word (w : BitVec 32) (h0 : 0 ≤ w.toInt) (h8 : w.toInt < 8) :
    IntOp.minsi 7#32 (IntOp.maxsi 0#32 w) = w := by
  have z0 : (0#32 : BitVec 32).toInt = 0 := by decide
  have z7 : (7#32 : BitVec 32).toInt = 7 := by decide
  have hmax : IntOp.maxsi 0#32 w = w := by
    unfold IntOp.maxsi
    rw [if_neg]
    intro h
    rw [BitVec.slt_iff_toInt_lt, z0] at h
    omega
  rw [hmax]
  unfold IntOp.minsi
  rw [if_neg]
  intro h
  rw [BitVec.slt_iff_toInt_lt, z7] at h
  omega

/-- Entry `(n / 2048, 0, n % 2048)` of the row-major `[8, 1, 2048]` layout of a `[16384]` array is entry `n`:
    the two have the same row-major position, `2048 · (n / 2048) + n % 2048 = n`. -/
theorem xy_shapeCast_at3 {α : Type} (x : SY.Idx → α) (h : SY.ShapeCasts SY3) (n : Fin 16384) :
    shapeCast SY3 x h (at3 n) = x (ix1 n) := by
  unfold shapeCast
  refine congrArg x (Shape.reshapeEquiv_eq_of_rowMajor h ?_)
  rw [Shape.rowMajor_val_one, Shape.rowMajor_val_three]
  show n.val = ((n.val / 2048) * 1 + 0) * 2048 + n.val % 2048
  omega

variable (m : (ℓ : Loc nD τ sig) → Buf (Elt Ideal) ℓ) (ρ : Dev nD → PrngReg)

/-- A stretch of host operations leaves a buffer none of them writes as it was: the stretch's operations are listed,
    each writes its one result buffer, and that buffer is another reference. -/
local macro "skip_stretch" : tactic =>
  `(tactic| (refine StableHlo.after_of_forall_not_mem _ _ (List.forall_iff_forall_mem.mp ?_)
             simp only [hostOps0, hostOps0_1, hostOps0_2, hostOps1, hostOps1_1, hostOps1_2, hostOps1_3, hostOps1_4, hostOps1_5,
               hostOps1_6, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

/-! ## The rows: no host operation writes the first argument, and both passes only read it -/

/-- At the first pass's entry the first argument's buffer is as launched. -/
theorem xy_W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by skip_stretch
    _ = W1 m ρ c (Proc.devRef .tc main_arg0) := by skip_stretch
    _ = W0 m ρ c (Proc.devRef .tc main_arg0) := by skip_stretch
    _ = m ((c : Thread nD τ).loc main_arg0) := rfl

/-- At the second pass's entry it is what it was at the first pass's: the first pass reads it through an input window,
    and the seven stretches between the passes do not write it. -/
theorem xy_W11_arg0 (c : Dev nD) : W11 m ρ c (Proc.devRef .tc main_arg0) = W3 m ρ c (Proc.devRef .tc main_arg0) :=
  calc W11 m ρ c (Proc.devRef .tc main_arg0)
    _ = W10 m ρ c (Proc.devRef .tc main_arg0) := by skip_stretch
    _ = W9 m ρ c (Proc.devRef .tc main_arg0) := by skip_stretch
    _ = W8 m ρ c (Proc.devRef .tc main_arg0) := by skip_stretch
    _ = W7 m ρ c (Proc.devRef .tc main_arg0) := by skip_stretch
    _ = W6 m ρ c (Proc.devRef .tc main_arg0) := by skip_stretch
    _ = W5 m ρ c (Proc.devRef .tc main_arg0) := by skip_stretch
    _ = W4 m ρ c (Proc.devRef .tc main_arg0) := by skip_stretch
    _ = W3 m ρ c (Proc.devRef .tc main_arg0) :=
          (W4_arr m ρ c 0).trans (((dat0 (V3 m ρ) c).arrAt_in 0 rfl _).trans (A_eq0 (V3 m ρ) c 0))

/-- Before the first pass the rows are the argument. -/
theorem x0_eq (c : Dev nD) : x0 m ρ c = argX m c := xy_W3_arg0 m ρ c

/-- Before the second pass the rows are still the argument. -/
theorem x1_eq (c : Dev nD) : x1 m ρ c = argX m c := (xy_W11_arg0 m ρ c).trans (xy_W3_arg0 m ρ c)

/-! ## The labels: clipped into `[0, 7]` word by word, then laid out as `[8, 1, 2048]` -/

/-- After the clip its result buffer holds, at each row, the signed minimum of `7` and the signed maximum of `0` and the
    row's label. -/
theorem xy_W2_v0 (c : Dev nD) :
    (W2 m ρ c (Proc.devRef .tc main_v0) : IVec SY 32) = fun i => IntOp.minsi 7#32 (IntOp.maxsi 0#32 (argY m c i)) := by
  show StableHlo.after hostOps0_1 (StableHlo.after hostOps0 (W0 m ρ c)) (Proc.devRef .tc main_v0) = _
  after_results
  rfl

/-- The clip's result stays as it is up to the second pass's last host stretch: the layout operation before the first
    pass writes another buffer, the first pass's arrays are other buffers, and so are the results of the host operations
    between the passes. -/
theorem xy_W3_v0 (c : Dev nD) : W3 m ρ c (Proc.devRef .tc main_v0) = W2 m ρ c (Proc.devRef .tc main_v0) := by skip_stretch

theorem xy_W10_v0 (c : Dev nD) : W10 m ρ c (Proc.devRef .tc main_v0) = W2 m ρ c (Proc.devRef .tc main_v0) :=
  calc W10 m ρ c (Proc.devRef .tc main_v0)
    _ = W9 m ρ c (Proc.devRef .tc main_v0) := by skip_stretch
    _ = W8 m ρ c (Proc.devRef .tc main_v0) := by skip_stretch
    _ = W7 m ρ c (Proc.devRef .tc main_v0) := by skip_stretch
    _ = W6 m ρ c (Proc.devRef .tc main_v0) := by skip_stretch
    _ = W5 m ρ c (Proc.devRef .tc main_v0) := by skip_stretch
    _ = W4 m ρ c (Proc.devRef .tc main_v0) := by skip_stretch
    _ = W3 m ρ c (Proc.devRef .tc main_v0) := W4_of_ne m ρ c main_v0 (by decide)
    _ = W2 m ρ c (Proc.devRef .tc main_v0) := xy_W3_v0 m ρ c

/-- The first pass's labels are the clip's result laid out as `[8, 1, 2048]`. -/
theorem xy_W3_v1 (c : Dev nD) :
    (W3 m ρ c (Proc.devRef .tc main_v1) : IVec SY3 32)
      = shapeCast SY3 (W2 m ρ c (Proc.devRef .tc main_v0) : IVec SY 32) shapeCasts_S16384_S8x1x2048 := by
  show StableHlo.after hostOps0_2 (W2 m ρ c) (Proc.devRef .tc main_v1) = _
  after_results
  rfl

/-- The second pass's labels are the same array laid out the same way. -/
theorem xy_W11_v41 (c : Dev nD) :
    (W11 m ρ c (Proc.devRef .tc main_v41) : IVec SY3 32)
      = shapeCast SY3 (W10 m ρ c (Proc.devRef .tc main_v0) : IVec SY 32) shapeCasts_S16384_S8x1x2048 := by
  show StableHlo.after hostOps1_6 (W10 m ρ c) (Proc.devRef .tc main_v41) = _
  after_results
  rfl

/-- The clipped labels laid out, read at row `n`'s place: the row's label when the labels are in range. -/
theorem xy_laid_clip (c : Dev nD) (hy : InRange (argY m c)) (n : Fin 16384) :
    shapeCast SY3 (W2 m ρ c (Proc.devRef .tc main_v0) : IVec SY 32) shapeCasts_S16384_S8x1x2048 (at3 n)
      = argY m c (ix1 n) := by
  rw [xy_shapeCast_at3, xy_W2_v0]
  exact xy_clip_word _ (hy n).1 (hy n).2

/-- The laid-out labels of the first pass: row `n`'s label, when the labels are in range. -/
theorem y0_eq (c : Dev nD) (hy : InRange (argY m c)) (n : Fin 16384) : y0 m ρ c (at3 n) = argY m c (ix1 n) :=
  (congrFun (xy_W3_v1 m ρ c) (at3 n)).trans (xy_laid_clip m ρ c hy n)

/-- The laid-out labels of the second pass: the same. -/
theorem y1_eq (c : Dev nD) (hy : InRange (argY m c)) (n : Fin 16384) : y1 m ρ c (at3 n) = argY m c (ix1 n) := by
  refine (congrFun (xy_W11_v41 m ρ c) (at3 n)).trans ?_
  rw [xy_W10_v0]
  exact xy_laid_clip m ρ c hy n

end Cert.KernelIdeal.KV

end
-- ==== Proof.KValue.lean ====
/-
  The two-pass program's result is `Gk` of its arguments when every label is in range.

  The kernels' indicator compares label WORDS; on labels in `[0, 8)` that is the indicator of the label's value. The two
  halves' sums add up to the sums over all rows (every row lies in exactly one half). With these the host's tables are
  the specification's `scaleT`, `shiftT` and their residuals, and the second pass's sums against the indicator are the
  specification's picks.
-/
import proofs.«420900_j1090921693630_3_alg».proof.Proof.KRegion0
import proofs.«420900_j1090921693630_3_alg».proof.Proof.KRegion1
import proofs.«420900_j1090921693630_3_alg».proof.Proof.KHost
import proofs.«420900_j1090921693630_3_alg».proof.Proof.KHostXY

noncomputable section

namespace Cert.KernelIdeal.KV

open Idealize.ShloMosaic Idealize.ShloMosaic.TcCoe Idealize.SL.Sem Idealize.ShloMosaic.ValueIdx
open Cert.KernelIdeal Cert.KernelIdeal.Gen Cert.DomainNorm

/-- The eight domain words read back as signed integers are the domains. -/
theorem toInt_word : ∀ d : Fin 8, (BitVec.ofNat 32 d.val).toInt = (d.val : ℤ) := by decide

/-- On a label in range, "the label's word is the word `d`" says "the label is `d`". -/
theorem word_eq_iff (w : BitVec 32) (d : Fin 8) : w = BitVec.ofNat 32 d.val ↔ w.toInt = (d.val : ℤ) := by
  constructor
  · rintro rfl; exact toInt_word d
  · intro h; exact BitVec.eq_of_toInt_eq (h.trans (toInt_word d).symm)

/-- The kernels' indicator on laid-out labels that are the labels: the specification's indicator. -/
theorem oh3_eq_ind (y3 : IVec SY3 32) (y : IVec SY 32) (h3 : ∀ n, y3 (at3 n) = y (ix1 n)) (d : Fin 8) (n : Fin 16384) :
    oh3 y3 d n = ind y d n := by
  unfold oh3 ind lab
  rw [h3 n]
  by_cases h : y (ix1 n) = BitVec.ofNat 32 d.val
  · rw [if_pos h, if_pos ((word_eq_iff _ d).mp h)]
  · rw [if_neg h, if_neg (fun h' => h ((word_eq_iff _ d).mpr h'))]

/-- Every row lies in exactly one of the two halves: the halves' sums add up to the sum over all rows. -/
theorem halves (t : Fin 16384 → EReal) :
    (∑ n : Fin 16384, if n.val / 8192 = (0 : Fin 2).val then t n else 0)
      + (∑ n : Fin 16384, if n.val / 8192 = (1 : Fin 2).val then t n else 0) = ∑ n : Fin 16384, t n := by
  rw [← Finset.sum_add_distrib]
  refine Finset.sum_congr rfl fun n _ => ?_
  have hn := n.isLt
  by_cases h : n.val / 8192 = 0
  · have h1 : ¬ n.val / 8192 = 1 := by omega
    show (if n.val / 8192 = 0 then t n else 0) + (if n.val / 8192 = 1 then t n else 0) = t n
    rw [if_pos h, if_neg h1, add_zero]
  · have h1 : n.val / 8192 = 1 := by omega
    show (if n.val / 8192 = 0 then t n else 0) + (if n.val / 8192 = 1 then t n else 0) = t n
    rw [if_neg h, if_pos h1, zero_add]

variable (m : (ℓ : Loc nD τ sig) → Buf (Elt Ideal) ℓ) (ρ : Dev nD → PrngReg)

/-- The host's count of a domain: the specification's. -/
theorem count_eq (c : Dev nD) (hy : InRange (argY m c)) (d : Fin 8) :
    p0 m ρ c (ix3 (0 : Fin 2) d (0 : Fin 1)) + p0 m ρ c (ix3 (1 : Fin 2) d (0 : Fin 1)) = cnt (argY m c) d := by
  rw [cnt_part, cnt_part]
  unfold cntP
  rw [halves]
  unfold cnt
  exact Finset.sum_congr rfl fun n _ => oh3_eq_ind _ _ (y0_eq m ρ c hy) d n

/-- The host's sum of a column over a domain: the specification's. -/
theorem sum1_eq (c : Dev nD) (hy : InRange (argY m c)) (d : Fin 8) (f : Fin 1024) :
    p1 m ρ c (ix3 (0 : Fin 2) d f) + p1 m ρ c (ix3 (1 : Fin 2) d f) = sum1 (argX m c) (argY m c) d f := by
  rw [sum1_part, sum1_part]
  unfold sum1P
  rw [halves]
  unfold sum1
  refine Finset.sum_congr rfl fun n _ => ?_
  rw [oh3_eq_ind _ _ (y0_eq m ρ c hy) d n, x0_eq]

/-- The host's sum of a column's squares over a domain: the specification's. -/
theorem sum2_eq (c : Dev nD) (hy : InRange (argY m c)) (d : Fin 8) (f : Fin 1024) :
    p2 m ρ c (ix3 (0 : Fin 2) d f) + p2 m ρ c (ix3 (1 : Fin 2) d f) = sum2 (argX m c) (argY m c) d f := by
  rw [sum2_part, sum2_part]
  unfold sum2P
  rw [halves]
  unfold sum2
  refine Finset.sum_congr rfl fun n _ => ?_
  rw [oh3_eq_ind _ _ (y0_eq m ρ c hy) d n, x0_eq]

/-- The scale table the second pass reads is the specification's. -/
theorem tHi_spec (c : Dev nD) (hy : InRange (argY m c)) (d : Fin 8) (f : Fin 1024) :
    tHi m ρ c (ix2 d f) = scaleT (argX m c) (argY m c) (argG m c) d f := by
  rw [tHi_eq, count_eq m ρ c hy, sum1_eq m ρ c hy, sum2_eq m ρ c hy, scaleT_eq]

/-- The shift table the second pass reads is the specification's. -/
theorem uHi_spec (c : Dev nD) (hy : InRange (argY m c)) (d : Fin 8) (f : Fin 1024) :
    uHi m ρ c (ix2 d f) = shiftT (argX m c) (argY m c) (argG m c) (argB m c) d f := by
  rw [uHi_eq, count_eq m ρ c hy, sum1_eq m ρ c hy, sum2_eq m ρ c hy, shiftT_eq]

/-- The result array holds `Gk` of the arguments. -/
theorem kernel_value (c : Dev nD) (hy : InRange (argY m c)) :
    out m ρ c = Gk (argX m c) (argY m c) (argG m c) (argB m c) := by
  funext i
  obtain ⟨n, f, rfl⟩ : ∃ (n : Fin 16384) (f : Fin 1024), i = ix2 n f := ⟨i 0, i 1, eq_ix2 i⟩
  have hoh : ∀ d : Fin 8, oh3 (y1 m ρ c) d n = ind (argY m c) d n := fun d => oh3_eq_ind _ _ (y1_eq m ρ c hy) d n
  have hHi : ∀ d : Fin 8, tHi m ρ c (ix2 d f) = scaleT (argX m c) (argY m c) (argG m c) d f := fun d => tHi_spec m ρ c hy d f
  have hUi : ∀ d : Fin 8, uHi m ρ c (ix2 d f) = shiftT (argX m c) (argY m c) (argG m c) (argB m c) d f := fun d => uHi_spec m ρ c hy d f
  have e1 : (∑ d : Fin 8, oh3 (y1 m ρ c) d n * tHi m ρ c (ix2 d f))
      = pick (argY m c) (fun d => scaleT (argX m c) (argY m c) (argG m c) d f) n :=
    Finset.sum_congr rfl fun d _ => by rw [hoh d, hHi d]
  have e2 : (∑ d : Fin 8, oh3 (y1 m ρ c) d n * tLo m ρ c (ix2 d f))
      = pick (argY m c) (fun d => scaleT (argX m c) (argY m c) (argG m c) d f - scaleT (argX m c) (argY m c) (argG m c) d f) n :=
    Finset.sum_congr rfl fun d _ => by rw [hoh d, tLo_eq, hHi d]
  have e3 : (∑ d : Fin 8, oh3 (y1 m ρ c) d n * uHi m ρ c (ix2 d f))
      = pick (argY m c) (fun d => shiftT (argX m c) (argY m c) (argG m c) (argB m c) d f) n :=
    Finset.sum_congr rfl fun d _ => by rw [hoh d, hUi d]
  have e4 : (∑ d : Fin 8, oh3 (y1 m ρ c) d n * uLo m ρ c (ix2 d f))
      = pick (argY m c) (fun d => shiftT (argX m c) (argY m c) (argG m c) (argB m c) d f - shiftT (argX m c) (argY m c) (argG m c) (argB m c) d f) n :=
    Finset.sum_congr rfl fun d _ => by rw [hoh d, uLo_eq, hUi d]
  rw [out_value, e1, e2, e3, e4, x1_eq]
  rfl

end Cert.KernelIdeal.KV

end
-- ==== Proof.RefRead.lean ====
/-
  The direct program read at an index: its three segment sums are the indicator sums over all rows, its gathers read
  the row's domain, and its two selects split by the domain's size — so its result is `Gr` of the arguments when every
  label is in range.

  The program's term is first cut into named stages (the counts, a segment sum of rows, the divisor table, the mean, the
  inverse deviation, the start indices, a table's row at each label, the count of each row's domain), equal to the term
  by unfolding. Then each stage is read at an index:
    • an update of a scatter lands on an element exactly when, on every axis, its start (the label, read signed) plus its
      window coordinate is the element's coordinate; so the counts are `cnt`, and a segment sum of the rows of `u` at
      `(d, f)` is `Σ_n [y n = d] · u (n, f)`;
    • a gather reads its table at the start index clamped into the table; for a label in range neither the wrap of a
      negative label nor the clamp moves it, and the row read is the row of `dom y n`;
    • a comparison bit selects as the `if` on the comparison.
-/
import proofs.«420900_j1090921693630_3_alg».proof.Defs
import proofs.«420900_j1090921693630_3_alg».proof.Proof.RefRun
import proofs.«420900_j1090921693630_3_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Value Cert.DomainNorm

/-! ## The program's stages, as functions of the four argument arrays -/

/-- The labels as a column. -/
def yCol (y : IVec SY 32) : IVec S16384x1 32 := broadcastInDim S16384x1 ![0] bcast_S16384_S16384x1_0 y

/-- The counts: a scatter-add of ones at the labels. -/
def cntR (y : IVec SY 32) : S8.Idx → EReal :=
  Host.scatterAdd (F := Ideal) (φ := .f32) scatter_S8_S16384x1_S16384_n_0_0_1
    (broadcastInDim S8 ![] bcast_S_S8 (constant S_ .f32 0x00000000#32)) (yCol y)
    (broadcastInDim S16384 ![] bcast_S_S16384 (constant S_ .f32 0x3F800000#32))

/-- A scatter-add of the rows of `u` at the labels. -/
def segR (u : SX.Idx → EReal) (y : IVec SY 32) : S8x1024.Idx → EReal :=
  Host.scatterAdd (F := Ideal) (φ := .f32) scatter_S8x1024_S16384x1_S16384x1024_1_0_0_1
    (broadcastInDim S8x1024 ![] bcast_S_S8x1024 (constant S_ .f32 0x00000000#32)) (yCol y) u

/-- The divisor table: the counts, at least one, along every column. -/
def divR (y : IVec SY 32) : S8x1024.Idx → EReal :=
  broadcastInDim S8x1024 ![0, 1] bcast_S8x1_S8x1024_0_1 (broadcastInDim S8x1 ![0] bcast_S8_S8x1_0
    (maximumf (F := Ideal) (φ := .f32) (cntR y) (broadcastInDim S8 ![] bcast_S_S8 (constant S_ .f32 0x3F800000#32))))

/-- The mean table. -/
def meanR (x : SX.Idx → EReal) (y : IVec SY 32) : S8x1024.Idx → EReal :=
  Host.divf (F := Ideal) (φ := .f32) (segR x y) (divR y)

/-- The inverse-deviation table: `(E[x²] − mean² + ε)^(-1/2)`. -/
def invR (x : SX.Idx → EReal) (y : IVec SY 32) : S8x1024.Idx → EReal :=
  Host.rsqrt (F := Ideal) (φ := .f32) (addf (subf (Host.divf (segR (mulf (F := Ideal) (φ := .f32) x x) y) (divR y)) (mulf (meanR x y) (meanR x y)))
    (broadcastInDim S8x1024 ![] bcast_S_S8x1024 (constant S_ .f32 0x3727C5AC#32)))

/-- The gather's start indices: a negative label wrapped by eight, as a column. -/
def idxR (y : IVec SY 32) : IVec S16384x1 32 :=
  broadcastInDim S16384x1 ![0] bcast_S16384_S16384x1_0
    (select (cmpi .slt y (broadcastInDim S16384 ![] bcast_S_S16384 (constantI S_ 32 0#32)))
      (addi y (broadcastInDim S16384 ![] bcast_S_S16384 (constantI S_ 32 8#32))) y)

/-- A table's row at each label. -/
def takeR (t : S8x1024.Idx → EReal) (y : IVec SY 32) : SX.Idx → EReal :=
  Host.gather gather_S8x1024_S16384x1_S16384x1024_1_0_n_n_0_1_11024 t (idxR y)

/-- The count of each row's domain, as a column. -/
def cntAtR (y : IVec SY 32) : S16384x1.Idx → EReal :=
  broadcastInDim S16384x1 ![0] bcast_S16384_S16384x1_0 (Host.gather gather_S8_S16384x1_S16384_n_0_n_n_0_1_1 (cntR y) (idxR y))

/-- A column of ones. -/
def oneCol : S16384x1.Idx → EReal := broadcastInDim S16384x1 ![] bcast_S_S16384x1 (constant (F := Ideal) S_ .f32 0x3F800000#32)

/-- The result: the normalised row where the row's domain has more than one row, the row itself where it has exactly
    one, else zero. -/
def outR (x : SX.Idx → EReal) (y : IVec SY 32) (g b : ST.Idx → EReal) : SX.Idx → EReal :=
  select (broadcastInDim S16384x1024 ![0, 1] bcast_S16384x1_S16384x1024_0_1 (cmpf (F := Ideal) (φ := .f32) .ogt (cntAtR y) oneCol))
    (addf (F := Ideal) (φ := .f32) (mulf (takeR g y) (mulf (subf x (takeR (meanR x y) y)) (takeR (invR x y) y))) (takeR b y))
    (select (broadcastInDim S16384x1024 ![0, 1] bcast_S16384x1_S16384x1024_0_1 (cmpf (F := Ideal) (φ := .f32) .oeq (cntAtR y) oneCol))
      x (broadcastInDim S16384x1024 ![] bcast_S_S16384x1024 (constant (F := Ideal) S_ .f32 0x00000000#32)))

/-- The program's term is the staged result of the four argument arrays. -/
theorem res_eq_outR (m : (ℓ : Loc nD τ sig) → Buf (Elt Ideal) ℓ) (c : Dev nD) :
    (res_main_v69 m c : SX.Idx → EReal)
      = outR (m ((c.tc : Thread nD τ).loc main_arg0)) (m ((c.tc : Thread nD τ).loc main_arg1))
          (m ((c.tc : Thread nD τ).loc main_arg2)) (m ((c.tc : Thread nD τ).loc main_arg3)) := by
  unfold res_main_v69; rfl

/-! ## The broadcasts read at an index -/

/-- A vector as a column reads its entry at the row. -/
theorem col_apply {α : Type} (v : S16384.Idx → α) (k : S16384x1.Idx) :
    broadcastInDim S16384x1 ![0] bcast_S16384_S16384x1_0 v k = v (ix1 (k 0)) := by
  unfold broadcastInDim
  congr 1
  funext a
  match a with
  | ⟨0, _⟩ => rfl

/-- A column along every feature reads its entry at the row. -/
theorem wide_apply {α : Type} (v : S16384x1.Idx → α) (i : SX.Idx) :
    broadcastInDim S16384x1024 ![0, 1] bcast_S16384x1_S16384x1024_0_1 v i = v (ix2 (i 0) 0) := by
  unfold broadcastInDim
  congr 1
  funext a
  match a with
  | ⟨0, _⟩ => rfl
  | ⟨1, _⟩ => rfl

/-- A per-domain vector along every feature reads its entry at the domain. -/
theorem table_apply {α : Type} (v : S8.Idx → α) (i : S8x1024.Idx) :
    broadcastInDim S8x1024 ![0, 1] bcast_S8x1_S8x1024_0_1 (broadcastInDim S8x1 ![0] bcast_S8_S8x1_0 v) i = v (ix1 (i 0)) := by
  unfold broadcastInDim
  congr 1
  funext a
  match a with
  | ⟨0, _⟩ => rfl

/-! ## Where an update lands -/

/-- An update lands on `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrFun hf a
      have h2 := h a
      rw [← h1]
      dsimp only
      omega
    · intro hf
      funext a
      apply Fin.ext
      have h1 := hf a
      dsimp only
      omega
  · rename_i h
    constructor
    · intro h'; cases h'
    · intro hf
      exfalso
      apply h
      intro a
      have h1 := hf a
      have h2 := (i a).isLt
      omega

/-- The labels' column read at `(n, 0)` is the label of row `n`. -/
theorem yCol_apply (y : IVec SY 32) (k : S16384x1.Idx) : yCol y k = y (ix1 (k 0)) := col_apply y k

/-- A count update's start on the one axis is its row's label, read signed. -/
theorem start_cnt (y : IVec SY 32) (j : S16384.Idx) (a : Fin 1) :
    scatter_S8_S16384x1_S16384_n_0_0_1.start j (yCol y) a = (y j).toInt := by
  obtain rfl : a = 0 := Subsingleton.elim _ _
  unfold ScatterDims.start
  rw [dif_pos (show (0 : Fin 1) ∈ scatter_S8_S16384x1_S16384_n_0_0_1.scatterDimsToOperandDims from List.mem_singleton.mpr rfl)]
  rw [yCol_apply, eq_ix1 j]
  rfl

/-- A count update has no window: the one axis is inserted. -/
theorem window_cnt (j : S16384.Idx) (a : Fin 1) :
    scatter_S8_S16384x1_S16384_n_0_0_1.window j a = 0 := by
  obtain rfl : a = 0 := Subsingleton.elim _ _
  rfl

/-- A row update's start on the domain axis is its row's label, read signed … -/
theorem start_seg0 (y : IVec SY 32) (j : SX.Idx) :
    scatter_S8x1024_S16384x1_S16384x1024_1_0_0_1.start j (yCol y) 0 = (y (ix1 (j 0))).toInt := by
  unfold ScatterDims.start
  rw [dif_pos (show (0 : Fin 2) ∈ scatter_S8x1024_S16384x1_S16384x1024_1_0_0_1.scatterDimsToOperandDims from List.mem_singleton.mpr rfl)]
  rw [yCol_apply]
  rfl

/-- … and `0` on the feature axis, which the start index does not name. -/
theorem start_seg1 (y : IVec SY 32) (j : SX.Idx) :
    scatter_S8x1024_S16384x1_S16384x1024_1_0_0_1.start j (yCol y) 1 = 0 := by
  unfold ScatterDims.start
  rw [dif_neg (show ¬ (1 : Fin 2) ∈ scatter_S8x1024_S16384x1_S16384x1024_1_0_0_1.scatterDimsToOperandDims by decide)]

/-- A row update's window coordinate is `0` on the domain axis (inserted) … -/
theorem window_seg0 (j : SX.Idx) : scatter_S8x1024_S16384x1_S16384x1024_1_0_0_1.window j 0 = 0 := rfl

/-- … and its column on the feature axis. -/
theorem window_seg1 (j : SX.Idx) : scatter_S8x1024_S16384x1_S16384x1024_1_0_0_1.window j 1 = (j 1).val := rfl

/-- A count update lands on domain `d` exactly when its row's label is `d`. -/
theorem lands_cnt (y : IVec SY 32) (j : S16384.Idx) (d : Fin 8) :
    scatter_S8_S16384x1_S16384_n_0_0_1.resultIdx? j (yCol y) = some (ix1 d) ↔ (y j).toInt = (d.val : ℤ) := by
  rw [resultIdx?_eq_some_iff]
  constructor
  · intro h
    have h0 := h 0
    rw [start_cnt, window_cnt] at h0
    simpa using h0
  · intro h a
    obtain rfl : a = 0 := Subsingleton.elim _ _
    rw [start_cnt, window_cnt]
    simpa using h

/-- A row update lands on `(d, f)` exactly when its row's label is `d` and its column is `f`. -/
theorem lands_seg (y : IVec SY 32) (j : SX.Idx) (d : Fin 8) (f : Fin 1024) :
    scatter_S8x1024_S16384x1_S16384x1024_1_0_0_1.resultIdx? j (yCol y) = some (ix2 d f)
      ↔ (y (ix1 (j 0))).toInt = (d.val : ℤ) ∧ j 1 = f := by
  rw [resultIdx?_eq_some_iff]
  constructor
  · intro h
    have h0 := h 0
    have h1 := h 1
    rw [start_seg0, window_seg0] at h0
    rw [start_seg1, window_seg1] at h1
    refine ⟨by simpa using h0, Fin.ext ?_⟩
    have : ((j 1).val : ℤ) = (f.val : ℤ) := by simpa using h1
    exact_mod_cast this
  · rintro ⟨h0, h1⟩ a
    match a with
    | ⟨0, _⟩ =>
      show scatter_S8x1024_S16384x1_S16384x1024_1_0_0_1.start j (yCol y) 0 + (scatter_S8x1024_S16384x1_S16384x1024_1_0_0_1.window j 0 : ℤ) = _
      rw [start_seg0, window_seg0]
      simpa using h0
    | ⟨1, _⟩ =>
      show scatter_S8x1024_S16384x1_S16384x1024_1_0_0_1.start j (yCol y) 1 + (scatter_S8x1024_S16384x1_S16384x1024_1_0_0_1.window j 1 : ℤ) = _
      rw [start_seg1, window_seg1, h1]
      simp

/-- The same two facts at an update index given by its coordinates, the label as `lab`. -/
theorem lands_cnt' (y : IVec SY 32) (n : Fin 16384) (d : Fin 8) :
    scatter_S8_S16384x1_S16384_n_0_0_1.resultIdx? (ix1 n) (yCol y) = some (ix1 d) ↔ lab y n = (d.val : ℤ) :=
  lands_cnt y (ix1 n) d

theorem lands_seg' (y : IVec SY 32) (n : Fin 16384) (f' : Fin 1024) (d : Fin 8) (f : Fin 1024) :
    scatter_S8x1024_S16384x1_S16384x1024_1_0_0_1.resultIdx? (ix2 n f') (yCol y) = some (ix2 d f)
      ↔ lab y n = (d.val : ℤ) ∧ f' = f :=
  lands_seg y (ix2 n f') d f

/-! ## Sums over a rank-1 index set, and the constants -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- A broadcast scalar constant reads the extended real its pattern denotes, everywhere. -/
theorem bcast_const_apply {t : Shape} (dims : Fin S_.rank → Fin t.rank) (h : S_.BroadcastsInDim t dims) (w : BitVec 32)
    (i : t.Idx) : broadcastInDim t dims h (constant (F := Ideal) S_ .f32 w) i = Ideal.ofBits .f32 w := rfl

/-! ## The three segment sums -/

/-- The counts are the indicator sums `cnt`. -/
theorem cntR_apply (y : IVec SY 32) (d : Fin 8) : cntR y (ix1 d) = cnt y d := by
  simp only [cntR, Host.scatterAdd, Ideal.hostScatterAdd_def, Ideal.hostScatterAdd, bcast_const_apply, ofBits_zero,
    ofBits_one, zero_add]
  rw [Finset.sum_filter, sum_idx1]
  unfold cnt ind
  exact Finset.sum_congr rfl fun n _ => if_congr (lands_cnt' y n d) rfl rfl

/-- A segment sum of the rows of `u` at `(d, f)` is the indicator sum of column `f` over the rows of domain `d`. -/
theorem segR_apply (u : SX.Idx → EReal) (y : IVec SY 32) (d : Fin 8) (f : Fin 1024) :
    segR u y (ix2 d f) = ∑ n : Fin 16384, ind y d n * u (ix2 n f) := by
  simp only [segR, Host.scatterAdd, Ideal.hostScatterAdd_def, Ideal.hostScatterAdd, bcast_const_apply, ofBits_zero,
    zero_add]
  rw [Finset.sum_filter, sum_idx2]
  refine Finset.sum_congr rfl fun n _ => ?_
  rw [Finset.sum_congr rfl fun f' _ => if_congr (lands_seg' y n f' d f) rfl rfl]
  unfold ind
  by_cases hP : lab y n = (d.val : ℤ)
  · simp only [hP, true_and, if_true, one_mul]
    rw [Finset.sum_ite_eq']
    simp only [Finset.mem_univ, if_true]
  · simp only [hP, false_and, if_false, zero_mul, Finset.sum_const_zero]

/-! ## The mean, the variance and the inverse deviation -/

/-- The divisor at `(d, f)` is the count of `d`, or one. -/
theorem divR_apply (y : IVec SY 32) (d : Fin 8) (f : Fin 1024) : divR y (ix2 d f) = cntS y d := by
  unfold divR
  rw [table_apply, maximumf_apply, bcast_const_apply, ofBits_one]
  show max (cntR y (ix1 d)) 1 = _
  rw [cntR_apply]
  rfl

theorem meanR_apply (x : SX.Idx → EReal) (y : IVec SY 32) (d : Fin 8) (f : Fin 1024) :
    meanR x y (ix2 d f) = mean x y d f := by
  unfold meanR Host.divf
  rw [Ideal.hostDivf_def, segR_apply, divR_apply]
  rfl

theorem invR_apply (x : SX.Idx → EReal) (y : IVec SY 32) (d : Fin 8) (f : Fin 1024) :
    invR x y (ix2 d f) = inv x y d f := by
  unfold invR Host.rsqrt
  rw [Ideal.hostUnary_rsqrt_def, addf_apply, subf_apply, mulf_apply, bcast_const_apply, meanR_apply]
  unfold Host.divf
  rw [Ideal.hostDivf_def, segR_apply, divR_apply]
  rfl

/-! ## The gathers read at an index -/

/-- The start index's wrap of a negative label is the identity on a label that is not negative. -/
theorem wrap_of_nonneg (w : BitVec 32) (h : 0 ≤ w.toInt) :
    Scalar.select (IntOp.cmpi .slt w 0#32) (IntOp.addi w 8#32) w = w := by
  have h0 : IntOp.cmpi .slt w 0#32 = 0#1 := by
    unfold IntOp.cmpi
    have : w.slt 0#32 = false := by
      rw [BitVec.slt_eq_decide]
      simp only [BitVec.toInt_zero, decide_eq_false_iff_not, not_lt]
      exact h
    simp only [this]
    rfl
  rw [h0]
  exact select_zero _ _

/-- The start index of row `n` is the wrap of the row's label. -/
theorem idxR_apply (y : IVec SY 32) (k : S16384x1.Idx) :
    idxR y k = Scalar.select (IntOp.cmpi .slt (y (ix1 (k 0))) 0#32) (IntOp.addi (y (ix1 (k 0))) 8#32) (y (ix1 (k 0))) := by
  unfold idxR
  rw [col_apply]
  rfl

/-- On labels in range the start indices are the labels. -/
theorem idxR_of_inRange (y : IVec SY 32) (hy : InRange y) (n : Fin 16384) : idxR y (ix2 n 0) = y (ix1 n) := by
  rw [idxR_apply]
  exact wrap_of_nonneg _ (hy n).1

/-- The row gather reads, at `(n, f)`, the table at the clamped start index of row `n` and column `f`. -/
theorem operandIdx_take (idx : IVec S16384x1 32) (n : Fin 16384) (f : Fin 1024) :
    gather_S8x1024_S16384x1_S16384x1024_1_0_n_n_0_1_11024.operandIdx (ix2 n f) idx
      = ix2 (⟨min (idx (ix2 n 0)).toInt.toNat 7, by omega⟩ : Fin 8) f := by
  funext a
  match a with
  | ⟨0, _⟩ =>
    refine Fin.ext ?_
    show gather_S8x1024_S16384x1_S16384x1024_1_0_n_n_0_1_11024.start (ix2 n f) idx 0
      + gather_S8x1024_S16384x1_S16384x1024_1_0_n_n_0_1_11024.batchCoord (ix2 n f) 0
      + gather_S8x1024_S16384x1_S16384x1024_1_0_n_n_0_1_11024.offCoord (ix2 n f) 0 = _
    rw [GatherDims.batchCoord_eq_zero _ _ _ List.not_mem_nil,
      GatherDims.offCoord_eq_zero _ _ _ (by decide)]
    simp only [Nat.add_zero]
    unfold GatherDims.start
    rw [dif_pos (show (0 : Fin 2) ∈ gather_S8x1024_S16384x1_S16384x1024_1_0_n_n_0_1_11024.startIndexMap from
      List.mem_singleton.mpr rfl)]
    have hsi : gather_S8x1024_S16384x1_S16384x1024_1_0_n_n_0_1_11024.siIdx (ix2 n f)
        ⟨List.idxOf (0 : Fin 2) gather_S8x1024_S16384x1_S16384x1024_1_0_n_n_0_1_11024.startIndexMap,
          List.idxOf_lt_length_iff.2 (List.mem_singleton.mpr rfl)⟩ = ix2 n 0 := by
      funext b
      refine Fin.ext ?_
      match b with
      | ⟨0, _⟩ => rfl
      | ⟨1, _⟩ => rfl
    rw [hsi]
    rfl
  | ⟨1, _⟩ =>
    refine Fin.ext ?_
    show gather_S8x1024_S16384x1_S16384x1024_1_0_n_n_0_1_11024.start (ix2 n f) idx 1
      + gather_S8x1024_S16384x1_S16384x1024_1_0_n_n_0_1_11024.batchCoord (ix2 n f) 1
      + gather_S8x1024_S16384x1_S16384x1024_1_0_n_n_0_1_11024.offCoord (ix2 n f) 1 = f.val
    rw [GatherDims.batchCoord_eq_zero _ _ _ List.not_mem_nil]
    unfold GatherDims.start
    rw [dif_neg (show ¬ (1 : Fin 2) ∈ gather_S8x1024_S16384x1_S16384x1024_1_0_n_n_0_1_11024.startIndexMap by decide)]
    simp only [Nat.zero_add]
    rfl

/-- The count gather reads, at row `n`, the counts at the clamped start index of row `n`. -/
theorem operandIdx_cnt (idx : IVec S16384x1 32) (n : Fin 16384) :
    gather_S8_S16384x1_S16384_n_0_n_n_0_1_1.operandIdx (ix1 n) idx
      = ix1 (⟨min (idx (ix2 n 0)).toInt.toNat 7, by omega⟩ : Fin 8) := by
  funext a
  obtain rfl : a = 0 := Subsingleton.elim _ _
  refine Fin.ext ?_
  show gather_S8_S16384x1_S16384_n_0_n_n_0_1_1.start (ix1 n) idx 0
    + gather_S8_S16384x1_S16384_n_0_n_n_0_1_1.batchCoord (ix1 n) 0
    + gather_S8_S16384x1_S16384_n_0_n_n_0_1_1.offCoord (ix1 n) 0 = _
  rw [GatherDims.batchCoord_eq_zero _ _ _ List.not_mem_nil, GatherDims.offCoord_eq_zero _ _ _ (by decide)]
  simp only [Nat.add_zero]
  unfold GatherDims.start
  rw [dif_pos (show (0 : Fin 1) ∈ gather_S8_S16384x1_S16384_n_0_n_n_0_1_1.startIndexMap from List.mem_singleton.mpr rfl)]
  have hsi : gather_S8_S16384x1_S16384_n_0_n_n_0_1_1.siIdx (ix1 n)
      ⟨List.idxOf (0 : Fin 1) gather_S8_S16384x1_S16384_n_0_n_n_0_1_1.startIndexMap,
        List.idxOf_lt_length_iff.2 (List.mem_singleton.mpr rfl)⟩ = ix2 n 0 := by
    funext b
    refine Fin.ext ?_
    match b with
    | ⟨0, _⟩ => rfl
    | ⟨1, _⟩ => rfl
  rw [hsi]
  rfl

/-- With every label in range, the clamped start index of row `n` is the row's domain. -/
theorem clamp_of_inRange (y : IVec SY 32) (hy : InRange y) (n : Fin 16384) :
    (⟨min (idxR y (ix2 n 0)).toInt.toNat 7, by omega⟩ : Fin 8) = dom y n := by
  refine Fin.ext ?_
  show min (idxR y (ix2 n 0)).toInt.toNat 7 = (lab y n).toNat % 8
  rw [idxR_of_inRange y hy n]
  have h := hy n
  unfold lab at h ⊢
  omega

/-- With every label in range a table's row at a label is the row of the label's domain. -/
theorem takeR_apply (t : S8x1024.Idx → EReal) (y : IVec SY 32) (hy : InRange y) (n : Fin 16384) (f : Fin 1024) :
    takeR t y (ix2 n f) = t (ix2 (dom y n) f) := by
  unfold takeR Host.gather
  rw [operandIdx_take, clamp_of_inRange y hy n]

/-- With every label in range the count read at row `n` is the size of the row's domain. -/
theorem cntAtR_apply (y : IVec SY 32) (hy : InRange y) (n : Fin 16384) : cntAtR y (ix2 n 0) = cnt y (dom y n) := by
  unfold cntAtR
  rw [col_apply]
  show Host.gather gather_S8_S16384x1_S16384_n_0_n_n_0_1_1 (cntR y) (idxR y) (ix1 n) = _
  unfold Host.gather
  rw [operandIdx_cnt, clamp_of_inRange y hy n, cntR_apply]

/-! ## The result at an index -/

/-- A select on a decided comparison bit is the `if`. -/
theorem select_ofBool {α : Type} (p : Prop) [Decidable p] (A B : α) :
    Scalar.select (BitVec.ofBool (decide p)) A B = if p then A else B := by
  unfold Scalar.select
  by_cases h : p <;> simp [h]

/-- The two comparisons, on the extended reals' order. -/
theorem cmp_ogt (a b : EReal) :
    FloatOps.cmpf (F := Ideal) (φ := .f32) .ogt a b = BitVec.ofBool (decide (b < a)) := rfl
theorem cmp_oeq (a b : EReal) :
    FloatOps.cmpf (F := Ideal) (φ := .f32) .oeq a b = BitVec.ofBool (decide (a = b)) := rfl

/-- The staged result at `(n, f)` is `Gr`'s: both split by `1 < cnt` and `cnt = 1` at the row's domain. -/
theorem outR_apply (x : SX.Idx → EReal) (y : IVec SY 32) (g b : ST.Idx → EReal) (hy : InRange y)
    (n : Fin 16384) (f : Fin 1024) : outR x y g b (ix2 n f) = Gr x y g b (ix2 n f) := by
  have hc : cntAtR y (ix2 ((ix2 n f : SX.Idx) 0) 0) = cnt y (dom y n) := cntAtR_apply y hy n
  have h1 : oneCol (ix2 ((ix2 n f : SX.Idx) 0) 0) = 1 := by
    unfold oneCol
    rw [bcast_const_apply, ofBits_one]
  unfold outR
  rw [select_apply, select_apply, wide_apply, wide_apply, cmpf_apply, cmpf_apply, hc, h1, addf_apply, mulf_apply,
    mulf_apply, subf_apply, takeR_apply g y hy, takeR_apply b y hy, takeR_apply _ y hy, takeR_apply _ y hy,
    meanR_apply, invR_apply, bcast_const_apply, ofBits_zero]
  rw [cmp_ogt, cmp_oeq, select_ofBool, select_ofBool]
  rfl

theorem ref_value (m : (ℓ : Loc nD τ sig) → Buf (Elt Ideal) ℓ) (c : Dev nD)
    (hy : InRange (m ((c.tc : Thread nD τ).loc main_arg1))) :
    (res_main_v69 m c : SX.Idx → EReal)
      = Gr (m ((c.tc : Thread nD τ).loc main_arg0)) (m ((c.tc : Thread nD τ).loc main_arg1))
          (m ((c.tc : Thread nD τ).loc main_arg2)) (m ((c.tc : Thread nD τ).loc main_arg3)) := by
  rw [res_eq_outR]
  funext i
  rw [eq_ix2 i]
  exact outR_apply _ _ _ _ hy (i 0) (i 1)

end Cert.ReferenceIdeal.RefValue

end
-- ==== Proof.LibFinite.lean ====
/-
  Real-valuedness calculus at the exact-arithmetic instance.

  An array of extended reals is *real-valued* when no element is an infinity; it is *positive* /
  *non-negative* when moreover every element is a positive / non-negative real. This module shows
  that the host program's operations keep arrays inside these classes: sums, differences and products
  of reals are real, a quotient by a positive real is real, an exponential is positive, a square root
  of a non-negative real is non-negative, a real power of a positive base is positive, a maximum of
  reals is real, and every re-indexing operation (broadcast, reshape, slice, concatenate, gather)
  only moves elements around. A finite sum of reals is real, which covers the additive reduction,
  the additive scatter and the matrix product.
-/
import Idealize.ShloMosaic.Lib.IdealHost
import Mathlib.Data.EReal.Basic
import Mathlib.Data.EReal.Operations
import Mathlib.Data.EReal.Inv
import Mathlib.Analysis.SpecialFunctions.Pow.Real
import Mathlib.Analysis.SpecialFunctions.Exp
import Mathlib.Analysis.SpecialFunctions.Sqrt
import Mathlib.Algebra.BigOperators.Group.Finset.Basic

namespace Cert.LibFinite

open Idealize.ShloMosaic
open scoped BigOperators

/-! ## The three classes -/

/-- Every element is a real number. -/
def AllReal {s : Shape} (v : FVec Ideal s .f32) : Prop := ∀ i, ∃ r : ℝ, v i = (r : EReal)
/-- Every element is a positive real number. -/
def AllPos {s : Shape} (v : FVec Ideal s .f32) : Prop := ∀ i, ∃ r : ℝ, 0 < r ∧ v i = (r : EReal)
/-- Every element is a non-negative real number. -/
def AllNonneg {s : Shape} (v : FVec Ideal s .f32) : Prop := ∀ i, ∃ r : ℝ, 0 ≤ r ∧ v i = (r : EReal)

theorem AllPos.allReal {s : Shape} {v : FVec Ideal s .f32} (h : AllPos v) : AllReal v :=
  fun i => let ⟨r, _, e⟩ := h i; ⟨r, e⟩
theorem AllPos.allNonneg {s : Shape} {v : FVec Ideal s .f32} (h : AllPos v) : AllNonneg v :=
  fun i => let ⟨r, hr, e⟩ := h i; ⟨r, hr.le, e⟩
theorem AllNonneg.allReal {s : Shape} {v : FVec Ideal s .f32} (h : AllNonneg v) : AllReal v :=
  fun i => let ⟨r, _, e⟩ := h i; ⟨r, e⟩

/-- A real-valued array is the coercion of an array of reals. -/
theorem AllReal.exists_eq_coe {s : Shape} {v : FVec Ideal s .f32} (h : AllReal v) :
    ∃ r : s.Idx → ℝ, v = fun i => (r i : EReal) := by
  choose r hr using h
  exact ⟨r, funext hr⟩

theorem allReal_coe {s : Shape} (r : s.Idx → ℝ) : AllReal (s := s) (fun i => (r i : EReal)) := fun i => ⟨r i, rfl⟩

/-- A class depends on the array only through its elements. -/
theorem AllReal.of_forall_mem {s t : Shape} {v : FVec Ideal s .f32} {w : FVec Ideal t .f32} (h : AllReal v)
    (hw : ∀ j, ∃ i, w j = v i) : AllReal w := fun j => by
  obtain ⟨i, e⟩ := hw j; rw [e]; exact h i
theorem AllPos.of_forall_mem {s t : Shape} {v : FVec Ideal s .f32} {w : FVec Ideal t .f32} (h : AllPos v)
    (hw : ∀ j, ∃ i, w j = v i) : AllPos w := fun j => by
  obtain ⟨i, e⟩ := hw j; rw [e]; exact h i
theorem AllNonneg.of_forall_mem {s t : Shape} {v : FVec Ideal s .f32} {w : FVec Ideal t .f32} (h : AllNonneg v)
    (hw : ∀ j, ∃ i, w j = v i) : AllNonneg w := fun j => by
  obtain ⟨i, e⟩ := hw j; rw [e]; exact h i

/-! ## Elementwise arithmetic -/

section Pointwise
variable {s : Shape}

theorem allReal_addf {a b : FVec Ideal s .f32} (ha : AllReal a) (hb : AllReal b) :
    AllReal (Idealize.ShloMosaic.addf a b) := fun i => by
  obtain ⟨x, hx⟩ := ha i; obtain ⟨y, hy⟩ := hb i
  exact ⟨x + y, by show a i + b i = _; rw [hx, hy, EReal.coe_add]⟩

theorem allNonneg_addf {a b : FVec Ideal s .f32} (ha : AllNonneg a) (hb : AllNonneg b) :
    AllNonneg (Idealize.ShloMosaic.addf a b) := fun i => by
  obtain ⟨x, hx0, hx⟩ := ha i; obtain ⟨y, hy0, hy⟩ := hb i
  exact ⟨x + y, add_nonneg hx0 hy0, by show a i + b i = _; rw [hx, hy, EReal.coe_add]⟩

theorem allPos_addf_nonneg_pos {a b : FVec Ideal s .f32} (ha : AllNonneg a) (hb : AllPos b) :
    AllPos (Idealize.ShloMosaic.addf a b) := fun i => by
  obtain ⟨x, hx0, hx⟩ := ha i; obtain ⟨y, hy0, hy⟩ := hb i
  exact ⟨x + y, add_pos_of_nonneg_of_pos hx0 hy0, by show a i + b i = _; rw [hx, hy, EReal.coe_add]⟩

theorem allPos_addf_pos_nonneg {a b : FVec Ideal s .f32} (ha : AllPos a) (hb : AllNonneg b) :
    AllPos (Idealize.ShloMosaic.addf a b) := fun i => by
  obtain ⟨x, hx0, hx⟩ := ha i; obtain ⟨y, hy0, hy⟩ := hb i
  exact ⟨x + y, add_pos_of_pos_of_nonneg hx0 hy0, by show a i + b i = _; rw [hx, hy, EReal.coe_add]⟩

theorem allPos_addf {a b : FVec Ideal s .f32} (ha : AllPos a) (hb : AllPos b) :
    AllPos (Idealize.ShloMosaic.addf a b) := allPos_addf_pos_nonneg ha hb.allNonneg

theorem allReal_subf {a b : FVec Ideal s .f32} (ha : AllReal a) (hb : AllReal b) :
    AllReal (Idealize.ShloMosaic.subf a b) := fun i => by
  obtain ⟨x, hx⟩ := ha i; obtain ⟨y, hy⟩ := hb i
  exact ⟨x - y, by show a i - b i = _; rw [hx, hy, EReal.coe_sub]⟩

theorem allReal_mulf {a b : FVec Ideal s .f32} (ha : AllReal a) (hb : AllReal b) :
    AllReal (Idealize.ShloMosaic.mulf a b) := fun i => by
  obtain ⟨x, hx⟩ := ha i; obtain ⟨y, hy⟩ := hb i
  exact ⟨x * y, by show a i * b i = _; rw [hx, hy, EReal.coe_mul]⟩

theorem allNonneg_mulf {a b : FVec Ideal s .f32} (ha : AllNonneg a) (hb : AllNonneg b) :
    AllNonneg (Idealize.ShloMosaic.mulf a b) := fun i => by
  obtain ⟨x, hx0, hx⟩ := ha i; obtain ⟨y, hy0, hy⟩ := hb i
  exact ⟨x * y, mul_nonneg hx0 hy0, by show a i * b i = _; rw [hx, hy, EReal.coe_mul]⟩

theorem allPos_mulf {a b : FVec Ideal s .f32} (ha : AllPos a) (hb : AllPos b) :
    AllPos (Idealize.ShloMosaic.mulf a b) := fun i => by
  obtain ⟨x, hx0, hx⟩ := ha i; obtain ⟨y, hy0, hy⟩ := hb i
  exact ⟨x * y, mul_pos hx0 hy0, by show a i * b i = _; rw [hx, hy, EReal.coe_mul]⟩

/-- A square of a real-valued array is non-negative. -/
theorem allNonneg_mulf_self {a : FVec Ideal s .f32} (ha : AllReal a) :
    AllNonneg (Idealize.ShloMosaic.mulf a a) := fun i => by
  obtain ⟨x, hx⟩ := ha i
  exact ⟨x * x, mul_self_nonneg x, by show a i * a i = _; rw [hx, EReal.coe_mul]⟩

theorem allReal_negf {a : FVec Ideal s .f32} (ha : AllReal a) : AllReal (Host.negf a) := fun i => by
  obtain ⟨x, hx⟩ := ha i
  exact ⟨-x, by show -(a i) = _; rw [hx, EReal.coe_neg]⟩

/-! ### Quotient by a positive divisor -/

theorem div_coe_pos (x : EReal) {y : ℝ} (hy : 0 < y) : Ideal.div x (y : EReal) = x * ((1 / y : ℝ) : EReal) :=
  Ideal.div_coe hy.ne' x

theorem allReal_divf {a b : FVec Ideal s .f32} (ha : AllReal a) (hb : AllPos b) : AllReal (Host.divf a b) := fun i => by
  obtain ⟨x, hx⟩ := ha i; obtain ⟨y, hy0, hy⟩ := hb i
  exact ⟨x * (1 / y), by show Ideal.div (a i) (b i) = _; rw [hx, hy, div_coe_pos _ hy0, EReal.coe_mul]⟩

theorem allNonneg_divf {a b : FVec Ideal s .f32} (ha : AllNonneg a) (hb : AllPos b) : AllNonneg (Host.divf a b) := fun i => by
  obtain ⟨x, hx0, hx⟩ := ha i; obtain ⟨y, hy0, hy⟩ := hb i
  exact ⟨x * (1 / y), mul_nonneg hx0 (one_div_pos.2 hy0).le,
    by show Ideal.div (a i) (b i) = _; rw [hx, hy, div_coe_pos _ hy0, EReal.coe_mul]⟩

theorem allPos_divf {a b : FVec Ideal s .f32} (ha : AllPos a) (hb : AllPos b) : AllPos (Host.divf a b) := fun i => by
  obtain ⟨x, hx0, hx⟩ := ha i; obtain ⟨y, hy0, hy⟩ := hb i
  exact ⟨x * (1 / y), mul_pos hx0 (one_div_pos.2 hy0),
    by show Ideal.div (a i) (b i) = _; rw [hx, hy, div_coe_pos _ hy0, EReal.coe_mul]⟩

/-! ### Exponential, square root, power -/

theorem allPos_exp {a : FVec Ideal s .f32} (ha : AllReal a) : AllPos (Host.exp a) := fun i => by
  obtain ⟨x, hx⟩ := ha i
  exact ⟨Real.exp x, Real.exp_pos x, by show Ideal.exp (a i) = _; rw [hx, Ideal.exp_coe]⟩

theorem sqrt_coe_nonneg {x : ℝ} (hx : 0 ≤ x) : Ideal.sqrt (x : EReal) = (Real.sqrt x : EReal) := by
  rw [Ideal.sqrt_coe, if_neg (not_lt.2 hx)]

theorem allNonneg_sqrt {a : FVec Ideal s .f32} (ha : AllNonneg a) : AllNonneg (Host.sqrt a) := fun i => by
  obtain ⟨x, hx0, hx⟩ := ha i
  exact ⟨Real.sqrt x, Real.sqrt_nonneg x, by show Ideal.sqrt (a i) = _; rw [hx, sqrt_coe_nonneg hx0]⟩

theorem allPos_sqrt {a : FVec Ideal s .f32} (ha : AllPos a) : AllPos (Host.sqrt a) := fun i => by
  obtain ⟨x, hx0, hx⟩ := ha i
  exact ⟨Real.sqrt x, Real.sqrt_pos.2 hx0, by show Ideal.sqrt (a i) = _; rw [hx, sqrt_coe_nonneg hx0.le]⟩

/-- A real power of a positive base is positive. -/
theorem allPos_powf {a b : FVec Ideal s .f32} (ha : AllPos a) (hb : AllReal b) : AllPos (Host.powf a b) := fun i => by
  obtain ⟨x, hx0, hx⟩ := ha i; obtain ⟨y, hy⟩ := hb i
  exact ⟨Real.rpow x y, Real.rpow_pos_of_pos hx0 y, by show Ideal.pow (a i) (b i) = _; rw [hx, hy, Ideal.pow_coe_coe]⟩

/-- A real power of a real base is real (the real power function is total). -/
theorem allReal_powf {a b : FVec Ideal s .f32} (ha : AllReal a) (hb : AllReal b) : AllReal (Host.powf a b) := fun i => by
  obtain ⟨x, hx⟩ := ha i; obtain ⟨y, hy⟩ := hb i
  exact ⟨Real.rpow x y, by show Ideal.pow (a i) (b i) = _; rw [hx, hy, Ideal.pow_coe_coe]⟩

theorem allNonneg_powf {a b : FVec Ideal s .f32} (ha : AllNonneg a) (hb : AllReal b) : AllNonneg (Host.powf a b) := fun i => by
  obtain ⟨x, hx0, hx⟩ := ha i; obtain ⟨y, hy⟩ := hb i
  exact ⟨Real.rpow x y, Real.rpow_nonneg hx0 y, by show Ideal.pow (a i) (b i) = _; rw [hx, hy, Ideal.pow_coe_coe]⟩

/-! ### Maximum -/

theorem coe_max_real (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem allReal_maximumf {a b : FVec Ideal s .f32} (ha : AllReal a) (hb : AllReal b) :
    AllReal (Idealize.ShloMosaic.maximumf a b) := fun i => by
  obtain ⟨x, hx⟩ := ha i; obtain ⟨y, hy⟩ := hb i
  exact ⟨max x y, by show max (a i) (b i) = _; rw [hx, hy, coe_max_real]⟩

theorem allPos_maximumf_left {a b : FVec Ideal s .f32} (ha : AllPos a) (hb : AllReal b) :
    AllPos (Idealize.ShloMosaic.maximumf a b) := fun i => by
  obtain ⟨x, hx0, hx⟩ := ha i; obtain ⟨y, hy⟩ := hb i
  exact ⟨max x y, lt_max_of_lt_left hx0, by show max (a i) (b i) = _; rw [hx, hy, coe_max_real]⟩

theorem allPos_maximumf_right {a b : FVec Ideal s .f32} (ha : AllReal a) (hb : AllPos b) :
    AllPos (Idealize.ShloMosaic.maximumf a b) := fun i => by
  obtain ⟨x, hx⟩ := ha i; obtain ⟨y, hy0, hy⟩ := hb i
  exact ⟨max x y, lt_max_of_lt_right hy0, by show max (a i) (b i) = _; rw [hx, hy, coe_max_real]⟩

theorem allNonneg_maximumf_left {a b : FVec Ideal s .f32} (ha : AllNonneg a) (hb : AllReal b) :
    AllNonneg (Idealize.ShloMosaic.maximumf a b) := fun i => by
  obtain ⟨x, hx0, hx⟩ := ha i; obtain ⟨y, hy⟩ := hb i
  exact ⟨max x y, le_max_of_le_left hx0, by show max (a i) (b i) = _; rw [hx, hy, coe_max_real]⟩

/-- The rectifier: a maximum with a non-negative array (with zero) is non-negative. -/
theorem allNonneg_maximumf_right {a b : FVec Ideal s .f32} (ha : AllReal a) (hb : AllNonneg b) :
    AllNonneg (Idealize.ShloMosaic.maximumf a b) := fun i => by
  obtain ⟨x, hx⟩ := ha i; obtain ⟨y, hy0, hy⟩ := hb i
  exact ⟨max x y, le_max_of_le_right hy0, by show max (a i) (b i) = _; rw [hx, hy, coe_max_real]⟩

/-- A maximum with minus infinity on the left is the right operand. -/
theorem allReal_maximumf_bot_left {a b : FVec Ideal s .f32} (ha : ∀ i, a i = ⊥) (hb : AllReal b) :
    AllReal (Idealize.ShloMosaic.maximumf a b) := fun i => by
  obtain ⟨y, hy⟩ := hb i
  exact ⟨y, by show max (a i) (b i) = _; rw [ha i, hy, max_eq_right bot_le]⟩

/-! ### Selection -/

theorem allReal_select {c : IVec s 1} {a b : FVec Ideal s .f32} (ha : AllReal a) (hb : AllReal b) :
    AllReal (Idealize.ShloMosaic.select c a b) := fun i => by
  show ∃ r : ℝ, Scalar.select (c i) (a i) (b i) = _
  unfold Scalar.select; split
  · exact ha i
  · exact hb i

theorem allPos_select {c : IVec s 1} {a b : FVec Ideal s .f32} (ha : AllPos a) (hb : AllPos b) :
    AllPos (Idealize.ShloMosaic.select c a b) := fun i => by
  show ∃ r : ℝ, 0 < r ∧ Scalar.select (c i) (a i) (b i) = _
  unfold Scalar.select; split
  · exact ha i
  · exact hb i

theorem allNonneg_select {c : IVec s 1} {a b : FVec Ideal s .f32} (ha : AllNonneg a) (hb : AllNonneg b) :
    AllNonneg (Idealize.ShloMosaic.select c a b) := fun i => by
  show ∃ r : ℝ, 0 ≤ r ∧ Scalar.select (c i) (a i) (b i) = _
  unfold Scalar.select; split
  · exact ha i
  · exact hb i

/-- A selection whose condition holds everywhere is its first branch; one whose condition fails everywhere, its second. -/
theorem select_eq_left {α : Type} {c : IVec s 1} (hc : ∀ i, c i = 1) (a b : s.Idx → α) :
    Idealize.ShloMosaic.select c a b = a := funext fun i => by
  show Scalar.select (c i) (a i) (b i) = a i
  unfold Scalar.select; rw [if_pos (hc i)]
theorem select_eq_right {α : Type} {c : IVec s 1} (hc : ∀ i, c i ≠ 1) (a b : s.Idx → α) :
    Idealize.ShloMosaic.select c a b = b := funext fun i => by
  show Scalar.select (c i) (a i) (b i) = b i
  unfold Scalar.select; rw [if_neg (hc i)]

theorem allReal_select_left {c : IVec s 1} {a b : FVec Ideal s .f32} (hc : ∀ i, c i = 1) (ha : AllReal a) :
    AllReal (Idealize.ShloMosaic.select c a b) := by rw [select_eq_left hc]; exact ha
theorem allPos_select_left {c : IVec s 1} {a b : FVec Ideal s .f32} (hc : ∀ i, c i = 1) (ha : AllPos a) :
    AllPos (Idealize.ShloMosaic.select c a b) := by rw [select_eq_left hc]; exact ha
theorem allNonneg_select_left {c : IVec s 1} {a b : FVec Ideal s .f32} (hc : ∀ i, c i = 1) (ha : AllNonneg a) :
    AllNonneg (Idealize.ShloMosaic.select c a b) := by rw [select_eq_left hc]; exact ha

/-- An integer converted to a float is real. -/
theorem allReal_sitofp {w : Nat} (x : IVec s w) : AllReal (Idealize.ShloMosaic.sitofp (F := Ideal) .f32 x) :=
  fun i => ⟨((x i).toInt : ℝ), rfl⟩

end Pointwise

/-! ## Re-indexing operations

Each of these reads every result element off some operand element, so it preserves all three classes. -/

section Reindex
variable {s t : Shape}

theorem allReal_broadcastInDim (dims : Fin s.rank → Fin t.rank) (h : s.BroadcastsInDim t dims) {x : FVec Ideal s .f32}
    (hx : AllReal x) : AllReal (broadcastInDim t dims h x) := fun _ => hx _
theorem allPos_broadcastInDim (dims : Fin s.rank → Fin t.rank) (h : s.BroadcastsInDim t dims) {x : FVec Ideal s .f32}
    (hx : AllPos x) : AllPos (broadcastInDim t dims h x) := fun _ => hx _
theorem allNonneg_broadcastInDim (dims : Fin s.rank → Fin t.rank) (h : s.BroadcastsInDim t dims) {x : FVec Ideal s .f32}
    (hx : AllNonneg x) : AllNonneg (broadcastInDim t dims h x) := fun _ => hx _

/-- A broadcast of an array that is minus infinity everywhere is minus infinity everywhere. -/
theorem broadcastInDim_bot (dims : Fin s.rank → Fin t.rank) (h : s.BroadcastsInDim t dims) {x : FVec Ideal s .f32}
    (hx : ∀ i, x i = ⊥) : ∀ j, broadcastInDim t dims h x j = ⊥ := fun _ => hx _

theorem allReal_shapeCast (h : s.ShapeCasts t) {x : FVec Ideal s .f32} (hx : AllReal x) : AllReal (shapeCast t x h) :=
  fun _ => hx _
theorem allPos_shapeCast (h : s.ShapeCasts t) {x : FVec Ideal s .f32} (hx : AllPos x) : AllPos (shapeCast t x h) :=
  fun _ => hx _
theorem allNonneg_shapeCast (h : s.ShapeCasts t) {x : FVec Ideal s .f32} (hx : AllNonneg x) :
    AllNonneg (shapeCast t x h) := fun _ => hx _

theorem allReal_extractStridedSlice (off : Fin s.rank → Nat) (h : s.Slices off t) {x : FVec Ideal s .f32}
    (hx : AllReal x) : AllReal (extractStridedSlice t off x h) := fun _ => hx _
theorem allPos_extractStridedSlice (off : Fin s.rank → Nat) (h : s.Slices off t) {x : FVec Ideal s .f32}
    (hx : AllPos x) : AllPos (extractStridedSlice t off x h) := fun _ => hx _
theorem allNonneg_extractStridedSlice (off : Fin s.rank → Nat) (h : s.Slices off t) {x : FVec Ideal s .f32}
    (hx : AllNonneg x) : AllNonneg (extractStridedSlice t off x h) := fun _ => hx _

/-- A gather reads each result element off the operand (at a clamped index): no fill value. -/
theorem allReal_gather {si : Shape} {w : Nat} (d : GatherDims s si t) {x : FVec Ideal s .f32} (idx : IVec si w)
    (hx : AllReal x) : AllReal (Host.gather d x idx) := fun _ => hx _
theorem allPos_gather {si : Shape} {w : Nat} (d : GatherDims s si t) {x : FVec Ideal s .f32} (idx : IVec si w)
    (hx : AllPos x) : AllPos (Host.gather d x idx) := fun _ => hx _
theorem allNonneg_gather {si : Shape} {w : Nat} (d : GatherDims s si t) {x : FVec Ideal s .f32} (idx : IVec si w)
    (hx : AllNonneg x) : AllNonneg (Host.gather d x idx) := fun _ => hx _

end Reindex

/-! ## Constants

A 32-bit pattern whose exponent field is not all ones denotes a real number; with a clear sign bit and a
non-zero exponent field, a positive one. -/

section Constants

/-- What a 32-bit pattern denotes, by its fields. -/
theorem ofBits_f32_cases (b : BitVec 32) :
    Ideal.ofBits .f32 b =
      if (b.extractLsb' 23 8).toNat = 255 then
        (if (b.extractLsb' 0 23).toNat = 0 then (if (b.extractLsb' 31 1 == 1#1) then ⊥ else ⊤) else ⊥)
      else if (b.extractLsb' 23 8).toNat = 0 then
        (((if (b.extractLsb' 31 1 == 1#1) then (-1 : ℝ) else 1) * ((b.extractLsb' 0 23).toNat : ℝ)
          * (2 : ℝ) ^ (1 - (2 ^ (8 - 1) - 1 : Int) - (23 : Nat) : Int) : ℝ) : EReal)
      else
        (((if (b.extractLsb' 31 1 == 1#1) then (-1 : ℝ) else 1) * ((2 ^ 23 + (b.extractLsb' 0 23).toNat : Nat) : ℝ)
          * (2 : ℝ) ^ ((((b.extractLsb' 23 8).toNat : Nat) : Int) - (2 ^ (8 - 1) - 1 : Int) - (23 : Nat)) : ℝ) : EReal) := rfl

theorem ofBits_f32_real (b : BitVec 32) (h : (b.extractLsb' 23 8).toNat ≠ 255) :
    ∃ r : ℝ, Ideal.ofBits .f32 b = (r : EReal) := by
  rw [ofBits_f32_cases, if_neg h]
  split <;> exact ⟨_, rfl⟩

theorem ofBits_f32_pos (b : BitVec 32) (hs : (b.extractLsb' 31 1 == 1#1) = false)
    (h : (b.extractLsb' 23 8).toNat ≠ 255) (h0 : (b.extractLsb' 23 8).toNat ≠ 0) :
    ∃ r : ℝ, 0 < r ∧ Ideal.ofBits .f32 b = (r : EReal) := by
  rw [ofBits_f32_cases, if_neg h, if_neg h0, hs]
  refine ⟨_, ?_, rfl⟩
  simp only [Bool.false_eq_true, if_false]
  positivity

/-- The pattern of minus infinity. -/
theorem ofBits_f32_FF800000 : Ideal.ofBits .f32 0xFF800000#32 = ⊥ := by
  rw [ofBits_f32_cases, if_pos (by decide), if_pos (by decide), if_pos (by decide)]

theorem allReal_constant (s : Shape) (b : BitVec 32) (h : (b.extractLsb' 23 8).toNat ≠ 255) :
    AllReal (constant (F := Ideal) s .f32 b) := fun _ => ofBits_f32_real b h

theorem allPos_constant (s : Shape) (b : BitVec 32) (hs : (b.extractLsb' 31 1 == 1#1) = false)
    (h : (b.extractLsb' 23 8).toNat ≠ 255) (h0 : (b.extractLsb' 23 8).toNat ≠ 0) :
    AllPos (constant (F := Ideal) s .f32 b) := fun _ => ofBits_f32_pos b hs h h0

/-- The zero pattern. -/
theorem allNonneg_constant_00000000 (s : Shape) : AllNonneg (constant (F := Ideal) s .f32 0x00000000#32) :=
  fun _ => ⟨0, le_rfl, by show Ideal.ofBits .f32 0x00000000#32 = _; rw [Ideal.ofBits_zero_f32, EReal.coe_zero]⟩
theorem allReal_constant_00000000 (s : Shape) : AllReal (constant (F := Ideal) s .f32 0x00000000#32) :=
  (allNonneg_constant_00000000 s).allReal

/-- Minus one half. -/
theorem allReal_constant_BF000000 (s : Shape) : AllReal (constant (F := Ideal) s .f32 0xBF000000#32) :=
  allReal_constant s _ (by decide)

/-- Minus infinity. -/
theorem constant_FF800000 (s : Shape) (i : s.Idx) : constant (F := Ideal) s .f32 0xFF800000#32 i = ⊥ :=
  ofBits_f32_FF800000

theorem allPos_constant_3F800000 (s : Shape) : AllPos (constant (F := Ideal) s .f32 0x3F800000#32) :=
  allPos_constant s _ (by decide) (by decide) (by decide)
theorem allPos_constant_2B8CBCCC (s : Shape) : AllPos (constant (F := Ideal) s .f32 0x2B8CBCCC#32) :=
  allPos_constant s _ (by decide) (by decide) (by decide)
theorem allPos_constant_41200000 (s : Shape) : AllPos (constant (F := Ideal) s .f32 0x41200000#32) :=
  allPos_constant s _ (by decide) (by decide) (by decide)
theorem allPos_constant_3F000000 (s : Shape) : AllPos (constant (F := Ideal) s .f32 0x3F000000#32) :=
  allPos_constant s _ (by decide) (by decide) (by decide)
theorem allPos_constant_3727C5AC (s : Shape) : AllPos (constant (F := Ideal) s .f32 0x3727C5AC#32) :=
  allPos_constant s _ (by decide) (by decide) (by decide)
theorem allPos_constant_47C35000 (s : Shape) : AllPos (constant (F := Ideal) s .f32 0x47C35000#32) :=
  allPos_constant s _ (by decide) (by decide) (by decide)

/-! The same constants broadcast. -/

variable {s t : Shape} (dims : Fin s.rank → Fin t.rank) (h : s.BroadcastsInDim t dims)

theorem allNonneg_broadcast_constant_00000000 :
    AllNonneg (broadcastInDim t dims h (constant (F := Ideal) s .f32 0x00000000#32)) :=
  allNonneg_broadcastInDim dims h (allNonneg_constant_00000000 s)
theorem allReal_broadcast_constant_00000000 :
    AllReal (broadcastInDim t dims h (constant (F := Ideal) s .f32 0x00000000#32)) :=
  allReal_broadcastInDim dims h (allReal_constant_00000000 s)
theorem allReal_broadcast_constant_BF000000 :
    AllReal (broadcastInDim t dims h (constant (F := Ideal) s .f32 0xBF000000#32)) :=
  allReal_broadcastInDim dims h (allReal_constant_BF000000 s)
theorem broadcast_constant_FF800000 (j : t.Idx) :
    broadcastInDim t dims h (constant (F := Ideal) s .f32 0xFF800000#32) j = ⊥ :=
  broadcastInDim_bot dims h (constant_FF800000 s) j
theorem allPos_broadcast_constant_3F800000 :
    AllPos (broadcastInDim t dims h (constant (F := Ideal) s .f32 0x3F800000#32)) :=
  allPos_broadcastInDim dims h (allPos_constant_3F800000 s)
theorem allPos_broadcast_constant_2B8CBCCC :
    AllPos (broadcastInDim t dims h (constant (F := Ideal) s .f32 0x2B8CBCCC#32)) :=
  allPos_broadcastInDim dims h (allPos_constant_2B8CBCCC s)
theorem allPos_broadcast_constant_41200000 :
    AllPos (broadcastInDim t dims h (constant (F := Ideal) s .f32 0x41200000#32)) :=
  allPos_broadcastInDim dims h (allPos_constant_41200000 s)
theorem allPos_broadcast_constant_3F000000 :
    AllPos (broadcastInDim t dims h (constant (F := Ideal) s .f32 0x3F000000#32)) :=
  allPos_broadcastInDim dims h (allPos_constant_3F000000 s)
theorem allPos_broadcast_constant_3727C5AC :
    AllPos (broadcastInDim t dims h (constant (F := Ideal) s .f32 0x3727C5AC#32)) :=
  allPos_broadcastInDim dims h (allPos_constant_3727C5AC s)
theorem allPos_broadcast_constant_47C35000 :
    AllPos (broadcastInDim t dims h (constant (F := Ideal) s .f32 0x47C35000#32)) :=
  allPos_broadcastInDim dims h (allPos_constant_47C35000 s)

end Constants

/-! ## Finite sums

A finite sum of reals is real; of non-negative reals, non-negative; of positive reals over a non-empty
index set, positive. -/

section Sums
variable {ι : Type}

theorem sum_real (S : Finset ι) (f : ι → EReal) (hf : ∀ i ∈ S, ∃ r : ℝ, f i = (r : EReal)) :
    ∃ r : ℝ, ∑ i ∈ S, f i = (r : EReal) := by
  induction S using Finset.cons_induction with
  | empty => exact ⟨0, by rw [Finset.sum_empty, EReal.coe_zero]⟩
  | cons a S ha ih =>
    obtain ⟨x, hx⟩ := hf a (Finset.mem_cons_self a S)
    obtain ⟨y, hy⟩ := ih (fun i hi => hf i (Finset.mem_cons.2 (Or.inr hi)))
    exact ⟨x + y, by rw [Finset.sum_cons, hx, hy, EReal.coe_add]⟩

theorem sum_nonneg_real (S : Finset ι) (f : ι → EReal) (hf : ∀ i ∈ S, ∃ r : ℝ, 0 ≤ r ∧ f i = (r : EReal)) :
    ∃ r : ℝ, 0 ≤ r ∧ ∑ i ∈ S, f i = (r : EReal) := by
  induction S using Finset.cons_induction with
  | empty => exact ⟨0, le_rfl, by rw [Finset.sum_empty, EReal.coe_zero]⟩
  | cons a S ha ih =>
    obtain ⟨x, hx0, hx⟩ := hf a (Finset.mem_cons_self a S)
    obtain ⟨y, hy0, hy⟩ := ih (fun i hi => hf i (Finset.mem_cons.2 (Or.inr hi)))
    exact ⟨x + y, add_nonneg hx0 hy0, by rw [Finset.sum_cons, hx, hy, EReal.coe_add]⟩

theorem sum_pos_real (S : Finset ι) (hS : S.Nonempty) (f : ι → EReal)
    (hf : ∀ i ∈ S, ∃ r : ℝ, 0 < r ∧ f i = (r : EReal)) : ∃ r : ℝ, 0 < r ∧ ∑ i ∈ S, f i = (r : EReal) := by
  classical
  obtain ⟨a, ha⟩ := hS
  obtain ⟨x, hx0, hx⟩ := hf a ha
  obtain ⟨y, hy0, hy⟩ := sum_nonneg_real (S.erase a) f (fun i hi => by
    obtain ⟨r, hr, e⟩ := hf i (Finset.mem_of_mem_erase hi); exact ⟨r, hr.le, e⟩)
  exact ⟨x + y, add_pos_of_pos_of_nonneg hx0 hy0, by rw [← Finset.add_sum_erase S f ha, hx, hy, EReal.coe_add]⟩

end Sums

/-! ## The additive reduction, the additive scatter, the matrix product -/

section Contractions

/-- The additive reduction: the initial value plus the sum of the elements that reduce to the index. -/
theorem allReal_reduceAdd {s t u : Shape} {axes : List (Fin s.rank)} {x : FVec Ideal s .f32}
    {init : FVec Ideal u .f32} {h : s.ReducesTo axes t} {hu : 0 < u.numel} (hx : AllReal x) (hinit : AllReal init) :
    AllReal (Host.reduceAdd x init h hu) := fun j => by
  obtain ⟨a, ha⟩ := hinit (Shape.Idx.first hu)
  obtain ⟨b, hb⟩ := sum_real (Finset.univ.filter fun i => h.drop i = j) x (fun i _ => hx i)
  exact ⟨a + b, by
    show init (Shape.Idx.first hu) + ∑ i ∈ Finset.univ.filter (fun i => h.drop i = j), x i = _
    rw [ha, hb, EReal.coe_add]⟩

theorem allNonneg_reduceAdd {s t u : Shape} {axes : List (Fin s.rank)} {x : FVec Ideal s .f32}
    {init : FVec Ideal u .f32} {h : s.ReducesTo axes t} {hu : 0 < u.numel} (hx : AllNonneg x) (hinit : AllNonneg init) :
    AllNonneg (Host.reduceAdd x init h hu) := fun j => by
  obtain ⟨a, ha0, ha⟩ := hinit (Shape.Idx.first hu)
  obtain ⟨b, hb0, hb⟩ := sum_nonneg_real (Finset.univ.filter fun i => h.drop i = j) x (fun i _ => hx i)
  exact ⟨a + b, add_nonneg ha0 hb0, by
    show init (Shape.Idx.first hu) + ∑ i ∈ Finset.univ.filter (fun i => h.drop i = j), x i = _
    rw [ha, hb, EReal.coe_add]⟩

/-- A sum of positive elements from a non-negative initial value is positive when every result index has an
    element reducing to it. -/
theorem allPos_reduceAdd {s t u : Shape} {axes : List (Fin s.rank)} {x : FVec Ideal s .f32}
    {init : FVec Ideal u .f32} {h : s.ReducesTo axes t} {hu : 0 < u.numel} (hx : AllPos x) (hinit : AllNonneg init)
    (hne : ∀ j, ∃ i, h.drop i = j) : AllPos (Host.reduceAdd x init h hu) := fun j => by
  obtain ⟨a, ha0, ha⟩ := hinit (Shape.Idx.first hu)
  obtain ⟨i0, hi0⟩ := hne j
  obtain ⟨b, hb0, hb⟩ := sum_pos_real (Finset.univ.filter fun i => h.drop i = j)
    ⟨i0, Finset.mem_filter.2 ⟨Finset.mem_univ _, hi0⟩⟩ x (fun i _ => hx i)
  exact ⟨a + b, add_pos_of_nonneg_of_pos ha0 hb0, by
    show init (Shape.Idx.first hu) + ∑ i ∈ Finset.univ.filter (fun i => h.drop i = j), x i = _
    rw [ha, hb, EReal.coe_add]⟩

/-- Reducing one axis of positive size onto a result of positive rank: every result index is reached. -/
theorem drop_surjective_single {s t : Shape} {a : Fin s.rank} (h : s.ReducesTo [a] t) (ht : 0 < t.rank)
    (ha : 0 < s.size a) (j : t.Idx) : ∃ i, h.drop i = j := by
  have hR : s.Reduces [a] t := ⟨h.1, ht, h.2⟩
  exact ⟨hR.lift j ⟨0, ha⟩, by rw [Shape.ReducesTo.drop_eq_drop h hR]; exact hR.drop_lift j _⟩

/-- The additive scatter: each operand element plus a finite sum of update elements. -/
theorem allReal_scatterAdd {s si su : Shape} {w : Nat} (d : ScatterDims s si su) {x : FVec Ideal s .f32}
    (idx : IVec si w) {upd : FVec Ideal su .f32} (hx : AllReal x) (hupd : AllReal upd) :
    AllReal (Host.scatterAdd d x idx upd) := fun i => by
  obtain ⟨a, ha⟩ := hx i
  obtain ⟨b, hb⟩ := sum_real (Finset.univ.filter fun j => d.resultIdx? j idx = some i) upd (fun j _ => hupd j)
  exact ⟨a + b, by
    show x i + ∑ j ∈ Finset.univ.filter (fun j => d.resultIdx? j idx = some i), upd j = _
    rw [ha, hb, EReal.coe_add]⟩

theorem allNonneg_scatterAdd {s si su : Shape} {w : Nat} (d : ScatterDims s si su) {x : FVec Ideal s .f32}
    (idx : IVec si w) {upd : FVec Ideal su .f32} (hx : AllNonneg x) (hupd : AllNonneg upd) :
    AllNonneg (Host.scatterAdd d x idx upd) := fun i => by
  obtain ⟨a, ha0, ha⟩ := hx i
  obtain ⟨b, hb0, hb⟩ := sum_nonneg_real (Finset.univ.filter fun j => d.resultIdx? j idx = some i) upd (fun j _ => hupd j)
  exact ⟨a + b, add_nonneg ha0 hb0, by
    show x i + ∑ j ∈ Finset.univ.filter (fun j => d.resultIdx? j idx = some i), upd j = _
    rw [ha, hb, EReal.coe_add]⟩

/-- The matrix product: a finite sum of products. -/
theorem allReal_dotGeneral {sl sr so : Shape} (d : DotDims sl sr so) (prec : Option ContractPrecision)
    {lhs : FVec Ideal sl .f32} {rhs : FVec Ideal sr .f32} (hl : AllReal lhs) (hr : AllReal rhs) :
    AllReal (Host.dotGeneral d prec lhs rhs) := fun j => by
  obtain ⟨b, hb⟩ := sum_real (Finset.univ : Finset d.contr.Idx) (fun k => lhs (d.lhsIdx j k) * rhs (d.rhsIdx j k))
    (fun k _ => by
      obtain ⟨x, hx⟩ := hl (d.lhsIdx j k); obtain ⟨y, hy⟩ := hr (d.rhsIdx j k)
      exact ⟨x * y, by rw [hx, hy, EReal.coe_mul]⟩)
  exact ⟨b, by
    show FloatOps.dotGeneral d prec .single lhs rhs j = _
    rw [Ideal.dotGeneral_apply]; exact hb⟩

theorem allNonneg_dotGeneral {sl sr so : Shape} (d : DotDims sl sr so) (prec : Option ContractPrecision)
    {lhs : FVec Ideal sl .f32} {rhs : FVec Ideal sr .f32} (hl : AllNonneg lhs) (hr : AllNonneg rhs) :
    AllNonneg (Host.dotGeneral d prec lhs rhs) := fun j => by
  obtain ⟨b, hb0, hb⟩ := sum_nonneg_real (Finset.univ : Finset d.contr.Idx)
    (fun k => lhs (d.lhsIdx j k) * rhs (d.rhsIdx j k))
    (fun k _ => by
      obtain ⟨x, hx0, hx⟩ := hl (d.lhsIdx j k); obtain ⟨y, hy0, hy⟩ := hr (d.rhsIdx j k)
      exact ⟨x * y, mul_nonneg hx0 hy0, by rw [hx, hy, EReal.coe_mul]⟩)
  exact ⟨b, hb0, by
    show FloatOps.dotGeneral d prec .single lhs rhs j = _
    rw [Ideal.dotGeneral_apply]; exact hb⟩

end Contractions

/-! ## The maximum reduction

A left fold of the maximum from minus infinity (or a real) over a non-empty list of reals is real. -/

section MaxReduce

theorem foldl_max_real {ι : Type} (x : ι → EReal) (hx : ∀ i, ∃ r : ℝ, x i = (r : EReal)) :
    ∀ (L : List ι) (a : EReal), (a = ⊥ ∨ ∃ r : ℝ, a = (r : EReal)) → (L ≠ [] ∨ ∃ r : ℝ, a = (r : EReal)) →
      ∃ r : ℝ, L.foldl (fun r i => max r (x i)) a = (r : EReal)
  | [], a, _, h2 => by
    rcases h2 with h | h
    · exact absurd rfl h
    · exact h
  | i :: L, a, h1, _ => by
    have hreal : ∃ r : ℝ, max a (x i) = (r : EReal) := by
      obtain ⟨y, hy⟩ := hx i
      rcases h1 with h | ⟨z, hz⟩
      · exact ⟨y, by rw [h, hy, max_eq_right bot_le]⟩
      · exact ⟨max z y, by rw [hz, hy, coe_max_real]⟩
    rw [List.foldl_cons]
    exact foldl_max_real x hx L _ (Or.inr hreal) (Or.inr hreal)

/-- The maximum reduction of a real-valued array from minus infinity or a real, every result index reached. -/
theorem allReal_reduce_maximumf {s t u : Shape} {axes : List (Fin s.rank)} {x : FVec Ideal s .f32}
    {init : FVec Ideal u .f32} {h : s.ReducesTo axes t} {hu : 0 < u.numel} (hx : AllReal x)
    (hinit : init (Shape.Idx.first hu) = ⊥ ∨ ∃ r : ℝ, init (Shape.Idx.first hu) = (r : EReal))
    (hne : ∀ j, ∃ i, h.drop i = j) :
    AllReal (Host.reduce FloatOps.maximumf x init h hu) := fun j => by
  rw [Host.reduce_eq_foldl]
  obtain ⟨i0, hi0⟩ := hne j
  exact foldl_max_real x hx _ _ hinit (Or.inl (List.ne_nil_of_mem (List.mem_filter.2
    ⟨List.mem_map.2 ⟨s.rowMajor i0, List.mem_finRange _, Equiv.symm_apply_apply _ _⟩, by simpa using hi0⟩)))

/-- The same from the pattern of minus infinity. -/
theorem allReal_reduce_maximumf_FF800000 {s t u : Shape} {axes : List (Fin s.rank)} {x : FVec Ideal s .f32}
    {h : s.ReducesTo axes t} {hu : 0 < u.numel} (hx : AllReal x) (hne : ∀ j, ∃ i, h.drop i = j) :
    AllReal (Host.reduce FloatOps.maximumf x (constant (F := Ideal) u .f32 0xFF800000#32) h hu) :=
  allReal_reduce_maximumf hx (Or.inl (constant_FF800000 u _)) hne

end MaxReduce

/-! ## Concatenation -/

section Concat

theorem allReal_concatenate (t : Shape) (a : Fin t.rank) (xs : List ((s : Shape) × (s.Idx → EReal)))
    (h : Shape.Concatenates (xs.map (·.1)) t a) (hxs : ∀ p ∈ xs, AllReal p.2) : AllReal (concatenate t a xs h) :=
  fun _ => hxs _ (List.getElem_mem _) _
theorem allPos_concatenate (t : Shape) (a : Fin t.rank) (xs : List ((s : Shape) × (s.Idx → EReal)))
    (h : Shape.Concatenates (xs.map (·.1)) t a) (hxs : ∀ p ∈ xs, AllPos p.2) : AllPos (concatenate t a xs h) :=
  fun _ => hxs _ (List.getElem_mem _) _
theorem allNonneg_concatenate (t : Shape) (a : Fin t.rank) (xs : List ((s : Shape) × (s.Idx → EReal)))
    (h : Shape.Concatenates (xs.map (·.1)) t a) (hxs : ∀ p ∈ xs, AllNonneg p.2) : AllNonneg (concatenate t a xs h) :=
  fun _ => hxs _ (List.getElem_mem _) _

/-- Three pieces. -/
theorem allReal_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllReal x₁) (h₂ : AllReal x₂) (h₃ : AllReal x₃) :
    AllReal (concatenate t a [⟨s₁, x₁⟩, ⟨s₂, x₂⟩, ⟨s₃, x₃⟩] h) :=
  allReal_concatenate t a _ h (by
    intro p hp
    simp only [List.mem_cons, List.not_mem_nil, or_false] at hp
    rcases hp with rfl | rfl | rfl
    · exact h₁
    · exact h₂
    · exact h₃)
theorem allNonneg_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllNonneg x₁) (h₂ : AllNonneg x₂) (h₃ : AllNonneg x₃) :
    AllNonneg (concatenate t a [⟨s₁, x₁⟩, ⟨s₂, x₂⟩, ⟨s₃, x₃⟩] h) :=
  allNonneg_concatenate t a _ h (by
    intro p hp
    simp only [List.mem_cons, List.not_mem_nil, or_false] at hp
    rcases hp with rfl | rfl | rfl
    · exact h₁
    · exact h₂
    · exact h₃)

end Concat

end Cert.LibFinite
-- ==== Proof.Algebra.lean ====
/-
  The two shapes of the result are one function: on finite inputs with every label in range, the two-pass shape
  `Gk` (tables split into themselves and their own residuals, picked by indicator sums) is the direct shape `Gr`.

  The road. With every label in range, the indicator of "row n is of domain d" is 1 at d = the row's domain and 0
  elsewhere, so a table picked by the indicator sum is the table at the row's domain. Counts, sums and sums of
  squares of real entries are real numbers (the count a natural number, at least one for the domain of an existing
  row); the divisor max(count, 1) is a real at least one, so mean and variance are real, and the variance is
  non-negative by the Cauchy-Schwarz inequality applied to the indicator (which is its own square) against the
  indicator times the column. With the positive eps the reciprocal square root is then a real number too. For a
  singleton domain both shapes give the entry itself; for a larger one both are the same polynomial identity in reals.
-/
import proofs.«420900_j1090921693630_3_alg».proof.Proof.Spec
import proofs.«420900_j1090921693630_3_alg».proof.Proof.LibFinite
import Mathlib.Data.EReal.Basic
import Mathlib.Data.EReal.Operations
import Mathlib.Algebra.BigOperators.Ring.Finset
import Mathlib.Algebra.Order.BigOperators.Ring.Finset
import Mathlib.Analysis.SpecialFunctions.Sqrt
import Mathlib.Tactic.Ring
import Mathlib.Tactic.Linarith
import Mathlib.Tactic.Positivity
import Mathlib.Tactic.FieldSimp

noncomputable section

namespace Cert.DomainNorm

open Idealize.ShloMosaic Idealize.ShloMosaic.ValueIdx
open scoped BigOperators

/-! ## Labels in range: the indicator is a Kronecker delta and a pick is a table entry -/

/-- A label in range is its own domain. -/
theorem lab_eq_dom {y : IVec SY 32} (hy : InRange y) (n : Fin 16384) : lab y n = ((dom y n).val : ℤ) := by
  obtain ⟨h0, h8⟩ := hy n
  show lab y n = (((lab y n).toNat % 8 : ℕ) : ℤ)
  omega

/-- With labels in range the indicator is 1 at the row's domain and 0 at every other. -/
theorem ind_eq {y : IVec SY 32} (hy : InRange y) (d : Fin 8) (n : Fin 16384) :
    ind y d n = if d = dom y n then 1 else 0 := by
  unfold ind
  rw [lab_eq_dom hy n]
  by_cases h : d = dom y n
  · rw [if_pos h, if_pos (by rw [h])]
  · rw [if_neg h, if_neg]
    intro h'
    exact h (Fin.ext (by exact_mod_cast h'.symm))

/-- A table picked by the indicator sum is the table at the row's domain (the other terms are `0 * t = 0`, which
    holds for every extended real). -/
theorem pick_eq {y : IVec SY 32} (hy : InRange y) (t : Fin 8 → EReal) (n : Fin 16384) :
    pick y t n = t (dom y n) := by
  unfold pick
  rw [Finset.sum_eq_single (dom y n)]
  · rw [ind_eq hy, if_pos rfl, one_mul]
  · intro d _ hd
    rw [ind_eq hy, if_neg hd, zero_mul]
  · intro h
    exact absurd (Finset.mem_univ _) h

/-! ## The real counterparts of the indicator and of the three sums -/

/-- A finite sum of reals, read in the extended reals, is the real sum. -/
theorem coe_sum {ι : Type} (S : Finset ι) (f : ι → ℝ) :
    ∑ i ∈ S, (f i : EReal) = ((∑ i ∈ S, f i : ℝ) : EReal) := by
  induction S using Finset.cons_induction with
  | empty => rw [Finset.sum_empty, Finset.sum_empty, EReal.coe_zero]
  | cons a S ha ih => rw [Finset.sum_cons, Finset.sum_cons, ih, EReal.coe_add]

/-- The indicator as a real number. -/
def indR (y : IVec SY 32) (d : Fin 8) (n : Fin 16384) : ℝ := if lab y n = (d.val : ℤ) then 1 else 0

theorem ind_coe (y : IVec SY 32) (d : Fin 8) (n : Fin 16384) : ind y d n = (indR y d n : EReal) := by
  unfold ind indR
  split
  · exact EReal.coe_one.symm
  · exact EReal.coe_zero.symm

/-- The indicator is its own square. -/
theorem indR_sq (y : IVec SY 32) (d : Fin 8) (n : Fin 16384) : indR y d n * indR y d n = indR y d n := by
  unfold indR
  split
  · exact one_mul 1
  · exact zero_mul 0

theorem indR_nonneg (y : IVec SY 32) (d : Fin 8) (n : Fin 16384) : 0 ≤ indR y d n := by
  unfold indR
  split
  · exact zero_le_one
  · exact le_rfl

/-- The rows of a domain. -/
def rows (y : IVec SY 32) (d : Fin 8) : Finset (Fin 16384) :=
  Finset.univ.filter (fun n => lab y n = (d.val : ℤ))

def cntR (y : IVec SY 32) (d : Fin 8) : ℝ := ∑ n : Fin 16384, indR y d n

def sum1R (xr : SX.Idx → ℝ) (y : IVec SY 32) (d : Fin 8) (f : Fin 1024) : ℝ :=
  ∑ n : Fin 16384, indR y d n * xr (ix2 n f)

def sum2R (xr : SX.Idx → ℝ) (y : IVec SY 32) (d : Fin 8) (f : Fin 1024) : ℝ :=
  ∑ n : Fin 16384, indR y d n * (xr (ix2 n f) * xr (ix2 n f))

theorem cnt_coe (y : IVec SY 32) (d : Fin 8) : cnt y d = (cntR y d : EReal) := by
  unfold cnt cntR
  rw [← coe_sum]
  exact Finset.sum_congr rfl (fun n _ => ind_coe y d n)

theorem sum1_coe (xr : SX.Idx → ℝ) (y : IVec SY 32) (d : Fin 8) (f : Fin 1024) :
    sum1 (fun i => (xr i : EReal)) y d f = (sum1R xr y d f : EReal) := by
  unfold sum1 sum1R
  rw [← coe_sum]
  exact Finset.sum_congr rfl (fun n _ => by rw [ind_coe, EReal.coe_mul])

theorem sum2_coe (xr : SX.Idx → ℝ) (y : IVec SY 32) (d : Fin 8) (f : Fin 1024) :
    sum2 (fun i => (xr i : EReal)) y d f = (sum2R xr y d f : EReal) := by
  unfold sum2 sum2R
  rw [← coe_sum]
  exact Finset.sum_congr rfl (fun n _ => by rw [ind_coe, EReal.coe_mul, EReal.coe_mul])

/-- The count is the number of rows of the domain. -/
theorem cntR_eq_card (y : IVec SY 32) (d : Fin 8) : cntR y d = ((rows y d).card : ℝ) := by
  unfold cntR indR rows
  rw [Finset.sum_boole]

theorem cntR_nonneg (y : IVec SY 32) (d : Fin 8) : 0 ≤ cntR y d := by
  rw [cntR_eq_card]
  exact Nat.cast_nonneg _

/-- The domain of an existing row has at least that row. -/
theorem rows_dom_card_pos {y : IVec SY 32} (hy : InRange y) (n : Fin 16384) : 1 ≤ (rows y (dom y n)).card :=
  Finset.card_pos.2 ⟨n, Finset.mem_filter.2 ⟨Finset.mem_univ _, lab_eq_dom hy n⟩⟩

theorem sum2R_nonneg (xr : SX.Idx → ℝ) (y : IVec SY 32) (d : Fin 8) (f : Fin 1024) : 0 ≤ sum2R xr y d f :=
  Finset.sum_nonneg (fun n _ => mul_nonneg (indR_nonneg y d n) (mul_self_nonneg _))

/-- Cauchy-Schwarz for the indicator (its own square) against the indicator times the column:
    `(Σ a x)² = (Σ a · (a x))² ≤ (Σ a²) (Σ (a x)²) = (Σ a) (Σ a x²)`. -/
theorem sum1R_sq_le (xr : SX.Idx → ℝ) (y : IVec SY 32) (d : Fin 8) (f : Fin 1024) :
    sum1R xr y d f ^ 2 ≤ cntR y d * sum2R xr y d f := by
  have h := Finset.sum_mul_sq_le_sq_mul_sq (Finset.univ : Finset (Fin 16384)) (fun n => indR y d n)
    (fun n => indR y d n * xr (ix2 n f))
  have e1 : ∑ n : Fin 16384, indR y d n * (indR y d n * xr (ix2 n f)) = sum1R xr y d f :=
    Finset.sum_congr rfl (fun n _ => by rw [← mul_assoc, indR_sq])
  have e2 : ∑ n : Fin 16384, indR y d n ^ 2 = cntR y d :=
    Finset.sum_congr rfl (fun n _ => by rw [sq, indR_sq])
  have e3 : ∑ n : Fin 16384, (indR y d n * xr (ix2 n f)) ^ 2 = sum2R xr y d f :=
    Finset.sum_congr rfl (fun n _ => by
      rw [sq, mul_mul_mul_comm, indR_sq])
  rw [e1, e2, e3] at h
  exact h

/-! ## The divisor, the mean, the variance and the reciprocal square root are real -/

/-- The divisor as a real number: the count, or one for an empty domain. -/
def divR (y : IVec SY 32) (d : Fin 8) : ℝ := max (cntR y d) 1

theorem divR_pos (y : IVec SY 32) (d : Fin 8) : 0 < divR y d :=
  lt_of_lt_of_le zero_lt_one (le_max_right _ _)

theorem cntS_coe (y : IVec SY 32) (d : Fin 8) : cntS y d = (divR y d : EReal) := by
  unfold cntS divR
  rw [cnt_coe, ← EReal.coe_one, Cert.LibFinite.coe_max_real]

def meanR (xr : SX.Idx → ℝ) (y : IVec SY 32) (d : Fin 8) (f : Fin 1024) : ℝ :=
  sum1R xr y d f * (1 / divR y d)

def varR (xr : SX.Idx → ℝ) (y : IVec SY 32) (d : Fin 8) (f : Fin 1024) : ℝ :=
  sum2R xr y d f * (1 / divR y d) - meanR xr y d f * meanR xr y d f

theorem mean_coe (xr : SX.Idx → ℝ) (y : IVec SY 32) (d : Fin 8) (f : Fin 1024) :
    mean (fun i => (xr i : EReal)) y d f = (meanR xr y d f : EReal) := by
  unfold mean meanR
  rw [sum1_coe, cntS_coe, Ideal.div_coe (divR_pos y d).ne', EReal.coe_mul]

theorem var_coe (xr : SX.Idx → ℝ) (y : IVec SY 32) (d : Fin 8) (f : Fin 1024) :
    var (fun i => (xr i : EReal)) y d f = (varR xr y d f : EReal) := by
  unfold var varR
  rw [mean_coe, sum2_coe, cntS_coe, Ideal.div_coe (divR_pos y d).ne', EReal.coe_sub, EReal.coe_mul, EReal.coe_mul]

/-- The variance is non-negative: `S₁² ≤ k S₂ ≤ K S₂` with `K = max k 1`, so `S₂ / K − (S₁ / K)² = (K S₂ − S₁²) / K² ≥ 0`. -/
theorem varR_nonneg (xr : SX.Idx → ℝ) (y : IVec SY 32) (d : Fin 8) (f : Fin 1024) : 0 ≤ varR xr y d f := by
  have hK : 0 < divR y d := divR_pos y d
  have h1 : sum1R xr y d f ^ 2 ≤ divR y d * sum2R xr y d f :=
    (sum1R_sq_le xr y d f).trans (mul_le_mul_of_nonneg_right (le_max_left _ _) (sum2R_nonneg xr y d f))
  have e : varR xr y d f = (divR y d * sum2R xr y d f - sum1R xr y d f ^ 2) / divR y d ^ 2 := by
    unfold varR meanR
    field_simp
  rw [e]
  exact div_nonneg (sub_nonneg.2 h1) (sq_nonneg _)

/-- The variance's eps is a positive real. -/
theorem eps_pos : ∃ e : ℝ, 0 < e ∧ eps = (e : EReal) :=
  Cert.LibFinite.ofBits_f32_pos _ (by decide) (by decide) (by decide)

/-- The reciprocal square root of variance plus eps is a real number. -/
theorem inv_real (xr : SX.Idx → ℝ) (y : IVec SY 32) (d : Fin 8) (f : Fin 1024) :
    ∃ v : ℝ, inv (fun i => (xr i : EReal)) y d f = (v : EReal) := by
  obtain ⟨e, he0, he⟩ := eps_pos
  have hpos : 0 < varR xr y d f + e := add_pos_of_nonneg_of_pos (varR_nonneg xr y d f) he0
  refine ⟨(Real.sqrt (varR xr y d f + e))⁻¹, ?_⟩
  unfold inv
  rw [var_coe, he, ← EReal.coe_add, Ideal.rsqrt_coe, if_neg (not_lt.2 hpos.le), if_neg hpos.ne']

/-! ## The two shapes at one entry -/

theorem one_sub_one : (1 : EReal) - 1 = 0 := by
  rw [← EReal.coe_one, ← EReal.coe_sub, sub_self, EReal.coe_zero]

/-- The two shapes agree at the entry of row `n`, column `f`. -/
theorem Gk_eq_Gr_at (xr : SX.Idx → ℝ) (y : IVec SY 32) (gr br : ST.Idx → ℝ) (hy : InRange y)
    (n : Fin 16384) (f : Fin 1024) :
    Gk (fun i => (xr i : EReal)) y (fun j => (gr j : EReal)) (fun j => (br j : EReal)) (ix2 n f)
      = Gr (fun i => (xr i : EReal)) y (fun j => (gr j : EReal)) (fun j => (br j : EReal)) (ix2 n f) := by
  show (xr (ix2 n f) : EReal)
        * (pick y (fun d => scaleT (fun i => (xr i : EReal)) y (fun j => (gr j : EReal)) d f) n
          + pick y (fun d => scaleT (fun i => (xr i : EReal)) y (fun j => (gr j : EReal)) d f
              - scaleT (fun i => (xr i : EReal)) y (fun j => (gr j : EReal)) d f) n)
      + (pick y (fun d => shiftT (fun i => (xr i : EReal)) y (fun j => (gr j : EReal)) (fun j => (br j : EReal)) d f) n
          + pick y (fun d => shiftT (fun i => (xr i : EReal)) y (fun j => (gr j : EReal)) (fun j => (br j : EReal)) d f
              - shiftT (fun i => (xr i : EReal)) y (fun j => (gr j : EReal)) (fun j => (br j : EReal)) d f) n)
      = if 1 < cnt y (dom y n) then
          (gr (ix2 (dom y n) f) : EReal) * (((xr (ix2 n f) : EReal) - mean (fun i => (xr i : EReal)) y (dom y n) f)
            * inv (fun i => (xr i : EReal)) y (dom y n) f) + (br (ix2 (dom y n) f) : EReal)
        else if cnt y (dom y n) = 1 then (xr (ix2 n f) : EReal) else 0
  rw [pick_eq hy, pick_eq hy, pick_eq hy, pick_eq hy]
  have hcnt : cnt y (dom y n) = (((rows y (dom y n)).card : ℝ) : EReal) := by rw [cnt_coe, cntR_eq_card]
  rcases Nat.eq_or_lt_of_le (rows_dom_card_pos hy n) with h1 | h2
  · -- a singleton domain: scale 1, shift 0, and the direct shape returns the entry
    have c1 : cnt y (dom y n) = 1 := by rw [hcnt, ← h1, Nat.cast_one, EReal.coe_one]
    have c0 : cnt y (dom y n) ≠ 0 := by rw [c1]; exact one_ne_zero
    have clt : ¬ (1 : EReal) < cnt y (dom y n) := by rw [c1]; exact lt_irrefl _
    unfold scaleT shiftT
    rw [if_neg c0, if_pos c1, if_neg c0, if_pos c1, if_neg clt, if_pos c1, one_sub_one, sub_zero, add_zero,
      add_zero, add_zero, mul_one]
  · -- a domain of two or more rows: both shapes are one real polynomial identity
    have hk : (1 : ℝ) < ((rows y (dom y n)).card : ℝ) := by exact_mod_cast h2
    have clt : (1 : EReal) < cnt y (dom y n) := by
      rw [hcnt, ← EReal.coe_one]; exact EReal.coe_lt_coe_iff.2 hk
    have c0 : cnt y (dom y n) ≠ 0 := by
      rw [hcnt]; exact EReal.coe_ne_zero.2 (by linarith)
    have c1 : cnt y (dom y n) ≠ 1 := by
      rw [hcnt]; intro h; rw [EReal.coe_eq_one] at h; linarith
    obtain ⟨v, hv⟩ := inv_real xr y (dom y n) f
    unfold scaleT shiftT
    rw [if_neg c0, if_neg c1, if_neg c0, if_neg c1, if_pos clt, mean_coe, hv]
    simp only [← EReal.coe_mul, ← EReal.coe_sub, ← EReal.coe_add]
    rw [EReal.coe_eq_coe_iff]
    ring

theorem Gk_eq_Gr (x : SX.Idx → EReal) (y : IVec SY 32) (g b : ST.Idx → EReal)
    (hx : Finite x) (hg : Finite g) (hb : Finite b) (hy : InRange y) : Gk x y g b = Gr x y g b := by
  obtain ⟨xr, rfl⟩ : ∃ xr : SX.Idx → ℝ, x = fun i => (xr i : EReal) := by
    choose xr hxr using hx
    exact ⟨xr, funext hxr⟩
  obtain ⟨gr, rfl⟩ : ∃ gr : ST.Idx → ℝ, g = fun j => (gr j : EReal) := by
    choose gr hgr using hg
    exact ⟨gr, funext hgr⟩
  obtain ⟨br, rfl⟩ : ∃ br : ST.Idx → ℝ, b = fun j => (br j : EReal) := by
    choose br hbr using hb
    exact ⟨br, funext hbr⟩
  funext i
  obtain ⟨n, f, rfl⟩ : ∃ n f, i = ix2 n f := ⟨i 0, i 1, eq_ix2 i⟩
  exact Gk_eq_Gr_at xr y gr br hy n f

end Cert.DomainNorm

end
-- ==== Proof.PreRead.lean ====
/-
  What the precondition says of the argument arrays: every entry of the three float arrays is a real number, and
  every label lies in `[0, 8)`.

  The precondition is a conjunction of four "for all entries" statements, each a reduction by `and` from `true`
  over an array of comparison bits. Such a reduction is `1` only if every bit is `1`. For a float array the bit
  at an entry `a` is `|a| < +∞` with `|a| = max a (-a)` on the extended reals; neither `⊤` nor `⊥` satisfies it, so
  `a` is a real number. For the label array the bit at an entry `w` is `0 ≤ w ∧ w < 8`, both read signed.
-/
import proofs.«420900_j1090921693630_3_alg».proof.Pre_finite_inputs
import proofs.«420900_j1090921693630_3_alg».proof.Proof.Spec
import Idealize.ShloMosaic.Lib.ReduceAll
import Mathlib.Data.EReal.Basic

noncomputable section

namespace Cert.DomainNorm

open Idealize.ShloMosaic Idealize.ShloMosaic.ValueIdx

namespace PreRead

/-- The rank-0 shape has one index. -/
instance subsingleton_scalarIdx : Subsingleton Cert.Pre_finite_inputs.S_.Idx := ⟨fun _ _ => funext fun d => d.elim0⟩

/-- An extended real whose absolute value `max a (-a)` is below `⊤` is a real number: at `⊤` the maximum is `⊤`,
    and at `⊥` it is `-⊥ = ⊤`. -/
theorem real_of_abs_lt_top (a : EReal) (h : max a (-a) < ⊤) : ∃ r : ℝ, a = (r : EReal) := by
  induction a using EReal.rec with
  | bot => simp at h
  | coe r => exact ⟨r, rfl⟩
  | top => simp at h

/-- The pattern `0x7F800000` (sign clear, exponent all ones, fraction zero) denotes `+∞`. -/
theorem inf_bits : Ideal.ofBits .f32 0x7F800000#32 = (⊤ : EReal) := by
  simp [Ideal.ofBits, Ideal.ieee]

/-- One comparison bit of a float array: `|a| < +∞` holds only of a real number. -/
theorem real_of_abs_olt_inf (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  change Ideal.cmp .olt (max a (-a)) (Ideal.ofBits .f32 0x7F800000#32) = 1#1 at h
  rw [inf_bits] at h
  apply real_of_abs_lt_top
  by_contra hn
  simp [Ideal.cmp, hn] at h

/-- One comparison bit of the label array: `0 ≤ w` and `w < 8`, both signed. -/
theorem range_of_bits (w : BitVec 32)
    (h : IntOp.cmpi .sge w 0#32 = 1#1 ∧ IntOp.cmpi .slt w 8#32 = 1#1) : 0 ≤ w.toInt ∧ w.toInt < 8 := by
  obtain ⟨h1, h2⟩ := h
  rw [IntOp.cmpi_sge] at h1
  rw [IntOp.cmpi_slt] at h2
  rw [show (0#32 : BitVec 32).toInt = 0 from by decide] at h1
  rw [show (8#32 : BitVec 32).toInt = 8 from by decide] at h2
  exact ⟨h1, h2⟩

end PreRead

open PreRead in
theorem of_pre [Cert.Pre_finite_inputs.Facts] (x : FVec Ideal Cert.Pre_finite_inputs.S16384x1024 .f32)
    (y : IVec Cert.Pre_finite_inputs.S16384 32) (g b : FVec Ideal Cert.Pre_finite_inputs.S8x1024 .f32)
    (h : Cert.Pre_finite_inputs.fn (F := Ideal) x y g b = fun _ => 1#1) :
    Finite (s := SX) x ∧ InRange y ∧ Finite (s := ST) g ∧ Finite (s := ST) b := by
  -- the one result bit, with the chain of operations in view
  have h0 := congrFun h ValueIdx.ix0
  dsimp only [Cert.Pre_finite_inputs.fn, Cert.Pre_finite_inputs.fn_part1] at h0
  -- the three `and`s of the four reductions
  simp only [andi, IntOp.andi_eq_one] at h0
  obtain ⟨⟨⟨hx, hg⟩, hb⟩, hy⟩ := h0
  -- a reduction by `and` that is `1` had a `1` at every entry
  have ex := fun i => Host.reduce_andi_all _ _ _ _ _ hx i
  have eg := fun i => Host.reduce_andi_all _ _ _ _ _ hg i
  have eb := fun i => Host.reduce_andi_all _ _ _ _ _ hb i
  have ey := fun i => Host.reduce_andi_all _ _ _ _ _ hy i
  clear hx hg hb hy h
  -- each entry's bit: the comparison of that entry with the broadcast scalar
  simp only [cmpf, Host.absf, broadcastInDim, constant, constantI, andi, cmpi, IntOp.andi_eq_one] at ex eg eb ey
  exact ⟨fun i => real_of_abs_olt_inf _ (ex i), fun n => range_of_bits _ (ey (ix1 n)),
    fun i => real_of_abs_olt_inf _ (eg i), fun i => real_of_abs_olt_inf _ (eb i)⟩

end Cert.DomainNorm

end
-- ==== Proof.lean ====
/-
  Per-domain batch normalisation: a two-pass program (segment statistics accumulated by two kernels' worth of grid
  points, then per-domain scale and shift tables applied row by row) against the direct one (segment sums, gathers,
  a select on the domain's size), equal over the extended reals whenever the float inputs are finite and every label
  lies in `[0, 8)`.

  Both results are functions of the same indicator sums over all rows (Proof/Spec.lean). The two-pass program ends at
  `Gk` of its arguments (Proof/KValue.lean, over the first pass's per-half sums, the host's tables and the second
  pass's picks), the direct one at `Gr` (Proof/RefRead.lean), and `Gk = Gr` on finite inputs with labels in range
  (Proof/Algebra.lean: a domain's variance is non-negative by the Cauchy–Schwarz inequality, so the reciprocal root is
  real and the tables' residuals vanish; the rest is distributivity over the reals). The precondition gives exactly
  those hypotheses (Proof/PreRead.lean).
-/
import proofs.«420900_j1090921693630_3_alg».proof.Defs
import proofs.«420900_j1090921693630_3_alg».proof.Proof.Gen.Kernel
import proofs.«420900_j1090921693630_3_alg».proof.Proof.Gen.Kernel.Frame
import proofs.«420900_j1090921693630_3_alg».proof.Proof.Gen.KernelIdeal
import proofs.«420900_j1090921693630_3_alg».proof.Proof.Gen.KernelIdeal.Frame
import proofs.«420900_j1090921693630_3_alg».proof.Proof.Gen.ReferenceIdeal
import proofs.«420900_j1090921693630_3_alg».proof.Proof.Gen.Pre_finite_inputs
import proofs.«420900_j1090921693630_3_alg».proof.Proof.RefRun
import proofs.«420900_j1090921693630_3_alg».proof.Proof.KRun
import proofs.«420900_j1090921693630_3_alg».proof.Proof.KValue
import proofs.«420900_j1090921693630_3_alg».proof.Proof.RefRead
import proofs.«420900_j1090921693630_3_alg».proof.Proof.Algebra
import proofs.«420900_j1090921693630_3_alg».proof.Proof.PreRead

noncomputable section

namespace Cert.Proof

open Idealize.ShloMosaic Idealize.ShloMosaic.TcCoe Idealize.SL.Sem Cert.DomainNorm

theorem frame_k : Cert.frame_Kernel := fun m ρ _ => Cert.Kernel.Gen.frame m ρ

theorem frame_ki : Cert.frame_KernelIdeal := fun m ρ _ => Cert.KernelIdeal.Gen.frame m ρ

/-- The direct program's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at one function of the arguments: the two-pass one at `Gk`, the direct one at `Gr`, equal on
    finite inputs with labels in range, which is what the precondition says. -/
theorem algebraic : Cert.algebraic_KernelIdeal_ReferenceIdeal := by
  intro m ρ m' ρ' hpre hagree
  refine ⟨fun c => Cert.KernelIdeal.Gen.W12 m ρ c (Proc.devRef .tc Cert.KernelIdeal.main_v42),
    Cert.KernelIdeal.GenRun.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hy, hg, hb⟩ := of_pre _ _ _ _ (hpre c)
  obtain ⟨e0, e1, e2, e3⟩ := hagree c
  have hy' : InRange (m' ((c.tc : Thread Cert.ReferenceIdeal.nD Cert.ReferenceIdeal.τ).loc Cert.ReferenceIdeal.main_arg1)) := by
    rw [e1]; exact hy
  refine (Cert.ReferenceIdeal.RefValue.ref_value m' c hy').trans ?_
  rw [e0, e1, e2, e3]
  refine (Gk_eq_Gr _ _ _ _ hx hg hb hy).symm.trans ?_
  exact (Cert.KernelIdeal.KV.kernel_value m ρ c hy).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
